-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128 : Shape := ⟨2, ![8, 128]⟩
abbrev S4096x64 : Shape := ⟨2, ![4096, 64]⟩
abbrev S8192x8192 : Shape := ⟨2, ![8192, 8192]⟩
abbrev S8192 : Shape := ⟨1, ![8192]⟩
abbrev S4096x8192 : Shape := ⟨2, ![4096, 8192]⟩
abbrev S4096 : Shape := ⟨1, ![4096]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_
  bcast_S_S4096x8192 : S_.BroadcastsInDim S4096x8192 (![] : Fin 0 → Fin S4096x8192.rank)
  reducesTo_S4096x8192_S_d0_1 : S4096x8192.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg5 : FVec F S4096 .f32) (main_v13 : IVec S_ 1) (main_v16 : IVec S4096x8192 1) : IVec S_ 1 :=
  let main_c_5 : IVec S_ 1 := constantI S_ 1 1#1
  let main_v17 : IVec S_ 1 := (fun x v => Host.reduce IntOp.andi x v reducesTo_S4096x8192_S_d0_1 h_S_) main_v16 main_c_5
  let main_v18 : IVec S_ 1 := andi main_v13 main_v17
  let main_v19 : FVec F S4096 .f32 := Host.absf main_arg5
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : IVec S8x128 32) (main_arg1 : FVec F S4096x64 .f32) (main_arg2 : FVec F S8192x8192 .f32) (main_arg3 : FVec F S8192 .f32) (main_arg4 : FVec F S4096x8192 .f32) (main_arg5 : FVec F S4096 .f32) : IVec S_ 1 :=
  let main_v0 : FVec F S4096x64 .f32 := Host.absf main_arg1
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S8192x8192 .f32 := Host.absf main_arg2
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192 .f32 := Host.absf main_arg3
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S4096x8192 .f32 := Host.absf main_arg4
  let main_cst_4 : FVec F S_ .f32 := constant S_ .f32 0x7F800000#32
  let main_v15 : FVec F S4096x8192 .f32 := broadcastInDim S4096x8192 ![] bcast_S_S4096x8192 main_cst_4
  let main_v16 : IVec S4096x8192 1 := cmpf .olt main_v14 main_v15
  fn_part1 (F := F) main_arg5 main_v13 main_v16
-- ==== Kernel.lean ====
abbrev S8x128 : Shape := ⟨2, ![8, 128]⟩
abbrev S4096x64 : Shape := ⟨2, ![4096, 64]⟩
abbrev S8192x8192 : Shape := ⟨2, ![8192, 8192]⟩
abbrev S8192 : Shape := ⟨1, ![8192]⟩
abbrev S4096x8192 : Shape := ⟨2, ![4096, 8192]⟩
abbrev S4096 : Shape := ⟨1, ![4096]⟩
abbrev S_ : Shape := ⟨0, ![]⟩
abbrev S8x128x1 : Shape := ⟨3, ![8, 128, 1]⟩
abbrev S8x128x64 : Shape := ⟨3, ![8, 128, 64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S128x128x1 : Shape := ⟨3, ![128, 128, 1]⟩
abbrev S8x128x128x64 : Shape := ⟨4, ![8, 128, 128, 64]⟩
abbrev S1x128x128x1 : Shape := ⟨4, ![1, 128, 128, 1]⟩
abbrev S8x128x8192 : Shape := ⟨3, ![8, 128, 8192]⟩
abbrev S1024x8192 : Shape := ⟨2, ![1024, 8192]⟩
abbrev S1x8192 : Shape := ⟨2, ![1, 8192]⟩
abbrev S1x4096 : Shape := ⟨2, ![1, 4096]⟩
abbrev S1024x2048 : Shape := ⟨2, ![1024, 2048]⟩
abbrev S1x1024 : Shape := ⟨2, ![1, 1024]⟩
abbrev S1024x1024 : Shape := ⟨2, ![1024, 1024]⟩
abbrev S1024x4096 : Shape := ⟨2, ![1024, 4096]⟩
abbrev S8x128x4096 : Shape := ⟨3, ![8, 128, 4096]⟩

abbrev nBuf : Space → Nat
  | .hbm => 60
  | .vmem => 18
  | .smem => 0
  | _ => 0

abbrev bufTy : (tb : Table) → Fin (tcTables nBuf tb) → BufTy
  | .hbm, ⟨0, _⟩ => ⟨S8x128, .i32⟩
  | .hbm, ⟨1, _⟩ => ⟨S4096x64, .f32⟩
  | .hbm, ⟨2, _⟩ => ⟨S8192x8192, .f32⟩
  | .hbm, ⟨3, _⟩ => ⟨S8192, .f32⟩
  | .hbm, ⟨4, _⟩ => ⟨S4096x8192, .f32⟩
  | .hbm, ⟨5, _⟩ => ⟨S4096, .f32⟩
  | .hbm, ⟨6, _⟩ => ⟨S_, .i32⟩
  | .hbm, ⟨7, _⟩ => ⟨S8x128, .i32⟩
  | .hbm, ⟨8, _⟩ => ⟨S8x128, .i1⟩
  | .hbm, ⟨9, _⟩ => ⟨S_, .i32⟩
  | .hbm, ⟨10, _⟩ => ⟨S8x128, .i32⟩
  | .hbm, ⟨11, _⟩ => ⟨S8x128, .i32⟩
  | .hbm, ⟨12, _⟩ => ⟨S8x128, .i32⟩
  | .hbm, ⟨13, _⟩ => ⟨S8x128x1, .i32⟩
  | .hbm, ⟨14, _⟩ => ⟨S8x128x64, .f32⟩
  | .hbm, ⟨15, _⟩ => ⟨S128, .i32⟩
  | .hbm, ⟨16, _⟩ => ⟨S128x1, .i32⟩
  | .hbm, ⟨17, _⟩ => ⟨S128, .i32⟩
  | .hbm, ⟨18, _⟩ => ⟨S1x128, .i32⟩
  | .hbm, ⟨19, _⟩ => ⟨S_, .i32⟩
  | .hbm, ⟨20, _⟩ => ⟨S1x128, .i32⟩
  | .hbm, ⟨21, _⟩ => ⟨S1x128, .i32⟩
  | .hbm, ⟨22, _⟩ => ⟨S128x128, .i32⟩
  | .hbm, ⟨23, _⟩ => ⟨S128x128, .i32⟩
  | .hbm, ⟨24, _⟩ => ⟨S128x128, .i32⟩
  | .hbm, ⟨25, _⟩ => ⟨S_, .i32⟩
  | .hbm, ⟨26, _⟩ => ⟨S128x128, .i32⟩
  | .hbm, ⟨27, _⟩ => ⟨S128x128, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S128x128, .i32⟩
  | .hbm, ⟨32, _⟩ => ⟨S128x128, .i32⟩
  | .hbm, ⟨33, _⟩ => ⟨S_, .i32⟩
  | .hbm, ⟨34, _⟩ => ⟨S128x128, .i32⟩
  | .hbm, ⟨35, _⟩ => ⟨S128x128, .i32⟩
  | .hbm, ⟨36, _⟩ => ⟨S_, .i32⟩
  | .hbm, ⟨37, _⟩ => ⟨S128x128, .i32⟩
  | .hbm, ⟨38, _⟩ => ⟨S128x128, .i1⟩
  | .hbm, ⟨39, _⟩ => ⟨S_, .i32⟩
  | .hbm, ⟨40, _⟩ => ⟨S128x128, .i32⟩
  | .hbm, ⟨41, _⟩ => ⟨S128x128, .i32⟩
  | .hbm, ⟨42, _⟩ => ⟨S128x128, .i32⟩
  | .hbm, ⟨43, _⟩ => ⟨S128x128x1, .i32⟩
  | .hbm, ⟨44, _⟩ => ⟨S8x128x128x64, .f32⟩
  | .hbm, ⟨45, _⟩ => ⟨S1x128x128x1, .i1⟩
  | .hbm, ⟨46, _⟩ => ⟨S_, .f32⟩
  | .hbm, ⟨47, _⟩ => ⟨S8x128x128x64, .i1⟩
  | .hbm, ⟨48, _⟩ => ⟨S8x128x128x64, .f32⟩
  | .hbm, ⟨49, _⟩ => ⟨S8x128x128x64, .f32⟩
  | .hbm, ⟨50, _⟩ => ⟨S8x128x8192, .f32⟩
  | .hbm, ⟨51, _⟩ => ⟨S1024x8192, .f32⟩
  | .hbm, ⟨52, _⟩ => ⟨S1024x8192, .bf16⟩
  | .hbm, ⟨53, _⟩ => ⟨S8192x8192, .bf16⟩
  | .hbm, ⟨54, _⟩ => ⟨S4096x8192, .bf16⟩
  | .hbm, ⟨55, _⟩ => ⟨S1x8192, .f32⟩
  | .hbm, ⟨56, _⟩ => ⟨S1x4096, .f32⟩
  | .hbm, ⟨57, _⟩ => ⟨S1024x8192, .bf16⟩
  | .hbm, ⟨58, _⟩ => ⟨S1024x4096, .f32⟩
  | .hbm, ⟨59, _⟩ => ⟨S8x128x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x2048, .bf16⟩
  | .local _ .vmem, ⟨10, _⟩ => ⟨S1024x2048, .bf16⟩
  | .local _ .vmem, ⟨11, _⟩ => ⟨S1024x2048, .bf16⟩
  | .local _ .vmem, ⟨12, _⟩ => ⟨S1024x2048, .bf16⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | _, _ => ⟨S8x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_c_4 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v18 : Ref sig .tc := ⟨.hbm, 35, rfl⟩
abbrev main_c_5 : Ref sig .tc := ⟨.hbm, 36, rfl⟩
abbrev main_v19 : Ref sig .tc := ⟨.hbm, 37, rfl⟩
abbrev main_v20 : Ref sig .tc := ⟨.hbm, 38, rfl⟩
abbrev main_c_6 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst : Ref sig .tc := ⟨.hbm, 46, rfl⟩
abbrev main_call1_v0 : Ref sig .tc := ⟨.hbm, 47, rfl⟩
abbrev main_call1_v1 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S_S8x128 : S_.BroadcastsInDim S8x128 (![] : Fin 0 → Fin S8x128.rank)
  bcast_S8x128_S8x128x1_0_1 : S8x128.BroadcastsInDim S8x128x1 (![0, 1] : Fin 2 → Fin S8x128x1.rank)
  bcast_S128_S128x1_0 : S128.BroadcastsInDim S128x1 (![0] : Fin 1 → Fin S128x1.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S128x128_0_1 : S1x128.BroadcastsInDim S128x128 (![0, 1] : Fin 2 → Fin S128x128.rank)
  bcast_S128x1_S128x128_0_1 : S128x1.BroadcastsInDim S128x128 (![0, 1] : Fin 2 → Fin S128x128.rank)
  bcast_S_S128x128 : S_.BroadcastsInDim S128x128 (![] : Fin 0 → Fin S128x128.rank)
  bcast_S128x128_S128x128x1_0_1 : S128x128.BroadcastsInDim S128x128x1 (![0, 1] : Fin 2 → Fin S128x128x1.rank)
  bcast_S128x128_S1x128x128x1_1_2 : S128x128.BroadcastsInDim S1x128x128x1 (![1, 2] : Fin 2 → Fin S1x128x128x1.rank)
  bcast_S1x128x128x1_S8x128x128x64_0_1_2_3 : S1x128x128x1.BroadcastsInDim S8x128x128x64 (![0, 1, 2, 3] : Fin 4 → Fin S8x128x128x64.rank)
  bcast_S_S8x128x128x64 : S_.BroadcastsInDim S8x128x128x64 (![] : Fin 0 → Fin S8x128x128x64.rank)
  shapeCasts_S8x128x128x64_S8x128x8192 : S8x128x128x64.ShapeCasts S8x128x8192
  shapeCasts_S8x128x8192_S1024x8192 : S8x128x8192.ShapeCasts S1024x8192
  bitsLt_bf16_f32 : FTy.bits .bf16 < FTy.bits .f32
  shapeCasts_S8192_S1x8192 : S8192.ShapeCasts S1x8192
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S1024x4096_S8x128x4096 : S1024x4096.ShapeCasts S8x128x4096
  gather_S4096x64_S8x128x1_S8x128x64_2_0_n_n_0_2_164_wf : GatherDims.WF S4096x64 S8x128x1 S8x128x64 [2] [0] [] [0] [] 2 ![1, 64]
  gather_S8x128x64_S128x128x1_S8x128x128x64_03_1_n_n_1_2_8164_wf : GatherDims.WF S8x128x64 S128x128x1 S8x128x128x64 [0, 3] [1] [] [1] [] 2 ![8, 1, 64]
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S1024x8192.size a
  hwx0_0 : ∀ i : grid0.Coords, EltTy.bits .bf16 = 32 ∨ (Rect.block (s := S1024x8192) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x8192.size a
  hwx0_1 : ∀ i : grid0.Coords, EltTy.bits .bf16 = 32 ∨ (Rect.block (s := S8192x8192) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x8192.size a
  hwx0_3 : ∀ i : grid0.Coords, EltTy.bits .bf16 = 32 ∨ (Rect.block (s := S1024x8192) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S1024x8192.size a
  hwx1_0 : ∀ i : grid1.Coords, EltTy.bits .bf16 = 32 ∨ (Rect.block (s := S1024x8192) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S4096x8192.size a
  hwx1_1 : ∀ i : grid1.Coords, EltTy.bits .bf16 = 32 ∨ (Rect.block (s := S4096x8192) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x4096.size a
  hwx1_3 : ∀ i : grid1.Coords, EltTy.bits .f32 = 32 ∨ (Rect.block (s := S1024x4096) S1024x1024.size (cc1_transform_3 i) (hinb1_3 i)).WholeWords (EltTy.packing .f32)

variable [Facts₀]

def gather_S4096x64_S8x128x1_S8x128x64_2_0_n_n_0_2_164 : GatherDims S4096x64 S8x128x1 S8x128x64 where
  offsetDims := [2]
  collapsedSliceDims := [0]
  operandBatchingDims := []
  startIndicesBatchingDims := []
  startIndexMap := [0]
  indexVectorDim := 2
  sliceSizes := ![1, 64]
  wf := gather_S4096x64_S8x128x1_S8x128x64_2_0_n_n_0_2_164_wf
def gather_S8x128x64_S128x128x1_S8x128x128x64_03_1_n_n_1_2_8164 : GatherDims S8x128x64 S128x128x1 S8x128x128x64 where
  offsetDims := [0, 3]
  collapsedSliceDims := [1]
  operandBatchingDims := []
  startIndicesBatchingDims := []
  startIndexMap := [1]
  indexVectorDim := 2
  sliceSizes := ![8, 1, 64]
  wf := gather_S8x128x64_S128x128x1_S8x128x128x64_03_1_n_n_1_2_8164_wf
def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_v30) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v35) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v35) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8x128 : Shape := ⟨2, ![8, 128]⟩
abbrev S4096x64 : Shape := ⟨2, ![4096, 64]⟩
abbrev S8192x8192 : Shape := ⟨2, ![8192, 8192]⟩
abbrev S8192 : Shape := ⟨1, ![8192]⟩
abbrev S4096x8192 : Shape := ⟨2, ![4096, 8192]⟩
abbrev S4096 : Shape := ⟨1, ![4096]⟩
abbrev S_ : Shape := ⟨0, ![]⟩
abbrev S8x128x1 : Shape := ⟨3, ![8, 128, 1]⟩
abbrev S8x128x64 : Shape := ⟨3, ![8, 128, 64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S128x128x1 : Shape := ⟨3, ![128, 128, 1]⟩
abbrev S8x128x128x64 : Shape := ⟨4, ![8, 128, 128, 64]⟩
abbrev S1x128x128x1 : Shape := ⟨4, ![1, 128, 128, 1]⟩
abbrev S8x128x8192 : Shape := ⟨3, ![8, 128, 8192]⟩
abbrev S1x1x8192 : Shape := ⟨3, ![1, 1, 8192]⟩
abbrev S8x128x4096 : Shape := ⟨3, ![8, 128, 4096]⟩
abbrev S1x1x4096 : Shape := ⟨3, ![1, 1, 4096]⟩

abbrev nBuf : Space → Nat
  | .hbm => 76
  | .vmem => 0
  | .smem => 0
  | _ => 0

abbrev bufTy : (tb : Table) → Fin (tcTables nBuf tb) → BufTy
  | .hbm, ⟨0, _⟩ => ⟨S8x128, .i32⟩
  | .hbm, ⟨1, _⟩ => ⟨S4096x64, .f32⟩
  | .hbm, ⟨2, _⟩ => ⟨S8192x8192, .f32⟩
  | .hbm, ⟨3, _⟩ => ⟨S8192, .f32⟩
  | .hbm, ⟨4, _⟩ => ⟨S4096x8192, .f32⟩
  | .hbm, ⟨5, _⟩ => ⟨S4096, .f32⟩
  | .hbm, ⟨6, _⟩ => ⟨S_, .i32⟩
  | .hbm, ⟨7, _⟩ => ⟨S8x128, .i32⟩
  | .hbm, ⟨8, _⟩ => ⟨S8x128, .i1⟩
  | .hbm, ⟨9, _⟩ => ⟨S_, .i32⟩
  | .hbm, ⟨10, _⟩ => ⟨S8x128, .i32⟩
  | .hbm, ⟨11, _⟩ => ⟨S8x128, .i32⟩
  | .hbm, ⟨12, _⟩ => ⟨S8x128, .i32⟩
  | .hbm, ⟨13, _⟩ => ⟨S8x128x1, .i32⟩
  | .hbm, ⟨14, _⟩ => ⟨S8x128x64, .f32⟩
  | .hbm, ⟨15, _⟩ => ⟨S128, .i32⟩
  | .hbm, ⟨16, _⟩ => ⟨S128x1, .i32⟩
  | .hbm, ⟨17, _⟩ => ⟨S128, .i32⟩
  | .hbm, ⟨18, _⟩ => ⟨S1x128, .i32⟩
  | .hbm, ⟨19, _⟩ => ⟨S_, .i32⟩
  | .hbm, ⟨20, _⟩ => ⟨S1x128, .i32⟩
  | .hbm, ⟨21, _⟩ => ⟨S1x128, .i32⟩
  | .hbm, ⟨22, _⟩ => ⟨S128x128, .i32⟩
  | .hbm, ⟨23, _⟩ => ⟨S128x128, .i32⟩
  | .hbm, ⟨24, _⟩ => ⟨S128x128, .i32⟩
  | .hbm, ⟨25, _⟩ => ⟨S_, .i32⟩
  | .hbm, ⟨26, _⟩ => ⟨S128x128, .i32⟩
  | .hbm, ⟨27, _⟩ => ⟨S128x128, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S128x128, .i32⟩
  | .hbm, ⟨32, _⟩ => ⟨S128x128, .i32⟩
  | .hbm, ⟨33, _⟩ => ⟨S_, .i32⟩
  | .hbm, ⟨34, _⟩ => ⟨S128x128, .i32⟩
  | .hbm, ⟨35, _⟩ => ⟨S128x128, .i32⟩
  | .hbm, ⟨36, _⟩ => ⟨S_, .i32⟩
  | .hbm, ⟨37, _⟩ => ⟨S128x128, .i32⟩
  | .hbm, ⟨38, _⟩ => ⟨S128x128, .i1⟩
  | .hbm, ⟨39, _⟩ => ⟨S_, .i32⟩
  | .hbm, ⟨40, _⟩ => ⟨S128x128, .i32⟩
  | .hbm, ⟨41, _⟩ => ⟨S128x128, .i32⟩
  | .hbm, ⟨42, _⟩ => ⟨S128x128, .i32⟩
  | .hbm, ⟨43, _⟩ => ⟨S128x128x1, .i32⟩
  | .hbm, ⟨44, _⟩ => ⟨S8x128x128x64, .f32⟩
  | .hbm, ⟨45, _⟩ => ⟨S1x128x128x1, .i1⟩
  | .hbm, ⟨46, _⟩ => ⟨S_, .f32⟩
  | .hbm, ⟨47, _⟩ => ⟨S8x128x128x64, .i1⟩
  | .hbm, ⟨48, _⟩ => ⟨S8x128x128x64, .f32⟩
  | .hbm, ⟨49, _⟩ => ⟨S8x128x128x64, .f32⟩
  | .hbm, ⟨50, _⟩ => ⟨S8x128x8192, .f32⟩
  | .hbm, ⟨51, _⟩ => ⟨S8x128x8192, .f32⟩
  | .hbm, ⟨52, _⟩ => ⟨S1x1x8192, .f32⟩
  | .hbm, ⟨53, _⟩ => ⟨S8x128x8192, .f32⟩
  | .hbm, ⟨54, _⟩ => ⟨S8x128x8192, .f32⟩
  | .hbm, ⟨55, _⟩ => ⟨S_, .f32⟩
  | .hbm, ⟨56, _⟩ => ⟨S8x128x8192, .f32⟩
  | .hbm, ⟨57, _⟩ => ⟨S8x128x8192, .f32⟩
  | .hbm, ⟨58, _⟩ => ⟨S8x128x8192, .f32⟩
  | .hbm, ⟨59, _⟩ => ⟨S8x128x8192, .f32⟩
  | .hbm, ⟨60, _⟩ => ⟨S_, .f32⟩
  | .hbm, ⟨61, _⟩ => ⟨S8x128x8192, .f32⟩
  | .hbm, ⟨62, _⟩ => ⟨S8x128x8192, .f32⟩
  | .hbm, ⟨63, _⟩ => ⟨S8x128x8192, .f32⟩
  | .hbm, ⟨64, _⟩ => ⟨S_, .f32⟩
  | .hbm, ⟨65, _⟩ => ⟨S8x128x8192, .f32⟩
  | .hbm, ⟨66, _⟩ => ⟨S8x128x8192, .f32⟩
  | .hbm, ⟨67, _⟩ => ⟨S8x128x8192, .f32⟩
  | .hbm, ⟨68, _⟩ => ⟨S_, .f32⟩
  | .hbm, ⟨69, _⟩ => ⟨S8x128x8192, .f32⟩
  | .hbm, ⟨70, _⟩ => ⟨S8x128x8192, .f32⟩
  | .hbm, ⟨71, _⟩ => ⟨S8x128x8192, .f32⟩
  | .hbm, ⟨72, _⟩ => ⟨S8x128x4096, .f32⟩
  | .hbm, ⟨73, _⟩ => ⟨S1x1x4096, .f32⟩
  | .hbm, ⟨74, _⟩ => ⟨S8x128x4096, .f32⟩
  | .hbm, ⟨75, _⟩ => ⟨S8x128x4096, .f32⟩
  | _, _ => ⟨S8x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_c_4 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v18 : Ref sig .tc := ⟨.hbm, 35, rfl⟩
abbrev main_c_5 : Ref sig .tc := ⟨.hbm, 36, rfl⟩
abbrev main_v19 : Ref sig .tc := ⟨.hbm, 37, rfl⟩
abbrev main_v20 : Ref sig .tc := ⟨.hbm, 38, rfl⟩
abbrev main_c_6 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst : Ref sig .tc := ⟨.hbm, 46, rfl⟩
abbrev main_call1_v0 : Ref sig .tc := ⟨.hbm, 47, rfl⟩
abbrev main_call1_v1 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_10 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩

abbrev nD : Nat := 1
abbrev τ : Topo := Topo.v7x

variable {F : FTy → Type} [FloatOps F]

class Facts₀ : Prop where
  bcast_S_S8x128 : S_.BroadcastsInDim S8x128 (![] : Fin 0 → Fin S8x128.rank)
  bcast_S8x128_S8x128x1_0_1 : S8x128.BroadcastsInDim S8x128x1 (![0, 1] : Fin 2 → Fin S8x128x1.rank)
  bcast_S128_S128x1_0 : S128.BroadcastsInDim S128x1 (![0] : Fin 1 → Fin S128x1.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S128x128_0_1 : S1x128.BroadcastsInDim S128x128 (![0, 1] : Fin 2 → Fin S128x128.rank)
  bcast_S128x1_S128x128_0_1 : S128x1.BroadcastsInDim S128x128 (![0, 1] : Fin 2 → Fin S128x128.rank)
  bcast_S_S128x128 : S_.BroadcastsInDim S128x128 (![] : Fin 0 → Fin S128x128.rank)
  bcast_S128x128_S128x128x1_0_1 : S128x128.BroadcastsInDim S128x128x1 (![0, 1] : Fin 2 → Fin S128x128x1.rank)
  bcast_S128x128_S1x128x128x1_1_2 : S128x128.BroadcastsInDim S1x128x128x1 (![1, 2] : Fin 2 → Fin S1x128x128x1.rank)
  bcast_S1x128x128x1_S8x128x128x64_0_1_2_3 : S1x128x128x1.BroadcastsInDim S8x128x128x64 (![0, 1, 2, 3] : Fin 4 → Fin S8x128x128x64.rank)
  bcast_S_S8x128x128x64 : S_.BroadcastsInDim S8x128x128x64 (![] : Fin 0 → Fin S8x128x128x64.rank)
  shapeCasts_S8x128x128x64_S8x128x8192 : S8x128x128x64.ShapeCasts S8x128x8192
  bcast_S8192_S1x1x8192_2 : S8192.BroadcastsInDim S1x1x8192 (![2] : Fin 1 → Fin S1x1x8192.rank)
  bcast_S1x1x8192_S8x128x8192_0_1_2 : S1x1x8192.BroadcastsInDim S8x128x8192 (![0, 1, 2] : Fin 3 → Fin S8x128x8192.rank)
  bcast_S_S8x128x8192 : S_.BroadcastsInDim S8x128x8192 (![] : Fin 0 → Fin S8x128x8192.rank)
  bcast_S4096_S1x1x4096_2 : S4096.BroadcastsInDim S1x1x4096 (![2] : Fin 1 → Fin S1x1x4096.rank)
  bcast_S1x1x4096_S8x128x4096_0_1_2 : S1x1x4096.BroadcastsInDim S8x128x4096 (![0, 1, 2] : Fin 3 → Fin S8x128x4096.rank)
  gather_S4096x64_S8x128x1_S8x128x64_2_0_n_n_0_2_164_wf : GatherDims.WF S4096x64 S8x128x1 S8x128x64 [2] [0] [] [0] [] 2 ![1, 64]
  gather_S8x128x64_S128x128x1_S8x128x128x64_03_1_n_n_1_2_8164_wf : GatherDims.WF S8x128x64 S128x128x1 S8x128x128x64 [0, 3] [1] [] [1] [] 2 ![8, 1, 64]
  dot_S8x128x8192_S8192x8192_S8x128x8192_2_1_01_0_n_n_wf : DotDims.WF S8x128x8192 S8192x8192 S8x128x8192 [2] [1] [0, 1] [0] [] []
  dot_S8x128x8192_S4096x8192_S8x128x4096_2_1_01_0_n_n_wf : DotDims.WF S8x128x8192 S4096x8192 S8x128x4096 [2] [1] [0, 1] [0] [] []

variable [Facts₀]

def gather_S4096x64_S8x128x1_S8x128x64_2_0_n_n_0_2_164 : GatherDims S4096x64 S8x128x1 S8x128x64 where
  offsetDims := [2]
  collapsedSliceDims := [0]
  operandBatchingDims := []
  startIndicesBatchingDims := []
  startIndexMap := [0]
  indexVectorDim := 2
  sliceSizes := ![1, 64]
  wf := gather_S4096x64_S8x128x1_S8x128x64_2_0_n_n_0_2_164_wf
def gather_S8x128x64_S128x128x1_S8x128x128x64_03_1_n_n_1_2_8164 : GatherDims S8x128x64 S128x128x1 S8x128x128x64 where
  offsetDims := [0, 3]
  collapsedSliceDims := [1]
  operandBatchingDims := []
  startIndicesBatchingDims := []
  startIndexMap := [1]
  indexVectorDim := 2
  sliceSizes := ![8, 1, 64]
  wf := gather_S8x128x64_S128x128x1_S8x128x128x64_03_1_n_n_1_2_8164_wf
def dot_S8x128x8192_S8192x8192_S8x128x8192_2_1_01_0_n_n : DotDims S8x128x8192 S8192x8192 S8x128x8192 where
  lhsContracting := [2]
  rhsContracting := [1]
  lhsNonContracting := [0, 1]
  rhsNonContracting := [0]
  lhsBatch := []
  rhsBatch := []
  wf := dot_S8x128x8192_S8192x8192_S8x128x8192_2_1_01_0_n_n_wf
def dot_S8x128x8192_S4096x8192_S8x128x4096_2_1_01_0_n_n : DotDims S8x128x8192 S4096x8192 S8x128x4096 where
  lhsContracting := [2]
  rhsContracting := [1]
  lhsNonContracting := [0, 1]
  rhsNonContracting := [0]
  lhsBatch := []
  rhsBatch := []
  wf := dot_S8x128x8192_S4096x8192_S8x128x4096_2_1_01_0_n_n_wf

class Facts : Prop extends Facts₀ where

variable [Facts]
-- ==== Proof.KernelBlocks.lean ====
/- What the two matmul regions hold, point by point, as plain recursions over the grid.
   Each region walks its grid row-major: point t is (column tile t / 4, feature quarter t % 4). At the first quarter
   the accumulator restarts from zero; at every quarter it takes the product of the row block and the weight block
   of that quarter; the output tile is written from the accumulator at the last quarter. -/
import proofs.«141452_j42734924595240_1_alg».proof.Proof.Gen.Kernel.Launch
import proofs.«141452_j42734924595240_1_alg».proof.Proof.Gen.Kernel.Skeleton
import proofs.«141452_j42734924595240_1_alg».proof.Proof.Gen.Kernel.Points
import Idealize.ShloMosaic.Lib.Pipeline.FrameBody
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the buffers' contents when a region is entered: every definition here is stated at this parameter
variable (V : (c : Dev nD) → (b : Ref sig .tc) → Buf (Elt F) ((c : Thread nD τ).loc b))

/-! ## The first region (hidden layer) -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after point n: the running sum of the quarter products since the last restart. -/
def acc0 (c : Dev nD) : (n : ℕ) → n < cfg0.N → Vec F S1024x1024 .f32
  | 0, hn => k0_pay2 (k0_pay1 (F := F)) (iblk0 V c 0 ⟨0, hn⟩) (iblk0 V c 1 ⟨0, hn⟩)
  | n + 1, hn => k0_pay2 (if (n + 1) % 4 = 0 then k0_pay1 (F := F) else acc0 c n (Nat.lt_of_succ_lt hn))
      (iblk0 V c 0 ⟨n + 1, hn⟩) (iblk0 V c 1 ⟨n + 1, hn⟩)

/-- What the output tile's staging buffer would hold after point t if the body stored into it there
    (it does at the last quarter only): bias added, GELU applied. -/
def tile0 (c : Dev nD) (t : Fin cfg0.N) : Vec F S1024x1024 .bf16 :=
  k0_pay3 (acc0 V c t.val t.isLt) (iblk0 V c 2 t)

/-! ## The second region (output layer) -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def acc1 (c : Dev nD) : (n : ℕ) → n < cfg1.N → Vec F S1024x1024 .f32
  | 0, hn => k1_pay2 (k1_pay1 (F := F)) (iblk1 V c 0 ⟨0, hn⟩) (iblk1 V c 1 ⟨0, hn⟩)
  | n + 1, hn => k1_pay2 (if (n + 1) % 4 = 0 then k1_pay1 (F := F) else acc1 c n (Nat.lt_of_succ_lt hn))
      (iblk1 V c 0 ⟨n + 1, hn⟩) (iblk1 V c 1 ⟨n + 1, hn⟩)

def tile1 (c : Dev nD) (t : Fin cfg1.N) : Vec F S1024x1024 .f32 :=
  k1_pay3 (acc1 V c t.val t.isLt) (iblk1 V c 2 t)

end Cert.Kernel.Hand

end
-- ==== Proof.KernelFrame0Runs.lean ====
/- Region 0 (the hidden layer's matmul): what its frame shares, and the kernel body's run in each of its three cases.
   The grid is walked row-major, point t = (column tile t / 4, feature quarter t % 4). At a first quarter the body
   resets the accumulator and adds the quarter's product; at a middle quarter it adds the product; at a last quarter
   it adds the product and stores the output tile from the accumulator. Every load and store is of a whole buffer,
   so each run's postcondition names the contents outright. -/
import proofs.«141452_j42734924595240_1_alg».proof.Proof.Gen.Kernel.Launch
import proofs.«141452_j42734924595240_1_alg».proof.Proof.Gen.Kernel.Skeleton
import proofs.«141452_j42734924595240_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, in closed form over the grid -/

/-- The first conditional's condition (the feature quarter is the first one), from the grid coordinates. -/
abbrev cond0_0 (i : grid0.Coords) : Prop := (Scalar.cmpi .ne (Scalar.extui (Scalar.cmpi .eq (BitVec.ofNat 32 (i 1).val) 0#32)) 0#32) = 1#1
/-- It holds exactly at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional's condition (the feature quarter is the last one). -/
abbrev cond0_1 (i : grid0.Coords) : Prop := k0_cond2 i = 1#1
/-- It holds exactly at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Whole-buffer rectangles -/

/-- The zero offsets of a whole-buffer rectangle of rank 2, as a function. -/
theorem zeroOff2 : (![0, 0] : Fin 2 → Nat) = fun _ => 0 := funext fun a => by fin_cases a <;> rfl

/-- A store through the whole 1024×1024 rectangle, made last, is what the buffer reads afterwards, whatever it
    held and whatever was stored before: the rectangle covers every index. -/
theorem read_whole_store_last {e : EltTy} {sg : RefSig} {κ : Kind} {sp : Space} (v : View sg κ sp S1024x1024 e) (f : v.ty.Contents (Elt F))
    (w : S1024x1024.Idx → Elt F e) (L : List (View.Piece (Elt F) S1024x1024 e)) :
    v.read (Elt F) (v.writes (Elt F) f
      ((⟨Rect.unit (s := S1024x1024) ![0, 0] S1024x1024.size inb_S1024x1024_S1024x1024_0_0, w⟩ : View.Piece (Elt F) S1024x1024 e) :: L)) = w := by
  rw [View.read_writes_eq_canon _ _ _ (fun y => ⟨_, List.mem_cons_self .., View.mem_set_unit_zero zeroOff2 inb_S1024x1024_S1024x1024_0_0 y⟩),
    View.canon_cons_unit_zero zeroOff2]

/-! ## Where the windows are idle -/

/-- The three input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
/-- Away from the last quarter the output window is idle (nothing is stored into it) -/
theorem idleAt0_3 : ∀ t : Fin cfg0.N, ¬cond0_1 (grid0.coords t) → cfg0.idle 3 (grid0.coords t) = true := by decide +kernel
/-- and its block is not written back there. -/
theorem noFlush0_3 : ∀ t : Fin cfg0.N, ¬cond0_1 (grid0.coords t) → (cfg0.win 3).flush t = false := by decide +kernel
/-- At the last quarter it is live. -/
theorem liveAt0_3 : ∀ t : Fin cfg0.N, cond0_1 (grid0.coords t) → cfg0.idle 3 (grid0.coords t) = false := by decide +kernel

/-! ## The memrefs the body is called with -/

/-- Each window's current staging memref at point t, as the pipeline passes it, and its wholeness. -/
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows. -/
abbrev scM0 : Memref sig .tc .vmem S1024x1024 .f32 := Memref.whole cc0_scratch0

/-! ## The scoped rest -/

/-- The nine scoped buffers of the other region (its staging buffers and its accumulator), each whole at some contents:
    this region's body never touches them. -/
def otherRest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_scratch0), ((c : Thread nD τ).loc cc1_scratch0) ↦{fullShare} f))

/-- What the launch hands the region, buffer by buffer: the accumulator owned at some contents, the other region's
    nine buffers, and the generator register at some state. -/
theorem PhiA0_eq (c : Dev nD) :
    (Pipeline.ΦA spec0 c : sProp 𝕄)
      = iprop(iprop((∃ d, owns (c : Thread nD τ) scM0 fullShare d) ∗ otherRest0 c) ∗ (∃ r, prngReg c r)) := by
  unfold Pipeline.ΦA otherRest0; rw [scopedRest0_eq]; simp only [scM0, owns_whole]; try rfl

/-! ## The body's run, case by case -/

set_option maxHeartbeats 1000000 in
/-- A first quarter (the first conditional taken, the second not): the accumulator is reset to zero and then takes
    this quarter's product, whatever it held; the output tile's buffer is not touched. -/
theorem kernelRun0_A (c : Dev nD) (i : grid0.Coords)
    (arg2 : Memref sig .tc .vmem S1024x2048 .bf16) (harg2 : arg2.IsWhole)
    (arg3 : Memref sig .tc .vmem S1024x2048 .bf16) (harg3 : arg3.IsWhole)
    (arg4 : Memref sig .tc .vmem S1x1024 .f32) (harg4 : arg4.IsWhole)
    (arg5 : Memref sig .tc .vmem S1024x1024 .bf16) (harg5 : arg5.IsWhole)
    (arg6 : Memref sig .tc .vmem S1024x1024 .f32) (harg6 : arg6.IsWhole)
    (hc0 : cond0_0 i) (hc1 : ¬cond0_1 i)
    (x0 : Vec F S1024x2048 .bf16) (x1 : Vec F S1024x2048 .bf16) (x2 : Vec F S1x1024 .f32)
    (xi3 : Vec F S1024x1024 .bf16) (xs : Vec F S1024x1024 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi3
        ∗ owns (c : Thread nD τ) arg6 fullShare xs
        ∗ (iprop(owns (c : Thread nD τ) arg2 fullShare x0 ∗ owns (c : Thread nD τ) arg3 fullShare x1
            ∗ owns (c : Thread nD τ) arg4 fullShare x2
            ∗ owns (c : Thread nD τ) arg5 fullShare xi3
            ∗ owns (c : Thread nD τ) arg6 fullShare (k0_pay2 (k0_pay1 (F := F)) x0 x1)) -∗ K ⟨⟩))
      ⊢ wp frame (wpE (defs₀ (F := F)) Variants.none c none) E
          (cc0__mlp1_kernel i arg2 harg2 arg3 harg3 arg4 harg4 arg5 harg5 arg6 harg6) K := by
  simp only [cc0__mlp1_kernel_eq_skeleton]; unfold cc0__mlp1_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  -- two whole-buffer stores, the reset and then the update: the update is what is read back, and the load
  -- between them read the reset's zeros
  sl_unfold_words
  refine (read_whole_store_last _ _ _ _).trans ?_
  simp only [View.readCov_unit_zero (S := S1024x1024) _ zeroOff2, View.readAt_eq_ld, hf0, hf1, View.ld_unit_zero (S := S1024x2048) zeroOff2]

set_option maxHeartbeats 1000000 in
/-- A middle quarter (neither conditional taken): the accumulator takes this quarter's product; the output tile's
    buffer is not touched. -/
theorem kernelRun0_B (c : Dev nD) (i : grid0.Coords)
    (arg2 : Memref sig .tc .vmem S1024x2048 .bf16) (harg2 : arg2.IsWhole)
    (arg3 : Memref sig .tc .vmem S1024x2048 .bf16) (harg3 : arg3.IsWhole)
    (arg4 : Memref sig .tc .vmem S1x1024 .f32) (harg4 : arg4.IsWhole)
    (arg5 : Memref sig .tc .vmem S1024x1024 .bf16) (harg5 : arg5.IsWhole)
    (arg6 : Memref sig .tc .vmem S1024x1024 .f32) (harg6 : arg6.IsWhole)
    (hc0 : ¬cond0_0 i) (hc1 : ¬cond0_1 i)
    (x0 : Vec F S1024x2048 .bf16) (x1 : Vec F S1024x2048 .bf16) (x2 : Vec F S1x1024 .f32)
    (xi3 : Vec F S1024x1024 .bf16) (xs : Vec F S1024x1024 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi3
        ∗ owns (c : Thread nD τ) arg6 fullShare xs
        ∗ (iprop(owns (c : Thread nD τ) arg2 fullShare x0 ∗ owns (c : Thread nD τ) arg3 fullShare x1
            ∗ owns (c : Thread nD τ) arg4 fullShare x2
            ∗ owns (c : Thread nD τ) arg5 fullShare xi3
            ∗ owns (c : Thread nD τ) arg6 fullShare (k0_pay2 xs x0 x1)) -∗ K ⟨⟩))
      ⊢ wp frame (wpE (defs₀ (F := F)) Variants.none c none) E
          (cc0__mlp1_kernel i arg2 harg2 arg3 harg3 arg4 harg4 arg5 harg5 arg6 harg6) K := by
  simp only [cc0__mlp1_kernel_eq_skeleton]; unfold cc0__mlp1_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  -- the one whole-buffer store read back: its payload, over the three loads read through whole rectangles
  refine (read_whole_store_last _ _ _ _).trans ?_
  simp only [View.readAt_eq_ld, hf0, hf1, hfs, View.ld_unit_zero (S := S1024x1024) zeroOff2,
    View.ld_unit_zero (S := S1024x2048) zeroOff2]

set_option maxHeartbeats 1000000 in
/-- A last quarter (the second conditional taken, the first not): the accumulator takes this quarter's product, and the
    output tile's buffer is stored whole from it: bias added, GELU applied, rounded to bf16. -/
theorem kernelRun0_C (c : Dev nD) (i : grid0.Coords)
    (arg2 : Memref sig .tc .vmem S1024x2048 .bf16) (harg2 : arg2.IsWhole)
    (arg3 : Memref sig .tc .vmem S1024x2048 .bf16) (harg3 : arg3.IsWhole)
    (arg4 : Memref sig .tc .vmem S1x1024 .f32) (harg4 : arg4.IsWhole)
    (arg5 : Memref sig .tc .vmem S1024x1024 .bf16) (harg5 : arg5.IsWhole)
    (arg6 : Memref sig .tc .vmem S1024x1024 .f32) (harg6 : arg6.IsWhole)
    (hc0 : ¬cond0_0 i) (hc1 : cond0_1 i)
    (x0 : Vec F S1024x2048 .bf16) (x1 : Vec F S1024x2048 .bf16) (x2 : Vec F S1x1024 .f32)
    (xi3 : Vec F S1024x1024 .bf16) (xs : Vec F S1024x1024 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi3
        ∗ owns (c : Thread nD τ) arg6 fullShare xs
        ∗ (iprop(owns (c : Thread nD τ) arg2 fullShare x0 ∗ owns (c : Thread nD τ) arg3 fullShare x1
            ∗ owns (c : Thread nD τ) arg4 fullShare x2
            ∗ owns (c : Thread nD τ) arg5 fullShare (k0_pay3 (k0_pay2 xs x0 x1) x2)
            ∗ owns (c : Thread nD τ) arg6 fullShare (k0_pay2 xs x0 x1)) -∗ K ⟨⟩))
      ⊢ wp frame (wpE (defs₀ (F := F)) Variants.none c none) E
          (cc0__mlp1_kernel i arg2 harg2 arg3 harg3 arg4 harg4 arg5 harg5 arg6 harg6) K := by
  simp only [cc0__mlp1_kernel_eq_skeleton]; unfold cc0__mlp1_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    -- the tile's one whole-buffer store read back, over the accumulator as just updated and the bias block
    sl_unfold_words
    refine (read_whole_store_last _ _ _ _).trans ?_
    simp only [View.readCov_unit_zero (S := S1024x1024) _ zeroOff2, View.readAt_eq_ld, hf0, hf1, hf2, hfs, View.ld_unit_zero (S := S1024x1024) zeroOff2,
      View.ld_unit_zero (S := S1024x2048) zeroOff2, View.ld_unit_zero (S := S1x1024) zeroOff2]
  iexists _; isplitr
  swap; · iexact HS
  ipureintro
  sl_unfold_words
  refine (read_whole_store_last _ _ _ _).trans ?_
  simp only [View.readAt_eq_ld, hf0, hf1, hfs, View.ld_unit_zero (S := S1024x1024) zeroOff2,
    View.ld_unit_zero (S := S1024x2048) zeroOff2]

end Cert.Kernel.Hand

end
-- ==== Proof.KernelFrame0.lean ====
/- Region 0's proof data and body obligation. The invariant carries the accumulator between grid points at the
   running sum of the quarter products since the last restart; the body's three runs (one per kind of point) are
   joined to it by the position of the point mod 4. -/
import proofs.«141452_j42734924595240_1_alg».proof.Proof.KernelBlocks
import proofs.«141452_j42734924595240_1_alg».proof.Proof.KernelFrame0Runs
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator's recursion, by the kind of point -/

/-- At a first quarter the accumulator restarts: zero plus this quarter's product. -/
theorem acc0_first (c : Dev nD) (t : Fin cfg0.N) (h0 : t.val % 4 = 0) :
    acc0 V c t.val t.isLt = k0_pay2 (k0_pay1 (F := F)) (iblk0 V c 0 t) (iblk0 V c 1 t) := by
  obtain ⟨n, hn⟩ := t
  cases n with
  | zero => rw [acc0]
  | succ n => rw [acc0, if_pos h0]

/-- At any other quarter it adds this quarter's product to what the point before left. -/
theorem acc0_next (c : Dev nD) (t : Fin cfg0.N) (h0 : ¬t.val % 4 = 0) :
    acc0 V c t.val t.isLt
      = k0_pay2 (acc0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h0
  | succ n => rw [acc0, if_neg h0]; rfl

/-! ## The invariant -/

/-- The invariant before position n of region 0: before the first point what the launch hands over (every scoped
    buffer at anything); afterwards the accumulator owned whole at the running sum the point before left, the other
    region's buffers at anything, and the generator register at some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ otherRest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn
      = iprop(iprop(owns (c : Thread nD τ) scM0 fullShare (acc0 V c n hn) ∗ otherRest0 c) ∗ (∃ r, prngReg c r)) := rfl

theorem PhiS0_pos (c : Dev nD) (n : ℕ) (h : n ≤ cfg0.N) (hz : n ≠ 0) :
    PhiS0 V c n h
      = iprop(iprop(owns (c : Thread nD τ) scM0 fullShare (acc0 V c (n - 1) (by omega)) ∗ otherRest0 c) ∗ (∃ r, prngReg c r)) := by
  cases n with
  | zero => exact absurd rfl hz
  | succ n => rfl

/-! ## The proof data -/

/-- Region 0's proof data on core c at the entry contents V. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => tile0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = tile0 V c t := by dsimp only [dat0]

theorem share0 (c : Dev nD) (w : Fin cfg0.W) : (dat0 V c).share w = fullShare :=
  (dat0 V c).share_full (fun _ => rfl) w

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-! ## What the inputs' staging buffers hold when the body runs -/

/-- The row block's current staging buffer holds the block at every point (it is fetched at every point). -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The weight block's likewise. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The bias block is fetched at the first quarter of each column tile only; its index reads the column tile alone, so
    at the other quarters the block of the point before is still this point's block, and the body leaves it in place. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the point's position mod 4 says which of the three
    cases it is in, and that case's run applies. The invariant hands the body the accumulator — at anything before the
    first point, else at the running sum the point before left — and takes it back at this point's running sum: at a
    first quarter the restart, else the sum continued. The output tile's buffer is handed back untouched except at a last
    quarter, where it is left at the tile. The other region's buffers and the generator register pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 4 = 0
  · -- a first quarter
    have hc0 : cond0_0 (grid0.coords t) := (hcond0_0 t).mpr h0
    have hc1 : ¬cond0_1 (grid0.coords t) := fun h => by have := (hcond0_1 t).mp h; omega
    rw [Dat.leavesExact_idle (dat0 V c) 3 t (idleAt0_3 t hc1) (noFlush0_3 t hc1)]
    rw [acc0_first V c t h0]
    by_cases hz : t.val = 0
    · rw [PhiS0_castSucc V c t, PhiS0_zero V c _ _ hz, PhiA0_eq]
      iintro ⟨⟨⟨⟨%ds, HS⟩, HR⟩, Hg⟩, Ho, ⟨%d0, H0⟩, ⟨%d1, H1⟩, ⟨%d2, H2⟩, ⟨%d3, H3⟩⟩
      iapply (kernelRun0_A c (grid0.coords t) _ _ _ _ _ _ _ _ _ _ hc0 hc1 (iblk0 V c 0 t) (iblk0 V c 1 t) (iblk0 V c 2 t)
        ((dat0 V c).before 3 t d3) ds Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS, HR⟩, Hg⟩, Ho, ⟨%d0, H0⟩, ⟨%d1, H1⟩, ⟨%d2, H2⟩, ⟨%d3, H3⟩⟩
      iapply (kernelRun0_A c (grid0.coords t) _ _ _ _ _ _ _ _ _ _ hc0 hc1 (iblk0 V c 0 t) (iblk0 V c 1 t) (iblk0 V c 2 t)
        ((dat0 V c).before 3 t d3) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hc0 : ¬cond0_0 (grid0.coords t) := fun h => h0 ((hcond0_0 t).mp h)
    have hz : t.val ≠ 0 := fun e => h0 (by rw [e])
    rw [acc0_next V c t h0]
    rw [PhiS0_castSucc V c t, PhiS0_pos V c _ _ hz]
    by_cases h1 : t.val % 4 = 3
    · -- a last quarter
      have hc1 : cond0_1 (grid0.coords t) := (hcond0_1 t).mpr h1
      rw [show (dat0 V c).leavesExact 3 t = owns (c : Thread nD τ) (ms0_3 t) fullShare ((dat0 V c).after 3 t) from by
        unfold Dat.leavesExact; rw [liveAt0_3 t hc1], after0_3]
      unfold tile0
      rw [acc0_next V c t h0]
      iintro ⟨⟨⟨HS, HR⟩, Hg⟩, Ho, ⟨%d0, H0⟩, ⟨%d1, H1⟩, ⟨%d2, H2⟩, ⟨%d3, H3⟩⟩
      iapply (kernelRun0_C c (grid0.coords t) _ _ _ _ _ _ _ _ _ _ hc0 hc1 (iblk0 V c 0 t) (iblk0 V c 1 t) (iblk0 V c 2 t)
        ((dat0 V c).before 3 t d3) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · -- a middle quarter
      have hc1 : ¬cond0_1 (grid0.coords t) := fun h => h1 ((hcond0_1 t).mp h)
      rw [Dat.leavesExact_idle (dat0 V c) 3 t (idleAt0_3 t hc1) (noFlush0_3 t hc1)]
      iintro ⟨⟨⟨HS, HR⟩, Hg⟩, Ho, ⟨%d0, H0⟩, ⟨%d1, H1⟩, ⟨%d2, H2⟩, ⟨%d3, H3⟩⟩
      iapply (kernelRun0_B c (grid0.coords t) _ _ _ _ _ _ _ _ _ _ hc0 hc1 (iblk0 V c 0 t) (iblk0 V c 1 t) (iblk0 V c 2 t)
        ((dat0 V c).before 3 t d3) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) :
    BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After any point the invariant gives it back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, HR⟩, Hg⟩
  isplitl [HS HR]
  · isplitl [HS]
    · iexists _; iexact HS
    iexact HR
  iexact Hg

/-- In particular after the last point. -/
theorem hout0 (c : Dev nD) : (dat0 V c).Φ (Fin.last cfg0.N) ⊢ Pipeline.ΦA spec0 c :=
  Phi_out0 V c _ (by rw [Fin.val_last]; have : cfg0.N = 32 := N_0; omega)

end Cert.Kernel.Hand

end
-- ==== Proof.KernelFrame1.lean ====
/- Region 1's proof data and body obligation.
   The region walks its grid row-major: point t is (column tile t / 4, feature quarter t % 4). Its body has three kinds
   of point: at a first quarter the accumulator restarts from zero and takes the quarter's product; at a middle quarter
   it takes the product on top of what it held; at a last quarter it does the same and the output tile is stored from
   it with the bias added. The invariant carries the accumulator, owned whole, at the term of the recursion
   (the running sum since the last restart) the point before left. -/
import proofs.«141452_j42734924595240_1_alg».proof.Proof.KernelBlocks
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions of the second region's body, in closed form over the grid -/

/-- The first conditional of the body (the accumulator's restart): the feature quarter is the first. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional (the output tile's store): the feature quarter is the last. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The zero offsets of a whole-buffer rectangle, however spelt. -/
theorem zero2 : (![0, 0] : Fin 2 → ℕ) = fun _ => 0 := by
  funext a; fin_cases a <;> rfl

/-- Reading back a buffer whose LAST store covered it whole: that store's payload, whatever came before. -/
theorem read_writes_head_whole {sg : RefSig} {κ : Kind} {sp : Space} {S : Shape} {e : EltTy}
    (v : View sg κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

set_option maxHeartbeats 1000000 in
/-- The body at a first quarter: the accumulator, whatever it held, is reset and then takes the quarter's product. -/
theorem kernelRun1_A (c : Dev nD) (i : grid1.Coords) (arg2 : Memref sig .tc .vmem S1024x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 x1 : Vec F S1024x2048 .bf16) (E : Set ℕ) (K : PUnit → sProp 𝕄) :
    iprop(owns (c : Thread nD τ) arg2 fullShare x0 ∗ owns (c : Thread nD τ) arg3 fullShare x1 ∗ (∃ d, owns (c : Thread nD τ) arg6 fullShare d)
        ∗ (iprop(owns (c : Thread nD τ) arg2 fullShare x0 ∗ owns (c : Thread nD τ) arg3 fullShare x1
            ∗ owns (c : Thread nD τ) arg6 fullShare (k1_pay2 (k1_pay1 (F := F)) x0 x1)) -∗ K ⟨⟩))
      ⊢ wp frame (wpE (defs₀ (F := F)) Variants.none c none) E (cc1__mlp2_kernel i arg2 harg2 arg3 harg3 arg4 harg4 arg5 harg5 arg6 harg6) K := by
  simp only [cc1__mlp2_kernel_eq_skeleton]; unfold cc1__mlp2_kernel_skel
  unfold owns
  iintro ⟨⟨%f0, %hf0, H0⟩, ⟨%f1, %hf1, H1⟩, ⟨%ds0, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  refine (read_writes_head_whole _ _ zero2 _ _ _).trans ?_
  sl_unfold_words
  simp only [View.readAt_eq_ld, harg2.read_unread, harg3.read_unread, View.ld_unit_zero (S := S1024x2048) zero2,
    View.readCov_unit_zero (S := S1024x1024) _ zero2]

set_option maxHeartbeats 1000000 in
/-- The body at a middle quarter: the accumulator takes the quarter's product on top of what it held. -/
theorem kernelRun1_B (c : Dev nD) (i : grid1.Coords) (arg2 : Memref sig .tc .vmem S1024x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 x1 : Vec F S1024x2048 .bf16) (xs : Vec F S1024x1024 .f32) (E : Set ℕ) (K : PUnit → sProp 𝕄) :
    iprop(owns (c : Thread nD τ) arg2 fullShare x0 ∗ owns (c : Thread nD τ) arg3 fullShare x1 ∗ owns (c : Thread nD τ) arg6 fullShare xs
        ∗ (iprop(owns (c : Thread nD τ) arg2 fullShare x0 ∗ owns (c : Thread nD τ) arg3 fullShare x1
            ∗ owns (c : Thread nD τ) arg6 fullShare (k1_pay2 xs x0 x1)) -∗ K ⟨⟩))
      ⊢ wp frame (wpE (defs₀ (F := F)) Variants.none c none) E (cc1__mlp2_kernel i arg2 harg2 arg3 harg3 arg4 harg4 arg5 harg5 arg6 harg6) K := by
  simp only [cc1__mlp2_kernel_eq_skeleton]; unfold cc1__mlp2_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg6.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  refine (read_writes_head_whole _ _ zero2 _ _ _).trans ?_
  simp only [View.readAt_eq_ld, harg2.read_unread, harg3.read_unread, harg6.read_unread,
    View.ld_unit_zero (S := S1024x2048) zero2, View.ld_unit_zero (S := S1024x1024) zero2]

set_option maxHeartbeats 1000000 in
/-- The body at a last quarter: the accumulator takes the quarter's product, and the output tile is stored from it
    with the bias added. -/
theorem kernelRun1_C (c : Dev nD) (i : grid1.Coords) (arg2 : Memref sig .tc .vmem S1024x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 x1 : Vec F S1024x2048 .bf16) (x2 : Vec F S1x1024 .f32) (xs : Vec F S1024x1024 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 xs x0 x1) x2)
            ∗ owns (c : Thread nD τ) arg6 fullShare (k1_pay2 xs x0 x1)) -∗ K ⟨⟩))
      ⊢ wp frame (wpE (defs₀ (F := F)) Variants.none c none) E (cc1__mlp2_kernel i arg2 harg2 arg3 harg3 arg4 harg4 arg5 harg5 arg6 harg6) K := by
  simp only [cc1__mlp2_kernel_eq_skeleton]; unfold cc1__mlp2_kernel_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg2.eq_unread hf0; obtain rfl := harg3.eq_unread hf1; obtain rfl := harg4.eq_unread hf2; obtain rfl := harg6.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (read_writes_head_whole _ _ zero2 _ _ _).trans ?_
    sl_unfold_words
    simp only [View.readAt_eq_ld, harg2.read_unread, harg3.read_unread, harg4.read_unread, harg6.read_unread,
      View.ld_unit_zero (S := S1024x2048) zero2, View.ld_unit_zero (S := S1024x1024) zero2,
      View.ld_unit_zero (S := S1x1024) zero2, View.readCov_unit_zero (S := S1024x1024) _ zero2]
  iexists _; isplitr
  swap; · iexact HS0
  ipureintro
  sl_unfold_words
  refine (read_writes_head_whole _ _ zero2 _ _ _).trans ?_
  simp only [View.readAt_eq_ld, harg2.read_unread, harg3.read_unread, harg6.read_unread,
    View.ld_unit_zero (S := S1024x2048) zero2, View.ld_unit_zero (S := S1024x1024) zero2]

/-! ## Where the windows are live, and where the output tile's buffer is left alone -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from a last quarter nothing is stored into the output tile's buffer, -/
theorem idleAt1_3 : ∀ t : Fin cfg1.N, ¬cond1_1 (grid1.coords t) → cfg1.idle 3 (grid1.coords t) = true := by decide +kernel
/-- and the pipeline does not write it back there; -/
theorem noFlush1_3 : ∀ t : Fin cfg1.N, ¬cond1_1 (grid1.coords t) → (cfg1.win 3).flush t = false := by decide +kernel
/-- at a last quarter the tile is stored. -/
theorem liveAt1_3 : ∀ t : Fin cfg1.N, cond1_1 (grid1.coords t) → cfg1.idle 3 (grid1.coords t) = false := by decide +kernel

/-! ## The staging memrefs at a point, and the accumulator -/

abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the region's own, carried from point to point. -/
abbrev scM1_0 : Memref sig .tc .vmem S1024x1024 .f32 := Memref.whole cc1_scratch0

/-- The core's scoped buffers that are neither a staging buffer of this region nor its accumulator, each whole at
    some contents, with the accumulator's resource `P` last. -/
def restWith (c : Dev nD) (P : sProp 𝕄) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_scratch0), ((c : Thread nD τ).loc cc0_scratch0) ↦{fullShare} f)
      ∗ P)

/-- What the launch hands the region, buffer by buffer: the accumulator at some contents. -/
theorem PhiA1_eq (c : Dev nD) :
    (Pipeline.ΦA spec1 c : sProp 𝕄)
      = iprop(restWith c (iprop(∃ d, owns (c : Thread nD τ) scM1_0 fullShare d)) ∗ (∃ r, prngReg c r)) := by
  unfold Pipeline.ΦA restWith; rw [scopedRest1_eq]; simp only [scM1_0, owns_whole]; try rfl

variable (V : (c : Dev nD) → (b : Ref sig .tc) → Buf (Elt F) ((c : Thread nD τ).loc b))

/-! ## The accumulator's recursion, by the kind of point -/

/-- At a first quarter the accumulator is the quarter's product over zero. -/
theorem acc1_first (c : Dev nD) (t : Fin cfg1.N) (h0 : t.val % 4 = 0) :
    acc1 V c t.val t.isLt = k1_pay2 (k1_pay1 (F := F)) (iblk1 V c 0 t) (iblk1 V c 1 t) := by
  obtain ⟨n, hn⟩ := t
  cases n with
  | zero => rw [acc1]
  | succ n => rw [acc1]; exact congrArg (fun a => k1_pay2 a (iblk1 V c 0 ⟨n + 1, hn⟩) (iblk1 V c 1 ⟨n + 1, hn⟩)) (if_pos h0)

/-- At any other quarter it is the quarter's product over what the point before left. -/
theorem acc1_next (c : Dev nD) (t : Fin cfg1.N) (h0 : ¬t.val % 4 = 0) :
    acc1 V c t.val t.isLt = k1_pay2 (acc1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h0
  | succ n => rw [acc1]; exact congrArg (fun a => k1_pay2 a (iblk1 V c 0 ⟨n + 1, hn⟩) (iblk1 V c 1 ⟨n + 1, hn⟩)) (if_neg h0)

/-! ## The invariant -/

/-- The invariant before position n of region 1: before the first point what the launch hands over; afterwards the
    accumulator owned whole at what the point before left in it, the other scoped buffers and the generator
    register at anything. -/
def PhiS1 (c : Dev nD) : (n : ℕ) → n ≤ cfg1.N → sProp 𝕄
  | 0, _ => Pipeline.ΦA spec1 c
  | n + 1, hn => iprop(restWith c (owns (c : Thread nD τ) scM1_0 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(restWith c (owns (c : Thread nD τ) scM1_0 fullShare (acc1 V c n hn)) ∗ (∃ r, prngReg c r)) := rfl

theorem PhiS1_pos (c : Dev nD) (n : ℕ) (h : n ≤ cfg1.N) (hz : n ≠ 0) :
    PhiS1 V c n h = iprop(restWith c (owns (c : Thread nD τ) scM1_0 fullShare (acc1 V c (n - 1) (by omega))) ∗ (∃ r, prngReg c r)) := by
  cases n with
  | zero => exact absurd rfl hz
  | succ n => rfl

/-- Region 1's proof data on core c at the entry contents V. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => tile1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = tile1 V c t := by dsimp only [dat1]

theorem share1 (c : Dev nD) (w : Fin cfg1.W) : (dat1 V c).share w = fullShare :=
  (dat1 V c).share_full (fun _ => rfl) w

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## Each input's current staging buffer holds its block at every point, fetched there or not
    (the bias block is fetched at first quarters only; between fetches its block index has not moved) -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]
theorem leaves1_3_live (c : Dev nD) (t : Fin cfg1.N) (h : cond1_1 (grid1.coords t)) :
    (dat1 V c).leavesExact 3 t = owns (c : Thread nD τ) (ms1_3 t) fullShare (tile1 V c t) := by
  unfold Dat.leavesExact; rw [liveAt1_3 t h, after1_3]

set_option maxHeartbeats 4800000 in
/-- The body at any point. The inputs' buffers hold their blocks; the closed forms say which kind of point it is.
    At a first quarter the accumulator (at anything: what the launch hands over, or what the last column tile left)
    restarts; at the others the invariant hands it over at what the point before left; the body leaves it at this
    point's term of the recursion, and at a last quarter stores the tile from it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 16 := lt_of_lt_of_eq t.isLt (show cfg1.N = 16 from N_1)
  by_cases h0 : t.val % 4 = 0
  · have hc0 : cond1_0 (grid1.coords t) := (hcond1_0 t).mpr h0
    have hc1 : ¬cond1_1 (grid1.coords t) := fun h => by have := (hcond1_1 t).mp h; omega
    rw [Dat.leavesExact_idle (dat1 V c) 3 t (idleAt1_3 t hc1) (noFlush1_3 t hc1)]
    rw [acc1_first V c t h0]
    by_cases hz : t.val = 0
    · rw [PhiS1_castSucc V c t, PhiS1_zero V c _ _ hz, PhiA1_eq]
      unfold restWith
      iintro ⟨⟨⟨R1, R2, R3, R4, R5, R6, R7, R8, R9, HS0⟩, Hg⟩, Ho, ⟨%d0, H0⟩, ⟨%d1, H1⟩, ⟨%d2, H2⟩, ⟨%d3, H3⟩⟩
      iapply (kernelRun1_A c (grid1.coords t) _ _ _ _ _ _ _ _ _ _ hc0 hc1 (iblk1 V c 0 t) (iblk1 V c 1 t) Set.univ _)
      isplitl [H0]; · iexact H0
      isplitl [H1]; · iexact H1
      isplitl [HS0]; · iexact HS0
      iintro ⟨H0, H1, HS0⟩
      isplitl [R1 R2 R3 R4 R5 R6 R7 R8 R9 HS0 Hg]
      · isplitr [Hg]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          iexact HS0
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      unfold restWith
      iintro ⟨⟨⟨R1, R2, R3, R4, R5, R6, R7, R8, R9, HS0⟩, Hg⟩, Ho, ⟨%d0, H0⟩, ⟨%d1, H1⟩, ⟨%d2, H2⟩, ⟨%d3, H3⟩⟩
      iapply (kernelRun1_A c (grid1.coords t) _ _ _ _ _ _ _ _ _ _ hc0 hc1 (iblk1 V c 0 t) (iblk1 V c 1 t) Set.univ _)
      isplitl [H0]; · iexact H0
      isplitl [H1]; · iexact H1
      isplitl [HS0]; · iexists _; iexact HS0
      iintro ⟨H0, H1, HS0⟩
      isplitl [R1 R2 R3 R4 R5 R6 R7 R8 R9 HS0 Hg]
      · isplitr [Hg]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          iexact HS0
        iexact Hg
      isplitl [Ho]; · iexact Ho
      isplitl [H0]; · iexact H0
      isplitl [H1]; · iexact H1
      isplitl [H2]; · iexact H2
      iexists _; iexact H3
  · have hc0 : ¬cond1_0 (grid1.coords t) := fun h => h0 ((hcond1_0 t).mp h)
    have hz : t.val ≠ 0 := fun e => h0 (by rw [e])
    rw [acc1_next V c t h0]
    rw [PhiS1_castSucc V c t, PhiS1_pos V c _ _ hz]
    by_cases h1 : t.val % 4 = 3
    · have hc1 : cond1_1 (grid1.coords t) := (hcond1_1 t).mpr h1
      rw [leaves1_3_live V c t hc1]
      unfold tile1
      rw [acc1_next V c t h0]
      unfold restWith
      iintro ⟨⟨⟨R1, R2, R3, R4, R5, R6, R7, R8, R9, HS0⟩, Hg⟩, Ho, ⟨%d0, H0⟩, ⟨%d1, H1⟩, ⟨%d2, H2⟩, ⟨%d3, H3⟩⟩
      iapply (kernelRun1_C c (grid1.coords t) _ _ _ _ _ _ _ _ _ _ hc0 hc1 (iblk1 V c 0 t) (iblk1 V c 1 t) (iblk1 V c 2 t) _ Set.univ _)
      isplitl [H0]; · iexact H0
      isplitl [H1]; · iexact H1
      isplitl [H2]; · iexact H2
      isplitl [H3]; · iexists _; iexact H3
      isplitl [HS0]; · iexact HS0
      iintro ⟨H0, H1, H2, H3, HS0⟩
      isplitl [R1 R2 R3 R4 R5 R6 R7 R8 R9 HS0 Hg]
      · isplitr [Hg]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          iexact HS0
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      unfold restWith
      iintro ⟨⟨⟨R1, R2, R3, R4, R5, R6, R7, R8, R9, HS0⟩, Hg⟩, Ho, ⟨%d0, H0⟩, ⟨%d1, H1⟩, ⟨%d2, H2⟩, ⟨%d3, H3⟩⟩
      iapply (kernelRun1_B c (grid1.coords t) _ _ _ _ _ _ _ _ _ _ hc0 hc1 (iblk1 V c 0 t) (iblk1 V c 1 t) _ Set.univ _)
      isplitl [H0]; · iexact H0
      isplitl [H1]; · iexact H1
      isplitl [HS0]; · iexact HS0
      iintro ⟨H0, H1, HS0⟩
      isplitl [R1 R2 R3 R4 R5 R6 R7 R8 R9 HS0 Hg]
      · isplitr [Hg]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          iexact HS0
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) :
    BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives back what the launch handed over: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 16 := N_1; omega), PhiA1_eq]
  unfold restWith
  iintro ⟨⟨R1, R2, R3, R4, R5, R6, R7, R8, R9, HS0⟩, Hg⟩
  isplitr [Hg]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexists _; iexact HS0
  iexact Hg

end Cert.Kernel.Hand

end
-- ==== Proof.KernelRun.lean ====
/- The whole run of the program: the buffers' contents at every boundary between @main's items, both regions as
   segments of the run, and the run itself — every weakly fair execution terminates, nothing faults, and every unscoped
   buffer ends at the last boundary's contents. -/
import proofs.«141452_j42734924595240_1_alg».proof.Proof.KernelFrame0
import proofs.«141452_j42734924595240_1_alg».proof.Proof.KernelFrame1
import proofs.«141452_j42734924595240_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m ((c : Dev nD), b)
/-- After the five host stretches before the first region (its entry contents). -/
abbrev W5 : Dev nD → Valuation τ sig (Elt F) := fun c =>
  StableHlo.after hostOps0_4 (StableHlo.after hostOps0_3 (StableHlo.after hostOps0_2 (StableHlo.after hostOps0_1 (StableHlo.after hostOps0 (W0 m c)))))
/-- The same read at the TensorCore's references. -/
abbrev Ve0 : (c : Dev nD) → (b : Ref sig .tc) → Buf (Elt F) ((c : Thread nD τ).loc b) := fun c b => W5 m c b
/-- At the first region's exit: its arrays at what the pipeline leaves, every other buffer as entered. -/
def W6 (c : Dev nD) : Valuation τ sig (Elt F) :=
  Pipeline.withArrays spec0 c (W5 m c) fun w => (dat0 (Ve0 m) c).arrAt w cfg0.N
/-- The same read at the TensorCore's references (the second region's entry contents). -/
abbrev Ve1 : (c : Dev nD) → (b : Ref sig .tc) → Buf (Elt F) ((c : Thread nD τ).loc b) := fun c b => W6 m c b
/-- At the second region's exit. -/
def W7 (c : Dev nD) : Valuation τ sig (Elt F) :=
  Pipeline.withArrays spec1 c (W6 m c) fun w => (dat1 (Ve1 m) c).arrAt w cfg1.N
/-- After the last host stretch: the end. -/
abbrev W8 : Dev nD → Valuation τ sig (Elt F) := fun c => StableHlo.after hostOps2 (W7 m c)

/-! ## Reading a region's exit contents: at one of its arrays, and at any other buffer -/

theorem W6_arr (c : Dev nD) (w : Fin cfg0.W) :
    W6 m c (Proc.devRef .tc (Pipeline.arrRef spec0 w)) = (dat0 (Ve0 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
theorem W7_arr (c : Dev nD) (w : Fin cfg1.W) :
    W7 m c (Proc.devRef .tc (Pipeline.arrRef spec1 w)) = (dat1 (Ve1 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb

/-- The first region's exit contents, read at the TensorCore's references. -/
abbrev Vx0 : (c : Dev nD) → (b : Ref sig .tc) → Buf (Elt F) ((c : Thread nD τ).loc b) := fun c b => W6 m c b
/-- The second region's exit contents, read at the TensorCore's references. -/
abbrev Vx1 : (c : Dev nD) → (b : Ref sig .tc) → Buf (Elt F) ((c : Thread nD τ).loc b) := fun c b => W7 m c b

/-- At a region's exit each of its arrays holds what the pipeline leaves, and every other buffer what it held at entry. -/
theorem hF0 (c : Dev nD) (w : Fin cfg0.W) : (dat0 (Ve0 m) c).arrAt w cfg0.N = Vx0 m c (Pipeline.arrRef spec0 w) :=
  (W6_arr m c w).symm
theorem hrest0 (c : Dev nD) : ∀ b, b ∉ Finset.univ.image (Pipeline.arrRef spec0) → Vx0 m c b = Ve0 m c b :=
  fun b hb => W6_of_ne m c b fun w e => hb (Finset.mem_image.mpr ⟨w, Finset.mem_univ _, e⟩)
theorem hF1 (c : Dev nD) (w : Fin cfg1.W) : (dat1 (Ve1 m) c).arrAt w cfg1.N = Vx1 m c (Pipeline.arrRef spec1 w) :=
  (W7_arr m c w).symm
theorem hrest1 (c : Dev nD) : ∀ b, b ∉ Finset.univ.image (Pipeline.arrRef spec1) → Vx1 m c b = Ve1 m c b :=
  fun b hb => W7_of_ne m c b fun w e => hb (Finset.mem_image.mpr ⟨w, Finset.mem_univ _, e⟩)

/-! ## What the last boundary holds -/

/-- A buffer that no host stretch writes and that is no array of either region ends as launched: the fold walks back
    through the last stretch, both regions' exits and the five first stretches to the launch memory. -/
theorem W8_of_untouched (c : Dev nD) (r : Ref sig .tc)
    (h8 : r ∉ hostOps2_W) (h7 : ∀ w, Pipeline.arrRef spec1 w ≠ r) (h6 : ∀ w, Pipeline.arrRef spec0 w ≠ r)
    (h5 : r ∉ hostOps0_4_W) (h4 : r ∉ hostOps0_3_W) (h3 : r ∉ hostOps0_2_W) (h2 : r ∉ hostOps0_1_W) (h1 : r ∉ hostOps0_W) :
    W8 m c (Proc.devRef .tc r) = m ((c : Thread nD τ).loc r) :=
  calc W8 m c (Proc.devRef .tc r)
    _ = W7 m c (Proc.devRef .tc r) := StableHlo.after_of_writes_sub hostOps2 _ hostOps2_writes h8
    _ = W6 m c (Proc.devRef .tc r) := W7_of_ne m c r h7
    _ = W5 m c (Proc.devRef .tc r) := W6_of_ne m c r h6
    _ = V4 m c r := V5_of m c r h5
    _ = V3 m c r := V4_of m c r h4
    _ = V2 m c r := V3_of m c r h3
    _ = V1 m c r := V2_of m c r h2
    _ = V0 m c r := V1_of m c r h1
    _ = m ((c : Thread nD τ).loc r) := rfl

theorem W8_main_arg0 (c : Dev nD) : W8 m c (Proc.devRef .tc main_arg0) = m ((c : Thread nD τ).loc main_arg0) :=
  W8_of_untouched m c main_arg0 (by decide) (by decide) (by decide) (by decide) (by decide) (by decide) (by decide) (by decide)
theorem W8_main_arg1 (c : Dev nD) : W8 m c (Proc.devRef .tc main_arg1) = m ((c : Thread nD τ).loc main_arg1) :=
  W8_of_untouched m c main_arg1 (by decide) (by decide) (by decide) (by decide) (by decide) (by decide) (by decide) (by decide)
theorem W8_main_arg2 (c : Dev nD) : W8 m c (Proc.devRef .tc main_arg2) = m ((c : Thread nD τ).loc main_arg2) :=
  W8_of_untouched m c main_arg2 (by decide) (by decide) (by decide) (by decide) (by decide) (by decide) (by decide) (by decide)
theorem W8_main_arg3 (c : Dev nD) : W8 m c (Proc.devRef .tc main_arg3) = m ((c : Thread nD τ).loc main_arg3) :=
  W8_of_untouched m c main_arg3 (by decide) (by decide) (by decide) (by decide) (by decide) (by decide) (by decide) (by decide)
theorem W8_main_arg4 (c : Dev nD) : W8 m c (Proc.devRef .tc main_arg4) = m ((c : Thread nD τ).loc main_arg4) :=
  W8_of_untouched m c main_arg4 (by decide) (by decide) (by decide) (by decide) (by decide) (by decide) (by decide) (by decide)
theorem W8_main_arg5 (c : Dev nD) : W8 m c (Proc.devRef .tc main_arg5) = m ((c : Thread nD τ).loc main_arg5) :=
  W8_of_untouched m c main_arg5 (by decide) (by decide) (by decide) (by decide) (by decide) (by decide) (by decide) (by decide)

/-- The result buffer ends at the second region's output array, reshaped. -/
theorem W8_main_v37 (c : Dev nD) :
    (W8 m c (Proc.devRef .tc main_v37) : Vec F S8x128x4096 .f32)
      = shapeCast S8x128x4096 ((dat1 (Ve1 m) c).arrAt 3 cfg1.N : Vec F S1024x4096 .f32) shapeCasts_S1024x4096_S8x128x4096 := by
  show StableHlo.after hostOps2 _ (Proc.devRef .tc main_v37) = _
  after_results
  exact congrArg (fun v : Vec F S1024x4096 .f32 => shapeCast S8x128x4096 v shapeCasts_S1024x4096_S8x128x4096) (W7_arr m c 3)

/-- What the second region finds in its three input arrays: the first region's output array, and two host values. -/
theorem Ve1_main_v35 (c : Dev nD) : Ve1 m c main_v35 = (dat0 (Ve0 m) c).arrAt 3 cfg0.N := W6_arr m c 3
theorem Ve1_main_v32 (c : Dev nD) : Ve1 m c main_v32 = Ve0 m c main_v32 := W6_of_ne m c main_v32 (by decide)
theorem Ve1_main_v34 (c : Dev nD) : Ve1 m c main_v34 = Ve0 m c main_v34 := W6_of_ne m c main_v34 (by decide)

/-! ## The proof data family and the thread state -/

/-- Both pipelines' proof data, each at its region's entry contents. -/
def pdatsR : (p : Fin 2) → (c : Dev nD) → Dat τ (Elt F) Unit ℕ (UR sig nD τ) ℕ (Pipeline.pin (pcfgs (F := F)) adm p) c
  | ⟨0, _⟩ => fun c => dat0 (Ve0 m) c
  | ⟨1, _⟩ => fun c => dat1 (Ve1 m) c
abbrev 𝒱R : Variants := Variants.none
/-- No core owes another anything: no level is assigned. -/
abbrev LR : GSem nD τ sig → Finset Unit := fun _ => ∅
abbrev lvR : GSem nD τ sig → Unit → ℕ := fun _ _ => 0
/-- What rides beside the buffers through every segment: the core's generator register at some state and its dues,
    at nothing. -/
abbrev RR (c : Dev nD) : sProp 𝕄 := iprop((∃ r, prngReg c r) ∗ ∃ W, owes (c : Thread nD τ) (0 : CellTallies nD τ sig Unit) W)
/-- A host stretch as a segment: every unscoped buffer held at the contents W before it and at W advanced by the
    stretch after it, the rest riding along. -/
abbrev hsegR (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱R LR lvR :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RR

/-- The last thread state without the dues: every unscoped buffer at the last boundary's contents, the generator
    register at some state. -/
abbrev TnR (c : Dev nD) : sProp 𝕄 := iprop(StableHlo.held (c : Thread nD τ) (Pipeline.ucRefs τ sig) (W8 m c) ∗ ∃ r, prngReg c r)

/-- The last host stretch's exit state is the last thread state beside the core owing nothing (the same three
    conjuncts, bracketed the other way). -/
theorem chain_end (c : Dev nD) :
    (iprop(StableHlo.held (c : Thread nD τ) (Pipeline.ucRefs τ sig) (W8 m c) ∗ RR c) : sProp 𝕄)
      ⊢ iprop(TnR m c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

set_option backward.isDefEq.respectTransparency.types false in
/-- The first region over the thread state: entered from every unscoped buffer at W5, left at W6. Its arrays are split
    out of the unscoped buffers and put back at the exit contents; the generator register and the scoped buffers no
    window stages go into the region's invariant at its first point and come back from it at its last. -/
def regA : Pipeline.RegionSeg (pcfgs (F := F)) adm (pdatsR m) () defs₀ 𝒱R LR lvR 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ LR lvR 0 fun _ _ => rfl
  pre c := iprop(StableHlo.held (c : Thread nD τ) (Pipeline.ucRefs τ sig) (W5 m c) ∗ RR c)
  post c := iprop(StableHlo.held (c : Thread nD τ) (Pipeline.ucRefs τ sig) (W6 m c) ∗ RR c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdatsR m) launch0.win launch0.arr_whole c
      (share0 (Ve0 m) c) (Ve0 m c) (A_eq0 (Ve0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Ve0 m) c)
    unfold Pipeline.ΦA
    iintro ⟨Hp, -, Hr⟩
    isplitl [Hr]; · iexact Hr
    iexact Hp
  hout c := by
    rw [Pipeline.ownSems0_none]
    refine BIBase.Entails.trans (hout0 (Ve0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsR m) (share0 (Ve0 m) c)
      (Ve0 m c) (Vx0 m c) ((pdatsR m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at W6 (what the first region left),
    left at W7. -/
def regB : Pipeline.RegionSeg (pcfgs (F := F)) adm (pdatsR m) () defs₀ 𝒱R LR lvR 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ LR lvR 1 fun _ _ => rfl
  pre c := iprop(StableHlo.held (c : Thread nD τ) (Pipeline.ucRefs τ sig) (W6 m c) ∗ RR c)
  post c := iprop(StableHlo.held (c : Thread nD τ) (Pipeline.ucRefs τ sig) (W7 m c) ∗ RR c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdatsR m) launch1.win launch1.arr_whole c
      (share1 (Ve1 m) c) (Ve1 m c) (A_eq1 (Ve1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Ve1 m) c)
    unfold Pipeline.ΦA
    iintro ⟨Hp, -, Hr⟩
    isplitl [Hr]; · iexact Hr
    iexact Hp
  hout c := by
    rw [Pipeline.ownSems0_none]
    refine BIBase.Entails.trans (hout1 (Ve1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsR m) (share1 (Ve1 m) c)
      (Ve1 m c) (Vx1 m c) ((pdatsR m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's eight segments in order: five host stretches, the two regions back to back, the last host stretch. -/
abbrev segsR : List (Pipeline.Seg (pcfgs (F := F)) adm (pdatsR m) () defs₀ 𝒱R LR lvR) :=
  [ .host (hsegR hostOps0 hostOps0_sub hostOps0_fresh (W0 m)),
    .host (hsegR hostOps0_1 hostOps0_1_sub hostOps0_1_fresh (fun c => StableHlo.after hostOps0 (W0 m c))),
    .host (hsegR hostOps0_2 hostOps0_2_sub hostOps0_2_fresh (fun c => StableHlo.after hostOps0_1 (StableHlo.after hostOps0 (W0 m c)))),
    .host (hsegR hostOps0_3 hostOps0_3_sub hostOps0_3_fresh (fun c => StableHlo.after hostOps0_2 (StableHlo.after hostOps0_1 (StableHlo.after hostOps0 (W0 m c))))),
    .host (hsegR hostOps0_4 hostOps0_4_sub hostOps0_4_fresh (fun c => StableHlo.after hostOps0_3 (StableHlo.after hostOps0_2 (StableHlo.after hostOps0_1 (StableHlo.after hostOps0 (W0 m c)))))),
    .region (regA m),
    .region (regB m),
    .host (hsegR hostOps2 hostOps2_sub hostOps2_fresh (W7 m)) ]

set_option backward.isDefEq.respectTransparency.types false in
/-- Every weakly fair execution of @main from memory m with zero counters terminates, nothing faulting, and every final
    memory has every unscoped buffer of every core at the last boundary's contents. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W8 m c b) :=
  Pipeline.θ_run_regions_kit (pcfgs (F := F)) adm (pdatsR m) () cellOf_inj emb₁ defs₀ 𝒱R LR lvR m ρ main (segsR m)
    (fun c Q => by
      rewrite [main_chain c, Pipeline.Seg.run_eq_chain,
        show (segsR m).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()),
          StableHlo.seq hostOps2 ] from rfl]
      exact .rfl)
    (by simp only [segsR, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RR c)) (Tₙ := TnR m)
    (hch := ⟨fun _ => .rfl, fun _ => .rfl, fun _ => .rfl, fun _ => .rfl, fun _ => .rfl, fun _ => .rfl, fun _ => .rfl, fun _ => .rfl,
      fun c => chain_end m c⟩)
    (hinit := by
      refine Pipeline.initEach LR lvR fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- Membership of an unscoped TensorCore reference among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c)⟩) (run_all m ρ)

end Cert.Kernel.Hand

end
-- ==== Proof.KernelIdealBlocks.lean ====
/- What the two matmul regions hold, point by point, as plain recursions over the grid.
   Each region walks its grid row-major: point t is (column tile t / 4, feature quarter t % 4). At the first quarter
   the accumulator restarts from zero; at every quarter it takes the product of the row block and the weight block
   of that quarter; the output tile is written from the accumulator at the last quarter. -/
import proofs.«141452_j42734924595240_1_alg».proof.Proof.Gen.KernelIdeal.Launch
import proofs.«141452_j42734924595240_1_alg».proof.Proof.Gen.KernelIdeal.Skeleton
import proofs.«141452_j42734924595240_1_alg».proof.Proof.Gen.KernelIdeal.Points
import Idealize.ShloMosaic.Lib.Pipeline.FrameBody
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the buffers' contents when a region is entered: every definition here is stated at this parameter
variable (V : (c : Dev nD) → (b : Ref sig .tc) → Buf (Elt F) ((c : Thread nD τ).loc b))

/-! ## The first region (hidden layer) -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after point n: the running sum of the quarter products since the last restart. -/
def acc0 (c : Dev nD) : (n : ℕ) → n < cfg0.N → Vec F S1024x1024 .f32
  | 0, hn => k0_pay2 (k0_pay1 (F := F)) (iblk0 V c 0 ⟨0, hn⟩) (iblk0 V c 1 ⟨0, hn⟩)
  | n + 1, hn => k0_pay2 (if (n + 1) % 4 = 0 then k0_pay1 (F := F) else acc0 c n (Nat.lt_of_succ_lt hn))
      (iblk0 V c 0 ⟨n + 1, hn⟩) (iblk0 V c 1 ⟨n + 1, hn⟩)

/-- What the output tile's staging buffer would hold after point t if the body stored into it there
    (it does at the last quarter only): bias added, GELU applied. -/
def tile0 (c : Dev nD) (t : Fin cfg0.N) : Vec F S1024x1024 .bf16 :=
  k0_pay3 (acc0 V c t.val t.isLt) (iblk0 V c 2 t)

/-! ## The second region (output layer) -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def acc1 (c : Dev nD) : (n : ℕ) → n < cfg1.N → Vec F S1024x1024 .f32
  | 0, hn => k1_pay2 (k1_pay1 (F := F)) (iblk1 V c 0 ⟨0, hn⟩) (iblk1 V c 1 ⟨0, hn⟩)
  | n + 1, hn => k1_pay2 (if (n + 1) % 4 = 0 then k1_pay1 (F := F) else acc1 c n (Nat.lt_of_succ_lt hn))
      (iblk1 V c 0 ⟨n + 1, hn⟩) (iblk1 V c 1 ⟨n + 1, hn⟩)

def tile1 (c : Dev nD) (t : Fin cfg1.N) : Vec F S1024x1024 .f32 :=
  k1_pay3 (acc1 V c t.val t.isLt) (iblk1 V c 2 t)

end Cert.KernelIdeal.Hand

end
-- ==== Proof.KernelIdealFrame0Runs.lean ====
/- Region 0 (the hidden layer's matmul): what its frame shares, and the kernel body's run in each of its three cases.
   The grid is walked row-major, point t = (column tile t / 4, feature quarter t % 4). At a first quarter the body
   resets the accumulator and adds the quarter's product; at a middle quarter it adds the product; at a last quarter
   it adds the product and stores the output tile from the accumulator. Every load and store is of a whole buffer,
   so each run's postcondition names the contents outright. -/
import proofs.«141452_j42734924595240_1_alg».proof.Proof.Gen.KernelIdeal.Launch
import proofs.«141452_j42734924595240_1_alg».proof.Proof.Gen.KernelIdeal.Skeleton
import proofs.«141452_j42734924595240_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, in closed form over the grid -/

/-- The first conditional's condition (the feature quarter is the first one), from the grid coordinates. -/
abbrev cond0_0 (i : grid0.Coords) : Prop := (Scalar.cmpi .ne (Scalar.extui (Scalar.cmpi .eq (BitVec.ofNat 32 (i 1).val) 0#32)) 0#32) = 1#1
/-- It holds exactly at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional's condition (the feature quarter is the last one). -/
abbrev cond0_1 (i : grid0.Coords) : Prop := k0_cond2 i = 1#1
/-- It holds exactly at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Whole-buffer rectangles -/

/-- The zero offsets of a whole-buffer rectangle of rank 2, as a function. -/
theorem zeroOff2 : (![0, 0] : Fin 2 → Nat) = fun _ => 0 := funext fun a => by fin_cases a <;> rfl

/-- A store through the whole 1024×1024 rectangle, made last, is what the buffer reads afterwards, whatever it
    held and whatever was stored before: the rectangle covers every index. -/
theorem read_whole_store_last {e : EltTy} {sg : RefSig} {κ : Kind} {sp : Space} (v : View sg κ sp S1024x1024 e) (f : v.ty.Contents (Elt F))
    (w : S1024x1024.Idx → Elt F e) (L : List (View.Piece (Elt F) S1024x1024 e)) :
    v.read (Elt F) (v.writes (Elt F) f
      ((⟨Rect.unit (s := S1024x1024) ![0, 0] S1024x1024.size inb_S1024x1024_S1024x1024_0_0, w⟩ : View.Piece (Elt F) S1024x1024 e) :: L)) = w := by
  rw [View.read_writes_eq_canon _ _ _ (fun y => ⟨_, List.mem_cons_self .., View.mem_set_unit_zero zeroOff2 inb_S1024x1024_S1024x1024_0_0 y⟩),
    View.canon_cons_unit_zero zeroOff2]

/-! ## Where the windows are idle -/

/-- The three input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
/-- Away from the last quarter the output window is idle (nothing is stored into it) -/
theorem idleAt0_3 : ∀ t : Fin cfg0.N, ¬cond0_1 (grid0.coords t) → cfg0.idle 3 (grid0.coords t) = true := by decide +kernel
/-- and its block is not written back there. -/
theorem noFlush0_3 : ∀ t : Fin cfg0.N, ¬cond0_1 (grid0.coords t) → (cfg0.win 3).flush t = false := by decide +kernel
/-- At the last quarter it is live. -/
theorem liveAt0_3 : ∀ t : Fin cfg0.N, cond0_1 (grid0.coords t) → cfg0.idle 3 (grid0.coords t) = false := by decide +kernel

/-! ## The memrefs the body is called with -/

/-- Each window's current staging memref at point t, as the pipeline passes it, and its wholeness. -/
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows. -/
abbrev scM0 : Memref sig .tc .vmem S1024x1024 .f32 := Memref.whole cc0_scratch0

/-! ## The scoped rest -/

/-- The nine scoped buffers of the other region (its staging buffers and its accumulator), each whole at some contents:
    this region's body never touches them. -/
def otherRest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_scratch0), ((c : Thread nD τ).loc cc1_scratch0) ↦{fullShare} f))

/-- What the launch hands the region, buffer by buffer: the accumulator owned at some contents, the other region's
    nine buffers, and the generator register at some state. -/
theorem PhiA0_eq (c : Dev nD) :
    (Pipeline.ΦA spec0 c : sProp 𝕄)
      = iprop(iprop((∃ d, owns (c : Thread nD τ) scM0 fullShare d) ∗ otherRest0 c) ∗ (∃ r, prngReg c r)) := by
  unfold Pipeline.ΦA otherRest0; rw [scopedRest0_eq]; simp only [scM0, owns_whole]; try rfl

/-! ## The body's run, case by case -/

set_option maxHeartbeats 1000000 in
/-- A first quarter (the first conditional taken, the second not): the accumulator is reset to zero and then takes
    this quarter's product, whatever it held; the output tile's buffer is not touched. -/
theorem kernelRun0_A (c : Dev nD) (i : grid0.Coords)
    (arg2 : Memref sig .tc .vmem S1024x2048 .bf16) (harg2 : arg2.IsWhole)
    (arg3 : Memref sig .tc .vmem S1024x2048 .bf16) (harg3 : arg3.IsWhole)
    (arg4 : Memref sig .tc .vmem S1x1024 .f32) (harg4 : arg4.IsWhole)
    (arg5 : Memref sig .tc .vmem S1024x1024 .bf16) (harg5 : arg5.IsWhole)
    (arg6 : Memref sig .tc .vmem S1024x1024 .f32) (harg6 : arg6.IsWhole)
    (hc0 : cond0_0 i) (hc1 : ¬cond0_1 i)
    (x0 : Vec F S1024x2048 .bf16) (x1 : Vec F S1024x2048 .bf16) (x2 : Vec F S1x1024 .f32)
    (xi3 : Vec F S1024x1024 .bf16) (xs : Vec F S1024x1024 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi3
        ∗ owns (c : Thread nD τ) arg6 fullShare xs
        ∗ (iprop(owns (c : Thread nD τ) arg2 fullShare x0 ∗ owns (c : Thread nD τ) arg3 fullShare x1
            ∗ owns (c : Thread nD τ) arg4 fullShare x2
            ∗ owns (c : Thread nD τ) arg5 fullShare xi3
            ∗ owns (c : Thread nD τ) arg6 fullShare (k0_pay2 (k0_pay1 (F := F)) x0 x1)) -∗ K ⟨⟩))
      ⊢ wp frame (wpE (defs₀ (F := F)) Variants.none c none) E
          (cc0__mlp1_kernel i arg2 harg2 arg3 harg3 arg4 harg4 arg5 harg5 arg6 harg6) K := by
  simp only [cc0__mlp1_kernel_eq_skeleton]; unfold cc0__mlp1_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  -- two whole-buffer stores, the reset and then the update: the update is what is read back, and the load
  -- between them read the reset's zeros
  sl_unfold_words
  refine (read_whole_store_last _ _ _ _).trans ?_
  simp only [View.readCov_unit_zero (S := S1024x1024) _ zeroOff2, View.readAt_eq_ld, hf0, hf1, View.ld_unit_zero (S := S1024x2048) zeroOff2]

set_option maxHeartbeats 1000000 in
/-- A middle quarter (neither conditional taken): the accumulator takes this quarter's product; the output tile's
    buffer is not touched. -/
theorem kernelRun0_B (c : Dev nD) (i : grid0.Coords)
    (arg2 : Memref sig .tc .vmem S1024x2048 .bf16) (harg2 : arg2.IsWhole)
    (arg3 : Memref sig .tc .vmem S1024x2048 .bf16) (harg3 : arg3.IsWhole)
    (arg4 : Memref sig .tc .vmem S1x1024 .f32) (harg4 : arg4.IsWhole)
    (arg5 : Memref sig .tc .vmem S1024x1024 .bf16) (harg5 : arg5.IsWhole)
    (arg6 : Memref sig .tc .vmem S1024x1024 .f32) (harg6 : arg6.IsWhole)
    (hc0 : ¬cond0_0 i) (hc1 : ¬cond0_1 i)
    (x0 : Vec F S1024x2048 .bf16) (x1 : Vec F S1024x2048 .bf16) (x2 : Vec F S1x1024 .f32)
    (xi3 : Vec F S1024x1024 .bf16) (xs : Vec F S1024x1024 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi3
        ∗ owns (c : Thread nD τ) arg6 fullShare xs
        ∗ (iprop(owns (c : Thread nD τ) arg2 fullShare x0 ∗ owns (c : Thread nD τ) arg3 fullShare x1
            ∗ owns (c : Thread nD τ) arg4 fullShare x2
            ∗ owns (c : Thread nD τ) arg5 fullShare xi3
            ∗ owns (c : Thread nD τ) arg6 fullShare (k0_pay2 xs x0 x1)) -∗ K ⟨⟩))
      ⊢ wp frame (wpE (defs₀ (F := F)) Variants.none c none) E
          (cc0__mlp1_kernel i arg2 harg2 arg3 harg3 arg4 harg4 arg5 harg5 arg6 harg6) K := by
  simp only [cc0__mlp1_kernel_eq_skeleton]; unfold cc0__mlp1_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  -- the one whole-buffer store read back: its payload, over the three loads read through whole rectangles
  refine (read_whole_store_last _ _ _ _).trans ?_
  simp only [View.readAt_eq_ld, hf0, hf1, hfs, View.ld_unit_zero (S := S1024x1024) zeroOff2,
    View.ld_unit_zero (S := S1024x2048) zeroOff2]

set_option maxHeartbeats 1000000 in
/-- A last quarter (the second conditional taken, the first not): the accumulator takes this quarter's product, and the
    output tile's buffer is stored whole from it: bias added, GELU applied, rounded to bf16. -/
theorem kernelRun0_C (c : Dev nD) (i : grid0.Coords)
    (arg2 : Memref sig .tc .vmem S1024x2048 .bf16) (harg2 : arg2.IsWhole)
    (arg3 : Memref sig .tc .vmem S1024x2048 .bf16) (harg3 : arg3.IsWhole)
    (arg4 : Memref sig .tc .vmem S1x1024 .f32) (harg4 : arg4.IsWhole)
    (arg5 : Memref sig .tc .vmem S1024x1024 .bf16) (harg5 : arg5.IsWhole)
    (arg6 : Memref sig .tc .vmem S1024x1024 .f32) (harg6 : arg6.IsWhole)
    (hc0 : ¬cond0_0 i) (hc1 : cond0_1 i)
    (x0 : Vec F S1024x2048 .bf16) (x1 : Vec F S1024x2048 .bf16) (x2 : Vec F S1x1024 .f32)
    (xi3 : Vec F S1024x1024 .bf16) (xs : Vec F S1024x1024 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi3
        ∗ owns (c : Thread nD τ) arg6 fullShare xs
        ∗ (iprop(owns (c : Thread nD τ) arg2 fullShare x0 ∗ owns (c : Thread nD τ) arg3 fullShare x1
            ∗ owns (c : Thread nD τ) arg4 fullShare x2
            ∗ owns (c : Thread nD τ) arg5 fullShare (k0_pay3 (k0_pay2 xs x0 x1) x2)
            ∗ owns (c : Thread nD τ) arg6 fullShare (k0_pay2 xs x0 x1)) -∗ K ⟨⟩))
      ⊢ wp frame (wpE (defs₀ (F := F)) Variants.none c none) E
          (cc0__mlp1_kernel i arg2 harg2 arg3 harg3 arg4 harg4 arg5 harg5 arg6 harg6) K := by
  simp only [cc0__mlp1_kernel_eq_skeleton]; unfold cc0__mlp1_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    -- the tile's one whole-buffer store read back, over the accumulator as just updated and the bias block
    sl_unfold_words
    refine (read_whole_store_last _ _ _ _).trans ?_
    simp only [View.readCov_unit_zero (S := S1024x1024) _ zeroOff2, View.readAt_eq_ld, hf0, hf1, hf2, hfs, View.ld_unit_zero (S := S1024x1024) zeroOff2,
      View.ld_unit_zero (S := S1024x2048) zeroOff2, View.ld_unit_zero (S := S1x1024) zeroOff2]
  iexists _; isplitr
  swap; · iexact HS
  ipureintro
  sl_unfold_words
  refine (read_whole_store_last _ _ _ _).trans ?_
  simp only [View.readAt_eq_ld, hf0, hf1, hfs, View.ld_unit_zero (S := S1024x1024) zeroOff2,
    View.ld_unit_zero (S := S1024x2048) zeroOff2]

end Cert.KernelIdeal.Hand

end
-- ==== Proof.KernelIdealFrame0.lean ====
/- Region 0's proof data and body obligation. The invariant carries the accumulator between grid points at the
   running sum of the quarter products since the last restart; the body's three runs (one per kind of point) are
   joined to it by the position of the point mod 4. -/
import proofs.«141452_j42734924595240_1_alg».proof.Proof.KernelIdealBlocks
import proofs.«141452_j42734924595240_1_alg».proof.Proof.KernelIdealFrame0Runs
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator's recursion, by the kind of point -/

/-- At a first quarter the accumulator restarts: zero plus this quarter's product. -/
theorem acc0_first (c : Dev nD) (t : Fin cfg0.N) (h0 : t.val % 4 = 0) :
    acc0 V c t.val t.isLt = k0_pay2 (k0_pay1 (F := F)) (iblk0 V c 0 t) (iblk0 V c 1 t) := by
  obtain ⟨n, hn⟩ := t
  cases n with
  | zero => rw [acc0]
  | succ n => rw [acc0, if_pos h0]

/-- At any other quarter it adds this quarter's product to what the point before left. -/
theorem acc0_next (c : Dev nD) (t : Fin cfg0.N) (h0 : ¬t.val % 4 = 0) :
    acc0 V c t.val t.isLt
      = k0_pay2 (acc0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h0
  | succ n => rw [acc0, if_neg h0]; rfl

/-! ## The invariant -/

/-- The invariant before position n of region 0: before the first point what the launch hands over (every scoped
    buffer at anything); afterwards the accumulator owned whole at the running sum the point before left, the other
    region's buffers at anything, and the generator register at some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ otherRest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn
      = iprop(iprop(owns (c : Thread nD τ) scM0 fullShare (acc0 V c n hn) ∗ otherRest0 c) ∗ (∃ r, prngReg c r)) := rfl

theorem PhiS0_pos (c : Dev nD) (n : ℕ) (h : n ≤ cfg0.N) (hz : n ≠ 0) :
    PhiS0 V c n h
      = iprop(iprop(owns (c : Thread nD τ) scM0 fullShare (acc0 V c (n - 1) (by omega)) ∗ otherRest0 c) ∗ (∃ r, prngReg c r)) := by
  cases n with
  | zero => exact absurd rfl hz
  | succ n => rfl

/-! ## The proof data -/

/-- Region 0's proof data on core c at the entry contents V. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => tile0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = tile0 V c t := by dsimp only [dat0]

theorem share0 (c : Dev nD) (w : Fin cfg0.W) : (dat0 V c).share w = fullShare :=
  (dat0 V c).share_full (fun _ => rfl) w

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-! ## What the inputs' staging buffers hold when the body runs -/

/-- The row block's current staging buffer holds the block at every point (it is fetched at every point). -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The weight block's likewise. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The bias block is fetched at the first quarter of each column tile only; its index reads the column tile alone, so
    at the other quarters the block of the point before is still this point's block, and the body leaves it in place. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the point's position mod 4 says which of the three
    cases it is in, and that case's run applies. The invariant hands the body the accumulator — at anything before the
    first point, else at the running sum the point before left — and takes it back at this point's running sum: at a
    first quarter the restart, else the sum continued. The output tile's buffer is handed back untouched except at a last
    quarter, where it is left at the tile. The other region's buffers and the generator register pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 4 = 0
  · -- a first quarter
    have hc0 : cond0_0 (grid0.coords t) := (hcond0_0 t).mpr h0
    have hc1 : ¬cond0_1 (grid0.coords t) := fun h => by have := (hcond0_1 t).mp h; omega
    rw [Dat.leavesExact_idle (dat0 V c) 3 t (idleAt0_3 t hc1) (noFlush0_3 t hc1)]
    rw [acc0_first V c t h0]
    by_cases hz : t.val = 0
    · rw [PhiS0_castSucc V c t, PhiS0_zero V c _ _ hz, PhiA0_eq]
      iintro ⟨⟨⟨⟨%ds, HS⟩, HR⟩, Hg⟩, Ho, ⟨%d0, H0⟩, ⟨%d1, H1⟩, ⟨%d2, H2⟩, ⟨%d3, H3⟩⟩
      iapply (kernelRun0_A c (grid0.coords t) _ _ _ _ _ _ _ _ _ _ hc0 hc1 (iblk0 V c 0 t) (iblk0 V c 1 t) (iblk0 V c 2 t)
        ((dat0 V c).before 3 t d3) ds Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS, HR⟩, Hg⟩, Ho, ⟨%d0, H0⟩, ⟨%d1, H1⟩, ⟨%d2, H2⟩, ⟨%d3, H3⟩⟩
      iapply (kernelRun0_A c (grid0.coords t) _ _ _ _ _ _ _ _ _ _ hc0 hc1 (iblk0 V c 0 t) (iblk0 V c 1 t) (iblk0 V c 2 t)
        ((dat0 V c).before 3 t d3) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hc0 : ¬cond0_0 (grid0.coords t) := fun h => h0 ((hcond0_0 t).mp h)
    have hz : t.val ≠ 0 := fun e => h0 (by rw [e])
    rw [acc0_next V c t h0]
    rw [PhiS0_castSucc V c t, PhiS0_pos V c _ _ hz]
    by_cases h1 : t.val % 4 = 3
    · -- a last quarter
      have hc1 : cond0_1 (grid0.coords t) := (hcond0_1 t).mpr h1
      rw [show (dat0 V c).leavesExact 3 t = owns (c : Thread nD τ) (ms0_3 t) fullShare ((dat0 V c).after 3 t) from by
        unfold Dat.leavesExact; rw [liveAt0_3 t hc1], after0_3]
      unfold tile0
      rw [acc0_next V c t h0]
      iintro ⟨⟨⟨HS, HR⟩, Hg⟩, Ho, ⟨%d0, H0⟩, ⟨%d1, H1⟩, ⟨%d2, H2⟩, ⟨%d3, H3⟩⟩
      iapply (kernelRun0_C c (grid0.coords t) _ _ _ _ _ _ _ _ _ _ hc0 hc1 (iblk0 V c 0 t) (iblk0 V c 1 t) (iblk0 V c 2 t)
        ((dat0 V c).before 3 t d3) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · -- a middle quarter
      have hc1 : ¬cond0_1 (grid0.coords t) := fun h => h1 ((hcond0_1 t).mp h)
      rw [Dat.leavesExact_idle (dat0 V c) 3 t (idleAt0_3 t hc1) (noFlush0_3 t hc1)]
      iintro ⟨⟨⟨HS, HR⟩, Hg⟩, Ho, ⟨%d0, H0⟩, ⟨%d1, H1⟩, ⟨%d2, H2⟩, ⟨%d3, H3⟩⟩
      iapply (kernelRun0_B c (grid0.coords t) _ _ _ _ _ _ _ _ _ _ hc0 hc1 (iblk0 V c 0 t) (iblk0 V c 1 t) (iblk0 V c 2 t)
        ((dat0 V c).before 3 t d3) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) :
    BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After any point the invariant gives it back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, HR⟩, Hg⟩
  isplitl [HS HR]
  · isplitl [HS]
    · iexists _; iexact HS
    iexact HR
  iexact Hg

/-- In particular after the last point. -/
theorem hout0 (c : Dev nD) : (dat0 V c).Φ (Fin.last cfg0.N) ⊢ Pipeline.ΦA spec0 c :=
  Phi_out0 V c _ (by rw [Fin.val_last]; have : cfg0.N = 32 := N_0; omega)

end Cert.KernelIdeal.Hand

end
-- ==== Proof.KernelIdealFrame1.lean ====
/- Region 1's proof data and body obligation.
   The region walks its grid row-major: point t is (column tile t / 4, feature quarter t % 4). Its body has three kinds
   of point: at a first quarter the accumulator restarts from zero and takes the quarter's product; at a middle quarter
   it takes the product on top of what it held; at a last quarter it does the same and the output tile is stored from
   it with the bias added. The invariant carries the accumulator, owned whole, at the term of the recursion
   (the running sum since the last restart) the point before left. -/
import proofs.«141452_j42734924595240_1_alg».proof.Proof.KernelIdealBlocks
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions of the second region's body, in closed form over the grid -/

/-- The first conditional of the body (the accumulator's restart): the feature quarter is the first. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional (the output tile's store): the feature quarter is the last. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The zero offsets of a whole-buffer rectangle, however spelt. -/
theorem zero2 : (![0, 0] : Fin 2 → ℕ) = fun _ => 0 := by
  funext a; fin_cases a <;> rfl

/-- Reading back a buffer whose LAST store covered it whole: that store's payload, whatever came before. -/
theorem read_writes_head_whole {sg : RefSig} {κ : Kind} {sp : Space} {S : Shape} {e : EltTy}
    (v : View sg κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

set_option maxHeartbeats 1000000 in
/-- The body at a first quarter: the accumulator, whatever it held, is reset and then takes the quarter's product. -/
theorem kernelRun1_A (c : Dev nD) (i : grid1.Coords) (arg2 : Memref sig .tc .vmem S1024x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 x1 : Vec F S1024x2048 .bf16) (E : Set ℕ) (K : PUnit → sProp 𝕄) :
    iprop(owns (c : Thread nD τ) arg2 fullShare x0 ∗ owns (c : Thread nD τ) arg3 fullShare x1 ∗ (∃ d, owns (c : Thread nD τ) arg6 fullShare d)
        ∗ (iprop(owns (c : Thread nD τ) arg2 fullShare x0 ∗ owns (c : Thread nD τ) arg3 fullShare x1
            ∗ owns (c : Thread nD τ) arg6 fullShare (k1_pay2 (k1_pay1 (F := F)) x0 x1)) -∗ K ⟨⟩))
      ⊢ wp frame (wpE (defs₀ (F := F)) Variants.none c none) E (cc1__mlp2_kernel i arg2 harg2 arg3 harg3 arg4 harg4 arg5 harg5 arg6 harg6) K := by
  simp only [cc1__mlp2_kernel_eq_skeleton]; unfold cc1__mlp2_kernel_skel
  unfold owns
  iintro ⟨⟨%f0, %hf0, H0⟩, ⟨%f1, %hf1, H1⟩, ⟨%ds0, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  refine (read_writes_head_whole _ _ zero2 _ _ _).trans ?_
  sl_unfold_words
  simp only [View.readAt_eq_ld, harg2.read_unread, harg3.read_unread, View.ld_unit_zero (S := S1024x2048) zero2,
    View.readCov_unit_zero (S := S1024x1024) _ zero2]

set_option maxHeartbeats 1000000 in
/-- The body at a middle quarter: the accumulator takes the quarter's product on top of what it held. -/
theorem kernelRun1_B (c : Dev nD) (i : grid1.Coords) (arg2 : Memref sig .tc .vmem S1024x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 x1 : Vec F S1024x2048 .bf16) (xs : Vec F S1024x1024 .f32) (E : Set ℕ) (K : PUnit → sProp 𝕄) :
    iprop(owns (c : Thread nD τ) arg2 fullShare x0 ∗ owns (c : Thread nD τ) arg3 fullShare x1 ∗ owns (c : Thread nD τ) arg6 fullShare xs
        ∗ (iprop(owns (c : Thread nD τ) arg2 fullShare x0 ∗ owns (c : Thread nD τ) arg3 fullShare x1
            ∗ owns (c : Thread nD τ) arg6 fullShare (k1_pay2 xs x0 x1)) -∗ K ⟨⟩))
      ⊢ wp frame (wpE (defs₀ (F := F)) Variants.none c none) E (cc1__mlp2_kernel i arg2 harg2 arg3 harg3 arg4 harg4 arg5 harg5 arg6 harg6) K := by
  simp only [cc1__mlp2_kernel_eq_skeleton]; unfold cc1__mlp2_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg6.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  refine (read_writes_head_whole _ _ zero2 _ _ _).trans ?_
  simp only [View.readAt_eq_ld, harg2.read_unread, harg3.read_unread, harg6.read_unread,
    View.ld_unit_zero (S := S1024x2048) zero2, View.ld_unit_zero (S := S1024x1024) zero2]

set_option maxHeartbeats 1000000 in
/-- The body at a last quarter: the accumulator takes the quarter's product, and the output tile is stored from it
    with the bias added. -/
theorem kernelRun1_C (c : Dev nD) (i : grid1.Coords) (arg2 : Memref sig .tc .vmem S1024x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 x1 : Vec F S1024x2048 .bf16) (x2 : Vec F S1x1024 .f32) (xs : Vec F S1024x1024 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 xs x0 x1) x2)
            ∗ owns (c : Thread nD τ) arg6 fullShare (k1_pay2 xs x0 x1)) -∗ K ⟨⟩))
      ⊢ wp frame (wpE (defs₀ (F := F)) Variants.none c none) E (cc1__mlp2_kernel i arg2 harg2 arg3 harg3 arg4 harg4 arg5 harg5 arg6 harg6) K := by
  simp only [cc1__mlp2_kernel_eq_skeleton]; unfold cc1__mlp2_kernel_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg2.eq_unread hf0; obtain rfl := harg3.eq_unread hf1; obtain rfl := harg4.eq_unread hf2; obtain rfl := harg6.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (read_writes_head_whole _ _ zero2 _ _ _).trans ?_
    sl_unfold_words
    simp only [View.readAt_eq_ld, harg2.read_unread, harg3.read_unread, harg4.read_unread, harg6.read_unread,
      View.ld_unit_zero (S := S1024x2048) zero2, View.ld_unit_zero (S := S1024x1024) zero2,
      View.ld_unit_zero (S := S1x1024) zero2, View.readCov_unit_zero (S := S1024x1024) _ zero2]
  iexists _; isplitr
  swap; · iexact HS0
  ipureintro
  sl_unfold_words
  refine (read_writes_head_whole _ _ zero2 _ _ _).trans ?_
  simp only [View.readAt_eq_ld, harg2.read_unread, harg3.read_unread, harg6.read_unread,
    View.ld_unit_zero (S := S1024x2048) zero2, View.ld_unit_zero (S := S1024x1024) zero2]

/-! ## Where the windows are live, and where the output tile's buffer is left alone -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from a last quarter nothing is stored into the output tile's buffer, -/
theorem idleAt1_3 : ∀ t : Fin cfg1.N, ¬cond1_1 (grid1.coords t) → cfg1.idle 3 (grid1.coords t) = true := by decide +kernel
/-- and the pipeline does not write it back there; -/
theorem noFlush1_3 : ∀ t : Fin cfg1.N, ¬cond1_1 (grid1.coords t) → (cfg1.win 3).flush t = false := by decide +kernel
/-- at a last quarter the tile is stored. -/
theorem liveAt1_3 : ∀ t : Fin cfg1.N, cond1_1 (grid1.coords t) → cfg1.idle 3 (grid1.coords t) = false := by decide +kernel

/-! ## The staging memrefs at a point, and the accumulator -/

abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the region's own, carried from point to point. -/
abbrev scM1_0 : Memref sig .tc .vmem S1024x1024 .f32 := Memref.whole cc1_scratch0

/-- The core's scoped buffers that are neither a staging buffer of this region nor its accumulator, each whole at
    some contents, with the accumulator's resource `P` last. -/
def restWith (c : Dev nD) (P : sProp 𝕄) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_scratch0), ((c : Thread nD τ).loc cc0_scratch0) ↦{fullShare} f)
      ∗ P)

/-- What the launch hands the region, buffer by buffer: the accumulator at some contents. -/
theorem PhiA1_eq (c : Dev nD) :
    (Pipeline.ΦA spec1 c : sProp 𝕄)
      = iprop(restWith c (iprop(∃ d, owns (c : Thread nD τ) scM1_0 fullShare d)) ∗ (∃ r, prngReg c r)) := by
  unfold Pipeline.ΦA restWith; rw [scopedRest1_eq]; simp only [scM1_0, owns_whole]; try rfl

variable (V : (c : Dev nD) → (b : Ref sig .tc) → Buf (Elt F) ((c : Thread nD τ).loc b))

/-! ## The accumulator's recursion, by the kind of point -/

/-- At a first quarter the accumulator is the quarter's product over zero. -/
theorem acc1_first (c : Dev nD) (t : Fin cfg1.N) (h0 : t.val % 4 = 0) :
    acc1 V c t.val t.isLt = k1_pay2 (k1_pay1 (F := F)) (iblk1 V c 0 t) (iblk1 V c 1 t) := by
  obtain ⟨n, hn⟩ := t
  cases n with
  | zero => rw [acc1]
  | succ n => rw [acc1]; exact congrArg (fun a => k1_pay2 a (iblk1 V c 0 ⟨n + 1, hn⟩) (iblk1 V c 1 ⟨n + 1, hn⟩)) (if_pos h0)

/-- At any other quarter it is the quarter's product over what the point before left. -/
theorem acc1_next (c : Dev nD) (t : Fin cfg1.N) (h0 : ¬t.val % 4 = 0) :
    acc1 V c t.val t.isLt = k1_pay2 (acc1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h0
  | succ n => rw [acc1]; exact congrArg (fun a => k1_pay2 a (iblk1 V c 0 ⟨n + 1, hn⟩) (iblk1 V c 1 ⟨n + 1, hn⟩)) (if_neg h0)

/-! ## The invariant -/

/-- The invariant before position n of region 1: before the first point what the launch hands over; afterwards the
    accumulator owned whole at what the point before left in it, the other scoped buffers and the generator
    register at anything. -/
def PhiS1 (c : Dev nD) : (n : ℕ) → n ≤ cfg1.N → sProp 𝕄
  | 0, _ => Pipeline.ΦA spec1 c
  | n + 1, hn => iprop(restWith c (owns (c : Thread nD τ) scM1_0 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(restWith c (owns (c : Thread nD τ) scM1_0 fullShare (acc1 V c n hn)) ∗ (∃ r, prngReg c r)) := rfl

theorem PhiS1_pos (c : Dev nD) (n : ℕ) (h : n ≤ cfg1.N) (hz : n ≠ 0) :
    PhiS1 V c n h = iprop(restWith c (owns (c : Thread nD τ) scM1_0 fullShare (acc1 V c (n - 1) (by omega))) ∗ (∃ r, prngReg c r)) := by
  cases n with
  | zero => exact absurd rfl hz
  | succ n => rfl

/-- Region 1's proof data on core c at the entry contents V. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => tile1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = tile1 V c t := by dsimp only [dat1]

theorem share1 (c : Dev nD) (w : Fin cfg1.W) : (dat1 V c).share w = fullShare :=
  (dat1 V c).share_full (fun _ => rfl) w

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## Each input's current staging buffer holds its block at every point, fetched there or not
    (the bias block is fetched at first quarters only; between fetches its block index has not moved) -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]
theorem leaves1_3_live (c : Dev nD) (t : Fin cfg1.N) (h : cond1_1 (grid1.coords t)) :
    (dat1 V c).leavesExact 3 t = owns (c : Thread nD τ) (ms1_3 t) fullShare (tile1 V c t) := by
  unfold Dat.leavesExact; rw [liveAt1_3 t h, after1_3]

set_option maxHeartbeats 4800000 in
/-- The body at any point. The inputs' buffers hold their blocks; the closed forms say which kind of point it is.
    At a first quarter the accumulator (at anything: what the launch hands over, or what the last column tile left)
    restarts; at the others the invariant hands it over at what the point before left; the body leaves it at this
    point's term of the recursion, and at a last quarter stores the tile from it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 16 := lt_of_lt_of_eq t.isLt (show cfg1.N = 16 from N_1)
  by_cases h0 : t.val % 4 = 0
  · have hc0 : cond1_0 (grid1.coords t) := (hcond1_0 t).mpr h0
    have hc1 : ¬cond1_1 (grid1.coords t) := fun h => by have := (hcond1_1 t).mp h; omega
    rw [Dat.leavesExact_idle (dat1 V c) 3 t (idleAt1_3 t hc1) (noFlush1_3 t hc1)]
    rw [acc1_first V c t h0]
    by_cases hz : t.val = 0
    · rw [PhiS1_castSucc V c t, PhiS1_zero V c _ _ hz, PhiA1_eq]
      unfold restWith
      iintro ⟨⟨⟨R1, R2, R3, R4, R5, R6, R7, R8, R9, HS0⟩, Hg⟩, Ho, ⟨%d0, H0⟩, ⟨%d1, H1⟩, ⟨%d2, H2⟩, ⟨%d3, H3⟩⟩
      iapply (kernelRun1_A c (grid1.coords t) _ _ _ _ _ _ _ _ _ _ hc0 hc1 (iblk1 V c 0 t) (iblk1 V c 1 t) Set.univ _)
      isplitl [H0]; · iexact H0
      isplitl [H1]; · iexact H1
      isplitl [HS0]; · iexact HS0
      iintro ⟨H0, H1, HS0⟩
      isplitl [R1 R2 R3 R4 R5 R6 R7 R8 R9 HS0 Hg]
      · isplitr [Hg]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          iexact HS0
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      unfold restWith
      iintro ⟨⟨⟨R1, R2, R3, R4, R5, R6, R7, R8, R9, HS0⟩, Hg⟩, Ho, ⟨%d0, H0⟩, ⟨%d1, H1⟩, ⟨%d2, H2⟩, ⟨%d3, H3⟩⟩
      iapply (kernelRun1_A c (grid1.coords t) _ _ _ _ _ _ _ _ _ _ hc0 hc1 (iblk1 V c 0 t) (iblk1 V c 1 t) Set.univ _)
      isplitl [H0]; · iexact H0
      isplitl [H1]; · iexact H1
      isplitl [HS0]; · iexists _; iexact HS0
      iintro ⟨H0, H1, HS0⟩
      isplitl [R1 R2 R3 R4 R5 R6 R7 R8 R9 HS0 Hg]
      · isplitr [Hg]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          iexact HS0
        iexact Hg
      isplitl [Ho]; · iexact Ho
      isplitl [H0]; · iexact H0
      isplitl [H1]; · iexact H1
      isplitl [H2]; · iexact H2
      iexists _; iexact H3
  · have hc0 : ¬cond1_0 (grid1.coords t) := fun h => h0 ((hcond1_0 t).mp h)
    have hz : t.val ≠ 0 := fun e => h0 (by rw [e])
    rw [acc1_next V c t h0]
    rw [PhiS1_castSucc V c t, PhiS1_pos V c _ _ hz]
    by_cases h1 : t.val % 4 = 3
    · have hc1 : cond1_1 (grid1.coords t) := (hcond1_1 t).mpr h1
      rw [leaves1_3_live V c t hc1]
      unfold tile1
      rw [acc1_next V c t h0]
      unfold restWith
      iintro ⟨⟨⟨R1, R2, R3, R4, R5, R6, R7, R8, R9, HS0⟩, Hg⟩, Ho, ⟨%d0, H0⟩, ⟨%d1, H1⟩, ⟨%d2, H2⟩, ⟨%d3, H3⟩⟩
      iapply (kernelRun1_C c (grid1.coords t) _ _ _ _ _ _ _ _ _ _ hc0 hc1 (iblk1 V c 0 t) (iblk1 V c 1 t) (iblk1 V c 2 t) _ Set.univ _)
      isplitl [H0]; · iexact H0
      isplitl [H1]; · iexact H1
      isplitl [H2]; · iexact H2
      isplitl [H3]; · iexists _; iexact H3
      isplitl [HS0]; · iexact HS0
      iintro ⟨H0, H1, H2, H3, HS0⟩
      isplitl [R1 R2 R3 R4 R5 R6 R7 R8 R9 HS0 Hg]
      · isplitr [Hg]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          iexact HS0
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      unfold restWith
      iintro ⟨⟨⟨R1, R2, R3, R4, R5, R6, R7, R8, R9, HS0⟩, Hg⟩, Ho, ⟨%d0, H0⟩, ⟨%d1, H1⟩, ⟨%d2, H2⟩, ⟨%d3, H3⟩⟩
      iapply (kernelRun1_B c (grid1.coords t) _ _ _ _ _ _ _ _ _ _ hc0 hc1 (iblk1 V c 0 t) (iblk1 V c 1 t) _ Set.univ _)
      isplitl [H0]; · iexact H0
      isplitl [H1]; · iexact H1
      isplitl [HS0]; · iexact HS0
      iintro ⟨H0, H1, HS0⟩
      isplitl [R1 R2 R3 R4 R5 R6 R7 R8 R9 HS0 Hg]
      · isplitr [Hg]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          iexact HS0
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) :
    BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives back what the launch handed over: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 16 := N_1; omega), PhiA1_eq]
  unfold restWith
  iintro ⟨⟨R1, R2, R3, R4, R5, R6, R7, R8, R9, HS0⟩, Hg⟩
  isplitr [Hg]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexists _; iexact HS0
  iexact Hg

end Cert.KernelIdeal.Hand

end
-- ==== Proof.KernelIdealRun.lean ====
/- The whole run of the program: the buffers' contents at every boundary between @main's items, both regions as
   segments of the run, and the run itself — every weakly fair execution terminates, nothing faults, and every unscoped
   buffer ends at the last boundary's contents. -/
import proofs.«141452_j42734924595240_1_alg».proof.Proof.KernelIdealFrame0
import proofs.«141452_j42734924595240_1_alg».proof.Proof.KernelIdealFrame1
import proofs.«141452_j42734924595240_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m ((c : Dev nD), b)
/-- After the five host stretches before the first region (its entry contents). -/
abbrev W5 : Dev nD → Valuation τ sig (Elt F) := fun c =>
  StableHlo.after hostOps0_4 (StableHlo.after hostOps0_3 (StableHlo.after hostOps0_2 (StableHlo.after hostOps0_1 (StableHlo.after hostOps0 (W0 m c)))))
/-- The same read at the TensorCore's references. -/
abbrev Ve0 : (c : Dev nD) → (b : Ref sig .tc) → Buf (Elt F) ((c : Thread nD τ).loc b) := fun c b => W5 m c b
/-- At the first region's exit: its arrays at what the pipeline leaves, every other buffer as entered. -/
def W6 (c : Dev nD) : Valuation τ sig (Elt F) :=
  Pipeline.withArrays spec0 c (W5 m c) fun w => (dat0 (Ve0 m) c).arrAt w cfg0.N
/-- The same read at the TensorCore's references (the second region's entry contents). -/
abbrev Ve1 : (c : Dev nD) → (b : Ref sig .tc) → Buf (Elt F) ((c : Thread nD τ).loc b) := fun c b => W6 m c b
/-- At the second region's exit. -/
def W7 (c : Dev nD) : Valuation τ sig (Elt F) :=
  Pipeline.withArrays spec1 c (W6 m c) fun w => (dat1 (Ve1 m) c).arrAt w cfg1.N
/-- After the last host stretch: the end. -/
abbrev W8 : Dev nD → Valuation τ sig (Elt F) := fun c => StableHlo.after hostOps2 (W7 m c)

/-! ## Reading a region's exit contents: at one of its arrays, and at any other buffer -/

theorem W6_arr (c : Dev nD) (w : Fin cfg0.W) :
    W6 m c (Proc.devRef .tc (Pipeline.arrRef spec0 w)) = (dat0 (Ve0 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
theorem W7_arr (c : Dev nD) (w : Fin cfg1.W) :
    W7 m c (Proc.devRef .tc (Pipeline.arrRef spec1 w)) = (dat1 (Ve1 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb

/-- The first region's exit contents, read at the TensorCore's references. -/
abbrev Vx0 : (c : Dev nD) → (b : Ref sig .tc) → Buf (Elt F) ((c : Thread nD τ).loc b) := fun c b => W6 m c b
/-- The second region's exit contents, read at the TensorCore's references. -/
abbrev Vx1 : (c : Dev nD) → (b : Ref sig .tc) → Buf (Elt F) ((c : Thread nD τ).loc b) := fun c b => W7 m c b

/-- At a region's exit each of its arrays holds what the pipeline leaves, and every other buffer what it held at entry. -/
theorem hF0 (c : Dev nD) (w : Fin cfg0.W) : (dat0 (Ve0 m) c).arrAt w cfg0.N = Vx0 m c (Pipeline.arrRef spec0 w) :=
  (W6_arr m c w).symm
theorem hrest0 (c : Dev nD) : ∀ b, b ∉ Finset.univ.image (Pipeline.arrRef spec0) → Vx0 m c b = Ve0 m c b :=
  fun b hb => W6_of_ne m c b fun w e => hb (Finset.mem_image.mpr ⟨w, Finset.mem_univ _, e⟩)
theorem hF1 (c : Dev nD) (w : Fin cfg1.W) : (dat1 (Ve1 m) c).arrAt w cfg1.N = Vx1 m c (Pipeline.arrRef spec1 w) :=
  (W7_arr m c w).symm
theorem hrest1 (c : Dev nD) : ∀ b, b ∉ Finset.univ.image (Pipeline.arrRef spec1) → Vx1 m c b = Ve1 m c b :=
  fun b hb => W7_of_ne m c b fun w e => hb (Finset.mem_image.mpr ⟨w, Finset.mem_univ _, e⟩)

/-! ## What the last boundary holds -/

/-- A buffer that no host stretch writes and that is no array of either region ends as launched: the fold walks back
    through the last stretch, both regions' exits and the five first stretches to the launch memory. -/
theorem W8_of_untouched (c : Dev nD) (r : Ref sig .tc)
    (h8 : r ∉ hostOps2_W) (h7 : ∀ w, Pipeline.arrRef spec1 w ≠ r) (h6 : ∀ w, Pipeline.arrRef spec0 w ≠ r)
    (h5 : r ∉ hostOps0_4_W) (h4 : r ∉ hostOps0_3_W) (h3 : r ∉ hostOps0_2_W) (h2 : r ∉ hostOps0_1_W) (h1 : r ∉ hostOps0_W) :
    W8 m c (Proc.devRef .tc r) = m ((c : Thread nD τ).loc r) :=
  calc W8 m c (Proc.devRef .tc r)
    _ = W7 m c (Proc.devRef .tc r) := StableHlo.after_of_writes_sub hostOps2 _ hostOps2_writes h8
    _ = W6 m c (Proc.devRef .tc r) := W7_of_ne m c r h7
    _ = W5 m c (Proc.devRef .tc r) := W6_of_ne m c r h6
    _ = V4 m c r := V5_of m c r h5
    _ = V3 m c r := V4_of m c r h4
    _ = V2 m c r := V3_of m c r h3
    _ = V1 m c r := V2_of m c r h2
    _ = V0 m c r := V1_of m c r h1
    _ = m ((c : Thread nD τ).loc r) := rfl

theorem W8_main_arg0 (c : Dev nD) : W8 m c (Proc.devRef .tc main_arg0) = m ((c : Thread nD τ).loc main_arg0) :=
  W8_of_untouched m c main_arg0 (by decide) (by decide) (by decide) (by decide) (by decide) (by decide) (by decide) (by decide)
theorem W8_main_arg1 (c : Dev nD) : W8 m c (Proc.devRef .tc main_arg1) = m ((c : Thread nD τ).loc main_arg1) :=
  W8_of_untouched m c main_arg1 (by decide) (by decide) (by decide) (by decide) (by decide) (by decide) (by decide) (by decide)
theorem W8_main_arg2 (c : Dev nD) : W8 m c (Proc.devRef .tc main_arg2) = m ((c : Thread nD τ).loc main_arg2) :=
  W8_of_untouched m c main_arg2 (by decide) (by decide) (by decide) (by decide) (by decide) (by decide) (by decide) (by decide)
theorem W8_main_arg3 (c : Dev nD) : W8 m c (Proc.devRef .tc main_arg3) = m ((c : Thread nD τ).loc main_arg3) :=
  W8_of_untouched m c main_arg3 (by decide) (by decide) (by decide) (by decide) (by decide) (by decide) (by decide) (by decide)
theorem W8_main_arg4 (c : Dev nD) : W8 m c (Proc.devRef .tc main_arg4) = m ((c : Thread nD τ).loc main_arg4) :=
  W8_of_untouched m c main_arg4 (by decide) (by decide) (by decide) (by decide) (by decide) (by decide) (by decide) (by decide)
theorem W8_main_arg5 (c : Dev nD) : W8 m c (Proc.devRef .tc main_arg5) = m ((c : Thread nD τ).loc main_arg5) :=
  W8_of_untouched m c main_arg5 (by decide) (by decide) (by decide) (by decide) (by decide) (by decide) (by decide) (by decide)

/-- The result buffer ends at the second region's output array, reshaped. -/
theorem W8_main_v37 (c : Dev nD) :
    (W8 m c (Proc.devRef .tc main_v37) : Vec F S8x128x4096 .f32)
      = shapeCast S8x128x4096 ((dat1 (Ve1 m) c).arrAt 3 cfg1.N : Vec F S1024x4096 .f32) shapeCasts_S1024x4096_S8x128x4096 := by
  show StableHlo.after hostOps2 _ (Proc.devRef .tc main_v37) = _
  after_results
  exact congrArg (fun v : Vec F S1024x4096 .f32 => shapeCast S8x128x4096 v shapeCasts_S1024x4096_S8x128x4096) (W7_arr m c 3)

/-- What the second region finds in its three input arrays: the first region's output array, and two host values. -/
theorem Ve1_main_v35 (c : Dev nD) : Ve1 m c main_v35 = (dat0 (Ve0 m) c).arrAt 3 cfg0.N := W6_arr m c 3
theorem Ve1_main_v32 (c : Dev nD) : Ve1 m c main_v32 = Ve0 m c main_v32 := W6_of_ne m c main_v32 (by decide)
theorem Ve1_main_v34 (c : Dev nD) : Ve1 m c main_v34 = Ve0 m c main_v34 := W6_of_ne m c main_v34 (by decide)

/-! ## The proof data family and the thread state -/

/-- Both pipelines' proof data, each at its region's entry contents. -/
def pdatsR : (p : Fin 2) → (c : Dev nD) → Dat τ (Elt F) Unit ℕ (UR sig nD τ) ℕ (Pipeline.pin (pcfgs (F := F)) adm p) c
  | ⟨0, _⟩ => fun c => dat0 (Ve0 m) c
  | ⟨1, _⟩ => fun c => dat1 (Ve1 m) c
abbrev 𝒱R : Variants := Variants.none
/-- No core owes another anything: no level is assigned. -/
abbrev LR : GSem nD τ sig → Finset Unit := fun _ => ∅
abbrev lvR : GSem nD τ sig → Unit → ℕ := fun _ _ => 0
/-- What rides beside the buffers through every segment: the core's generator register at some state and its dues,
    at nothing. -/
abbrev RR (c : Dev nD) : sProp 𝕄 := iprop((∃ r, prngReg c r) ∗ ∃ W, owes (c : Thread nD τ) (0 : CellTallies nD τ sig Unit) W)
/-- A host stretch as a segment: every unscoped buffer held at the contents W before it and at W advanced by the
    stretch after it, the rest riding along. -/
abbrev hsegR (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱R LR lvR :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RR

/-- The last thread state without the dues: every unscoped buffer at the last boundary's contents, the generator
    register at some state. -/
abbrev TnR (c : Dev nD) : sProp 𝕄 := iprop(StableHlo.held (c : Thread nD τ) (Pipeline.ucRefs τ sig) (W8 m c) ∗ ∃ r, prngReg c r)

/-- The last host stretch's exit state is the last thread state beside the core owing nothing (the same three
    conjuncts, bracketed the other way). -/
theorem chain_end (c : Dev nD) :
    (iprop(StableHlo.held (c : Thread nD τ) (Pipeline.ucRefs τ sig) (W8 m c) ∗ RR c) : sProp 𝕄)
      ⊢ iprop(TnR m c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

set_option backward.isDefEq.respectTransparency.types false in
/-- The first region over the thread state: entered from every unscoped buffer at W5, left at W6. Its arrays are split
    out of the unscoped buffers and put back at the exit contents; the generator register and the scoped buffers no
    window stages go into the region's invariant at its first point and come back from it at its last. -/
def regA : Pipeline.RegionSeg (pcfgs (F := F)) adm (pdatsR m) () defs₀ 𝒱R LR lvR 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ LR lvR 0 fun _ _ => rfl
  pre c := iprop(StableHlo.held (c : Thread nD τ) (Pipeline.ucRefs τ sig) (W5 m c) ∗ RR c)
  post c := iprop(StableHlo.held (c : Thread nD τ) (Pipeline.ucRefs τ sig) (W6 m c) ∗ RR c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdatsR m) launch0.win launch0.arr_whole c
      (share0 (Ve0 m) c) (Ve0 m c) (A_eq0 (Ve0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Ve0 m) c)
    unfold Pipeline.ΦA
    iintro ⟨Hp, -, Hr⟩
    isplitl [Hr]; · iexact Hr
    iexact Hp
  hout c := by
    rw [Pipeline.ownSems0_none]
    refine BIBase.Entails.trans (hout0 (Ve0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsR m) (share0 (Ve0 m) c)
      (Ve0 m c) (Vx0 m c) ((pdatsR m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at W6 (what the first region left),
    left at W7. -/
def regB : Pipeline.RegionSeg (pcfgs (F := F)) adm (pdatsR m) () defs₀ 𝒱R LR lvR 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ LR lvR 1 fun _ _ => rfl
  pre c := iprop(StableHlo.held (c : Thread nD τ) (Pipeline.ucRefs τ sig) (W6 m c) ∗ RR c)
  post c := iprop(StableHlo.held (c : Thread nD τ) (Pipeline.ucRefs τ sig) (W7 m c) ∗ RR c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdatsR m) launch1.win launch1.arr_whole c
      (share1 (Ve1 m) c) (Ve1 m c) (A_eq1 (Ve1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Ve1 m) c)
    unfold Pipeline.ΦA
    iintro ⟨Hp, -, Hr⟩
    isplitl [Hr]; · iexact Hr
    iexact Hp
  hout c := by
    rw [Pipeline.ownSems0_none]
    refine BIBase.Entails.trans (hout1 (Ve1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsR m) (share1 (Ve1 m) c)
      (Ve1 m c) (Vx1 m c) ((pdatsR m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's eight segments in order: five host stretches, the two regions back to back, the last host stretch. -/
abbrev segsR : List (Pipeline.Seg (pcfgs (F := F)) adm (pdatsR m) () defs₀ 𝒱R LR lvR) :=
  [ .host (hsegR hostOps0 hostOps0_sub hostOps0_fresh (W0 m)),
    .host (hsegR hostOps0_1 hostOps0_1_sub hostOps0_1_fresh (fun c => StableHlo.after hostOps0 (W0 m c))),
    .host (hsegR hostOps0_2 hostOps0_2_sub hostOps0_2_fresh (fun c => StableHlo.after hostOps0_1 (StableHlo.after hostOps0 (W0 m c)))),
    .host (hsegR hostOps0_3 hostOps0_3_sub hostOps0_3_fresh (fun c => StableHlo.after hostOps0_2 (StableHlo.after hostOps0_1 (StableHlo.after hostOps0 (W0 m c))))),
    .host (hsegR hostOps0_4 hostOps0_4_sub hostOps0_4_fresh (fun c => StableHlo.after hostOps0_3 (StableHlo.after hostOps0_2 (StableHlo.after hostOps0_1 (StableHlo.after hostOps0 (W0 m c)))))),
    .region (regA m),
    .region (regB m),
    .host (hsegR hostOps2 hostOps2_sub hostOps2_fresh (W7 m)) ]

set_option backward.isDefEq.respectTransparency.types false in
/-- Every weakly fair execution of @main from memory m with zero counters terminates, nothing faulting, and every final
    memory has every unscoped buffer of every core at the last boundary's contents. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W8 m c b) :=
  Pipeline.θ_run_regions_kit (pcfgs (F := F)) adm (pdatsR m) () cellOf_inj emb₁ defs₀ 𝒱R LR lvR m ρ main (segsR m)
    (fun c Q => by
      rewrite [main_chain c, Pipeline.Seg.run_eq_chain,
        show (segsR m).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()),
          StableHlo.seq hostOps2 ] from rfl]
      exact .rfl)
    (by simp only [segsR, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RR c)) (Tₙ := TnR m)
    (hch := ⟨fun _ => .rfl, fun _ => .rfl, fun _ => .rfl, fun _ => .rfl, fun _ => .rfl, fun _ => .rfl, fun _ => .rfl, fun _ => .rfl,
      fun c => chain_end m c⟩)
    (hinit := by
      refine Pipeline.initEach LR lvR fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- Membership of an unscoped TensorCore reference among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c)⟩) (run_all m ρ)

end Cert.KernelIdeal.Hand

end
-- ==== Proof.RefImports.lean ====
/- The reference program's run and its read-at-an-index lemmas, gathered in one place for the modules that speak of the reference's value. -/
import proofs.«141452_j42734924595240_1_alg».proof.Proof.Gen.ReferenceIdeal.Run
import proofs.«141452_j42734924595240_1_alg».proof.Proof.Gen.ReferenceIdeal.Read
-- ==== Proof.Spec.lean ====
/- The mathematics both programs compute, stated once over the extended reals and over plain coordinates.
   A row r of the flattened context x (1024 rows of 8192 features) is sent through two dense layers:
     hidden r g = gelu (∑ f, x r f * w₁ g f + b₁ g)          (8192 hidden units, tanh-form GELU)
     logits r v = ∑ g, hidden r g * w₂ v g + b₂ v             (4096 outputs)
   Sums over the extended reals are commutative and associative, so a sum taken in four consecutive
   quarters of the feature axis is the same sum. -/
import Idealize.ShloMosaic.PureOps.Ideal
import Mathlib.Algebra.BigOperators.Group.Finset.Basic

noncomputable section

namespace Cert.Spec

open Idealize.ShloMosaic

/-- The tanh-form GELU on the extended reals, 0.5·v·(1 + tanh(c·(v + a·v³))), the four float literals at their
    exact binary values and the cube grouped as v·(v·v). -/
def gelu (v : EReal) : EReal :=
  (Ideal.ofBits .f32 0x3F000000#32 * v) *
    (Ideal.ofBits .f32 0x3F800000#32 +
      Ideal.tanh (Ideal.ofBits .f32 0x3F4C422A#32 * (v + Ideal.ofBits .f32 0x3D372713#32 * (v * (v * v)))))

/-- The first layer: row r, hidden unit g. -/
def hidden (x : Fin 1024 → Fin 8192 → EReal) (w₁ : Fin 8192 → Fin 8192 → EReal) (b₁ : Fin 8192 → EReal)
    (r : Fin 1024) (g : Fin 8192) : EReal :=
  gelu ((∑ f : Fin 8192, x r f * w₁ g f) + b₁ g)

/-- The second layer: row r, output v. -/
def logits (h : Fin 1024 → Fin 8192 → EReal) (w₂ : Fin 4096 → Fin 8192 → EReal) (b₂ : Fin 4096 → EReal)
    (r : Fin 1024) (v : Fin 4096) : EReal :=
  (∑ g : Fin 8192, h r g * w₂ v g) + b₂ v

end Cert.Spec

end
-- ==== Proof.KernelIdealValuePay.lean ====
/- The payloads of the two matmul kernels read at an index, over the extended reals.
   The accumulator's restart is zero everywhere; one accumulation step adds, at (r, j), the sum over the 2048 features
   of the quarter of the row block's entry (r, q) times the weight block's entry (j, q); the hidden layer's epilogue
   is the tanh-form GELU of accumulator plus bias, the output layer's is accumulator plus bias. -/
import proofs.«141452_j42734924595240_1_alg».proof.Proof.Gen.KernelIdeal.Skeleton
import proofs.«141452_j42734924595240_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! ## The contraction's operand indices: row of the left block, row of the right block, the shared feature -/

theorem lhs_dot_0 (i : S1024x1024.Idx) (q : dot_S1024x2048_S1024x2048_S1024x1024_1_1_0_0_n_n.contr.Idx) :
    (dot_S1024x2048_S1024x2048_S1024x1024_1_1_0_0_n_n.lhsIdx i q 0).val = (i 0).val := by
  unfold DotDims.lhsIdx
  rw [dif_neg (show ¬(0 : Fin S1024x2048.rank) ∈ dot_S1024x2048_S1024x2048_S1024x1024_1_1_0_0_n_n.lhsBatch by decide), dif_pos (show (0 : Fin S1024x2048.rank) ∈ dot_S1024x2048_S1024x2048_S1024x1024_1_1_0_0_n_n.lhsNonContracting by decide)]
  rfl
theorem lhs_dot_1 (i : S1024x1024.Idx) (q : dot_S1024x2048_S1024x2048_S1024x1024_1_1_0_0_n_n.contr.Idx) :
    (dot_S1024x2048_S1024x2048_S1024x1024_1_1_0_0_n_n.lhsIdx i q 1).val = (q ⟨0, by decide⟩).val :=
  dot_S1024x2048_S1024x2048_S1024x1024_1_1_0_0_n_n.lhsIdx_val_of_single rfl i q
theorem rhs_dot_0 (i : S1024x1024.Idx) (q : dot_S1024x2048_S1024x2048_S1024x1024_1_1_0_0_n_n.contr.Idx) :
    (dot_S1024x2048_S1024x2048_S1024x1024_1_1_0_0_n_n.rhsIdx i q 0).val = (i 1).val := by
  unfold DotDims.rhsIdx
  rw [dif_neg (show ¬(0 : Fin S1024x2048.rank) ∈ dot_S1024x2048_S1024x2048_S1024x1024_1_1_0_0_n_n.rhsBatch by decide), dif_pos (show (0 : Fin S1024x2048.rank) ∈ dot_S1024x2048_S1024x2048_S1024x1024_1_1_0_0_n_n.rhsNonContracting by decide)]
  rfl
theorem rhs_dot_1 (i : S1024x1024.Idx) (q : dot_S1024x2048_S1024x2048_S1024x1024_1_1_0_0_n_n.contr.Idx) :
    (dot_S1024x2048_S1024x2048_S1024x1024_1_1_0_0_n_n.rhsIdx i q 1).val = (q ⟨0, by decide⟩).val :=
  dot_S1024x2048_S1024x2048_S1024x1024_1_1_0_0_n_n.rhsIdx_val_of_single rfl i q

/-- The product of a row block and a weight block into a zero accumulator, at (r, j): the row r of the one against
    the row j of the other, summed over the 2048 shared features. -/
theorem matmul_zero_apply (x w : FVec Ideal S1024x2048 .bf16) (r j : Fin 1024) :
    (matmul (φ₁ := .bf16) (φ₂ := .bf16) dot_S1024x2048_S1024x2048_S1024x1024_1_1_0_0_n_n none x w (constant (F := Ideal) S1024x1024 .f32 0x00000000#32) : FVec Ideal S1024x1024 .f32) (ix2 r j)
      = ∑ q : Fin 2048, x (ix2 r q) * w (ix2 j q) := by
  simp only [matmul]
  rw [Ideal.matmul_constant_zero_apply, ← Equiv.sum_comp (contrEquiv1 dot_S1024x2048_S1024x2048_S1024x1024_1_1_0_0_n_n 2048 rfl rfl).symm]
  refine Finset.sum_congr rfl fun k _ => ?_
  have hk := contrEquiv1_symm_val dot_S1024x2048_S1024x2048_S1024x1024_1_1_0_0_n_n 2048 rfl rfl k
  have el : dot_S1024x2048_S1024x2048_S1024x1024_1_1_0_0_n_n.lhsIdx (ix2 r j) ((contrEquiv1 dot_S1024x2048_S1024x2048_S1024x1024_1_1_0_0_n_n 2048 rfl rfl).symm k) = ix2 r k := funext fun a => Fin.ext (by
    match a with
    | ⟨0, _⟩ => exact lhs_dot_0 _ _
    | ⟨1, _⟩ => exact (lhs_dot_1 _ _).trans hk)
  have er : dot_S1024x2048_S1024x2048_S1024x1024_1_1_0_0_n_n.rhsIdx (ix2 r j) ((contrEquiv1 dot_S1024x2048_S1024x2048_S1024x1024_1_1_0_0_n_n 2048 rfl rfl).symm k) = ix2 j k := funext fun a => Fin.ext (by
    match a with
    | ⟨0, _⟩ => exact rhs_dot_0 _ _
    | ⟨1, _⟩ => exact (rhs_dot_1 _ _).trans hk)
  rw [el, er]

/-- The lane-by-lane hyperbolic tangent at an index. -/
theorem vtanh_apply {s : Shape} {φ : FTy} (a : FVec Ideal s φ) (i : s.Idx) : tanh a i = Ideal.tanh (a i) := rfl

/-! ## The first kernel's payloads -/

theorem k0_pay1_apply (i : S1024x1024.Idx) : (k0_pay1 (F := Ideal)) i = 0 := by
  unfold k0_pay1
  rw [shapeCast_self]
  exact Ideal.ofBits_zero_f32

theorem k0_pay2_apply (a : Vec Ideal S1024x1024 .f32) (x w : Vec Ideal S1024x2048 .bf16) (r j : Fin 1024) :
    k0_pay2 a x w (ix2 r j) = a (ix2 r j) + ∑ q : Fin 2048, x (ix2 r q) * w (ix2 j q) := by
  unfold k0_pay2
  simp only [shapeCast_self]
  rw [addf_apply]
  exact congrArg (a (ix2 r j) + ·) (matmul_zero_apply x w r j)

theorem k0_pay3_apply (a : Vec Ideal S1024x1024 .f32) (b : Vec Ideal S1x1024 .f32) (r j : Fin 1024) :
    k0_pay3 a b (ix2 r j) = Cert.Spec.gelu (a (ix2 r j) + b (ix2 (0 : Fin 1) j)) := by
  have hb : (broadcastTo S1024x1024 b broadcasts_S1x1024_S1024x1024 : Vec Ideal S1024x1024 .f32) (ix2 r j) = b (ix2 (0 : Fin 1) j) :=
    broadcastTo_apply b broadcasts_S1x1024_S1024x1024 (ix2 r j) (ix2 (0 : Fin 1) j) (fun a => by
      match a with
      | ⟨0, _⟩ => rfl
      | ⟨1, _⟩ => rfl)
  unfold k0_pay3 Cert.Spec.gelu
  simp only [shapeCast_self, truncf_apply, vtanh_apply, mulf_apply, addf_apply, broadcast_apply, hb]
  rfl

/-! ## The second kernel's payloads -/

theorem k1_pay1_apply (i : S1024x1024.Idx) : (k1_pay1 (F := Ideal)) i = 0 := by
  unfold k1_pay1
  rw [shapeCast_self]
  exact Ideal.ofBits_zero_f32

theorem k1_pay2_apply (a : Vec Ideal S1024x1024 .f32) (x w : Vec Ideal S1024x2048 .bf16) (r j : Fin 1024) :
    k1_pay2 a x w (ix2 r j) = a (ix2 r j) + ∑ q : Fin 2048, x (ix2 r q) * w (ix2 j q) := by
  unfold k1_pay2
  simp only [shapeCast_self]
  rw [addf_apply]
  exact congrArg (a (ix2 r j) + ·) (matmul_zero_apply x w r j)

theorem k1_pay3_apply (a : Vec Ideal S1024x1024 .f32) (b : Vec Ideal S1x1024 .f32) (r j : Fin 1024) :
    k1_pay3 a b (ix2 r j) = a (ix2 r j) + b (ix2 (0 : Fin 1) j) := by
  have hb : (broadcastTo S1024x1024 b broadcasts_S1x1024_S1024x1024 : Vec Ideal S1024x1024 .f32) (ix2 r j) = b (ix2 (0 : Fin 1) j) :=
    broadcastTo_apply b broadcasts_S1x1024_S1024x1024 (ix2 r j) (ix2 (0 : Fin 1) j) (fun a => by
      match a with
      | ⟨0, _⟩ => rfl
      | ⟨1, _⟩ => rfl)
  unfold k1_pay3
  simp only [shapeCast_self]
  rw [addf_apply, hb]

end Cert.KernelIdeal.Hand

end
-- ==== Proof.KernelIdealValueArrays.lean ====
/- Each window's block at a grid point, read through the array it is a block of, coordinate by coordinate.
   Point t of either grid is (column tile t / 4, feature quarter t % 4). The row block is all 1024 rows of quarter
   t % 4 (2048 features); the weight block is rows 1024·(t / 4) … of the same quarter; the bias block is columns
   1024·(t / 4) … of the one bias row. A block's coordinate in its array is block index × block size + the coordinate
   inside the block. -/
import proofs.«141452_j42734924595240_1_alg».proof.Proof.KernelIdealBlocks
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-! ## The first region -/

/-- The first grid's printed index maps, decided once over its 32 points. -/
theorem index_facts0 : ∀ t : Fin cfg0.N,
    win0_0.index t (0 : Fin 2) = 0 ∧ win0_0.index t (1 : Fin 2) = t.val % 4
    ∧ win0_1.index t (0 : Fin 2) = t.val / 4 ∧ win0_1.index t (1 : Fin 2) = t.val % 4
    ∧ win0_2.index t (0 : Fin 2) = 0 ∧ win0_2.index t (1 : Fin 2) = t.val / 4
    ∧ win0_3.index t (0 : Fin 2) = 0 ∧ win0_3.index t (1 : Fin 2) = t.val / 4 :=
  (by decide +kernel : ∀ t : Fin grid0.N, _)

/-- The row block at point t: entry (r, q) is row r, feature 2048·(t % 4) + q. -/
theorem iblk0_rows (c : Dev nD) (t : Fin cfg0.N) (r : Fin 1024) (q : Fin 2048) (f : Fin 8192)
    (hf : f.val = 2048 * (t.val % 4) + q.val) :
    (iblk0 V c 0 t : Vec Ideal S1024x2048 .bf16) (ix2 r q) = (V c main_v30 : Vec Ideal S1024x8192 .bf16) (ix2 r f) := by
  obtain ⟨e0, e1, -⟩ := index_facts0 t
  unfold iblk0
  rw [View.read_apply]
  show V c main_v30 _ = V c main_v30 _
  congr 1
  funext a
  apply Fin.ext
  match a with
  | ⟨0, _⟩ => show win0_0.index t (0 : Fin 2) * 1024 + 1 * r.val = r.val; rw [e0]; omega
  | ⟨1, _⟩ => show win0_0.index t (1 : Fin 2) * 2048 + 1 * q.val = f.val; rw [e1, hf]; omega

/-- The weight block at point t: entry (j, q) is hidden unit 1024·(t / 4) + j, feature 2048·(t % 4) + q. -/
theorem iblk0_weights (c : Dev nD) (t : Fin cfg0.N) (j : Fin 1024) (q : Fin 2048) (g f : Fin 8192)
    (hg : g.val = 1024 * (t.val / 4) + j.val) (hf : f.val = 2048 * (t.val % 4) + q.val) :
    (iblk0 V c 1 t : Vec Ideal S1024x2048 .bf16) (ix2 j q) = (V c main_v31 : Vec Ideal S8192x8192 .bf16) (ix2 g f) := by
  obtain ⟨-, -, e0, e1, -⟩ := index_facts0 t
  unfold iblk0
  rw [View.read_apply]
  show V c main_v31 _ = V c main_v31 _
  congr 1
  funext a
  apply Fin.ext
  match a with
  | ⟨0, _⟩ => show win0_1.index t (0 : Fin 2) * 1024 + 1 * j.val = g.val; rw [e0, hg]; omega
  | ⟨1, _⟩ => show win0_1.index t (1 : Fin 2) * 2048 + 1 * q.val = f.val; rw [e1, hf]; omega

/-- The bias block at point t: entry (0, j) is the bias of hidden unit 1024·(t / 4) + j. -/
theorem iblk0_bias (c : Dev nD) (t : Fin cfg0.N) (j : Fin 1024) (g : Fin 8192)
    (hg : g.val = 1024 * (t.val / 4) + j.val) :
    (iblk0 V c 2 t : Vec Ideal S1x1024 .f32) (ix2 (0 : Fin 1) j) = (V c main_v33 : Vec Ideal S1x8192 .f32) (ix2 (0 : Fin 1) g) := by
  obtain ⟨-, -, -, -, e0, e1, -⟩ := index_facts0 t
  unfold iblk0
  rw [View.read_apply]
  show V c main_v33 _ = V c main_v33 _
  congr 1
  funext a
  apply Fin.ext
  match a with
  | ⟨0, _⟩ => show win0_2.index t (0 : Fin 2) * 1 + 1 * 0 = 0; rw [e0]
  | ⟨1, _⟩ => show win0_2.index t (1 : Fin 2) * 1024 + 1 * j.val = g.val; rw [e1, hg]; omega

/-! ## The second region -/

/-- The second grid's printed index maps, decided once over its 16 points. -/
theorem index_facts1 : ∀ t : Fin cfg1.N,
    win1_0.index t (0 : Fin 2) = 0 ∧ win1_0.index t (1 : Fin 2) = t.val % 4
    ∧ win1_1.index t (0 : Fin 2) = t.val / 4 ∧ win1_1.index t (1 : Fin 2) = t.val % 4
    ∧ win1_2.index t (0 : Fin 2) = 0 ∧ win1_2.index t (1 : Fin 2) = t.val / 4
    ∧ win1_3.index t (0 : Fin 2) = 0 ∧ win1_3.index t (1 : Fin 2) = t.val / 4 :=
  (by decide +kernel : ∀ t : Fin grid1.N, _)

theorem iblk1_rows (c : Dev nD) (t : Fin cfg1.N) (r : Fin 1024) (q : Fin 2048) (f : Fin 8192)
    (hf : f.val = 2048 * (t.val % 4) + q.val) :
    (iblk1 V c 0 t : Vec Ideal S1024x2048 .bf16) (ix2 r q) = (V c main_v35 : Vec Ideal S1024x8192 .bf16) (ix2 r f) := by
  obtain ⟨e0, e1, -⟩ := index_facts1 t
  unfold iblk1
  rw [View.read_apply]
  show V c main_v35 _ = V c main_v35 _
  congr 1
  funext a
  apply Fin.ext
  match a with
  | ⟨0, _⟩ => show win1_0.index t (0 : Fin 2) * 1024 + 1 * r.val = r.val; rw [e0]; omega
  | ⟨1, _⟩ => show win1_0.index t (1 : Fin 2) * 2048 + 1 * q.val = f.val; rw [e1, hf]; omega

theorem iblk1_weights (c : Dev nD) (t : Fin cfg1.N) (j : Fin 1024) (q : Fin 2048) (v : Fin 4096) (f : Fin 8192)
    (hv : v.val = 1024 * (t.val / 4) + j.val) (hf : f.val = 2048 * (t.val % 4) + q.val) :
    (iblk1 V c 1 t : Vec Ideal S1024x2048 .bf16) (ix2 j q) = (V c main_v32 : Vec Ideal S4096x8192 .bf16) (ix2 v f) := by
  obtain ⟨-, -, e0, e1, -⟩ := index_facts1 t
  unfold iblk1
  rw [View.read_apply]
  show V c main_v32 _ = V c main_v32 _
  congr 1
  funext a
  apply Fin.ext
  match a with
  | ⟨0, _⟩ => show win1_1.index t (0 : Fin 2) * 1024 + 1 * j.val = v.val; rw [e0, hv]; omega
  | ⟨1, _⟩ => show win1_1.index t (1 : Fin 2) * 2048 + 1 * q.val = f.val; rw [e1, hf]; omega

theorem iblk1_bias (c : Dev nD) (t : Fin cfg1.N) (j : Fin 1024) (v : Fin 4096)
    (hv : v.val = 1024 * (t.val / 4) + j.val) :
    (iblk1 V c 2 t : Vec Ideal S1x1024 .f32) (ix2 (0 : Fin 1) j) = (V c main_v34 : Vec Ideal S1x4096 .f32) (ix2 (0 : Fin 1) v) := by
  obtain ⟨-, -, -, -, e0, e1, -⟩ := index_facts1 t
  unfold iblk1
  rw [View.read_apply]
  show V c main_v34 _ = V c main_v34 _
  congr 1
  funext a
  apply Fin.ext
  match a with
  | ⟨0, _⟩ => show win1_2.index t (0 : Fin 2) * 1 + 1 * 0 = 0; rw [e0]
  | ⟨1, _⟩ => show win1_2.index t (1 : Fin 2) * 1024 + 1 * j.val = v.val; rw [e1, hv]; omega

end Cert.KernelIdeal.Hand

end
-- ==== Proof.KernelIdealValueAcc.lean ====
/- The accumulator and the output tile of each matmul region at an index.
   Within a column tile the accumulator restarts at the first feature quarter and adds one quarter's product at each
   of the four points; after the last it holds the four quarter sums, which regroup to the sum over all 8192
   features. The output tile there is the epilogue of that sum and the bias. -/
import proofs.«141452_j42734924595240_1_alg».proof.Proof.KernelIdealValuePay
import proofs.«141452_j42734924595240_1_alg».proof.Proof.KernelIdealValueArrays
import Mathlib.Algebra.BigOperators.Fin
import Mathlib.Logic.Equiv.Fin.Basic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-! ## A sum over the 8192 features, taken in four consecutive quarters -/

/-- Sums in a commutative monoid regroup: the features 0 … 8191 are the quarters k = 0 … 3 of 2048 features each. -/
theorem sum_features_quarters {M : Type*} [AddCommMonoid M] (g : Fin 8192 → M) :
    ∑ f : Fin 8192, g f
      = ∑ k : Fin 4, ∑ q : Fin 2048, g ⟨2048 * k.val + q.val, by have := k.isLt; have := q.isLt; omega⟩ := by
  rw [← Equiv.sum_comp (finProdFinEquiv (m := 4) (n := 2048)) g, Fintype.sum_prod_type]
  refine Finset.sum_congr rfl fun k _ => Finset.sum_congr rfl fun q _ => congrArg g (Fin.ext ?_)
  show q.val + 2048 * k.val = 2048 * k.val + q.val
  omega

/-! ## The first region -/

/-- Row r of the row block against row j of the weight block at point t, summed over the quarter's 2048 features. -/
def prod0 (c : Dev nD) (t : Fin cfg0.N) (r j : Fin 1024) : EReal :=
  let x : Vec Ideal S1024x2048 .bf16 := iblk0 V c 0 t
  let w : Vec Ideal S1024x2048 .bf16 := iblk0 V c 1 t
  ∑ q : Fin 2048, x (ix2 r q) * w (ix2 j q)

theorem acc0_succ (c : Dev nD) (n : ℕ) (hn : n + 1 < cfg0.N) :
    acc0 V c (n + 1) hn = k0_pay2 (if (n + 1) % 4 = 0 then k0_pay1 (F := Ideal) else acc0 V c n (Nat.lt_of_succ_lt hn))
      (iblk0 V c 0 ⟨n + 1, hn⟩) (iblk0 V c 1 ⟨n + 1, hn⟩) := by
  rw [acc0]

/-- At the first quarter of a column tile the accumulator holds that quarter's product alone. -/
theorem acc0_quarter_first (c : Dev nD) (n : ℕ) (hn : n < cfg0.N) (h4 : n % 4 = 0) (r j : Fin 1024) :
    acc0 V c n hn (ix2 r j) = prod0 V c ⟨n, hn⟩ r j := by
  match n, hn, h4 with
  | 0, hn, _ =>
    rw [acc0, k0_pay2_apply, k0_pay1_apply, zero_add]
    rfl
  | n + 1, hn, h4 =>
    rw [acc0_succ, if_pos h4, k0_pay2_apply, k0_pay1_apply, zero_add]
    rfl

/-- At a later quarter it adds that quarter's product to what it held. -/
theorem acc0_quarter_next (c : Dev nD) (n : ℕ) (hn : n + 1 < cfg0.N) (h4 : (n + 1) % 4 ≠ 0) (r j : Fin 1024) :
    acc0 V c (n + 1) hn (ix2 r j) = acc0 V c n (Nat.lt_of_succ_lt hn) (ix2 r j) + prod0 V c ⟨n + 1, hn⟩ r j := by
  rw [acc0_succ, if_neg h4, k0_pay2_apply]
  rfl

/-- After the last quarter of a column tile: the four quarters' products, added in the grid's order. -/
theorem acc0_last (c : Dev nD) (m : ℕ) (hm : m + 3 < cfg0.N) (h4 : m % 4 = 0) (r j : Fin 1024) :
    acc0 V c (m + 3) hm (ix2 r j)
      = prod0 V c ⟨m, by omega⟩ r j + prod0 V c ⟨m + 1, by omega⟩ r j + prod0 V c ⟨m + 2, by omega⟩ r j
        + prod0 V c ⟨m + 3, hm⟩ r j := by
  rw [acc0_quarter_next V c (m + 2) hm (by omega), acc0_quarter_next V c (m + 1) (by omega) (by omega),
    acc0_quarter_next V c m (by omega) (by omega), acc0_quarter_first V c m (by omega) h4]

/-- Re-indexing the accumulator's point along an equation of naturals. -/
theorem acc0_congr (c : Dev nD) (n n' : ℕ) (h : n = n') (hn : n < cfg0.N) :
    acc0 V c n hn = acc0 V c n' (h ▸ hn) := by
  subst h; rfl

/-- A quarter's product through the arrays x (context) and w (weights) the blocks are blocks of: at point t, row r of
    the context against hidden unit g = 1024·(t / 4) + j, over the features of quarter k = t % 4. -/
theorem prod0_eq (c : Dev nD) (x : Fin 1024 → Fin 8192 → EReal) (w : Fin 8192 → Fin 8192 → EReal)
    (hx : ∀ r f, (V c main_v30 : Vec Ideal S1024x8192 .bf16) (ix2 r f) = x r f)
    (hw : ∀ g f, (V c main_v31 : Vec Ideal S8192x8192 .bf16) (ix2 g f) = w g f)
    (t : Fin cfg0.N) (r j : Fin 1024) (g : Fin 8192) (k : Fin 4)
    (hg : g.val = 1024 * (t.val / 4) + j.val) (hk : k.val = t.val % 4) :
    prod0 V c t r j
      = ∑ q : Fin 2048, x r ⟨2048 * k.val + q.val, by have := k.isLt; have := q.isLt; omega⟩
          * w g ⟨2048 * k.val + q.val, by have := k.isLt; have := q.isLt; omega⟩ := by
  unfold prod0
  refine Finset.sum_congr rfl fun q _ => ?_
  rw [iblk0_rows V c t r q ⟨2048 * k.val + q.val, by have := k.isLt; have := q.isLt; omega⟩
      (by show 2048 * k.val + q.val = 2048 * (t.val % 4) + q.val; omega),
    iblk0_weights V c t j q g ⟨2048 * k.val + q.val, by have := k.isLt; have := q.isLt; omega⟩ hg
      (by show 2048 * k.val + q.val = 2048 * (t.val % 4) + q.val; omega), hx, hw]

/-- THE OUTPUT TILE AT AN INDEX. At the last quarter of column tile t / 4, entry (r, j) of the tile is the hidden
    layer at row r, hidden unit 1024·(t / 4) + j: the four quarter sums are the sum over all 8192 features. -/
theorem tile0_apply (c : Dev nD) (x : Fin 1024 → Fin 8192 → EReal) (w : Fin 8192 → Fin 8192 → EReal) (b : Fin 8192 → EReal)
    (hx : ∀ r f, (V c main_v30 : Vec Ideal S1024x8192 .bf16) (ix2 r f) = x r f)
    (hw : ∀ g f, (V c main_v31 : Vec Ideal S8192x8192 .bf16) (ix2 g f) = w g f)
    (hb : ∀ g, (V c main_v33 : Vec Ideal S1x8192 .f32) (ix2 (0 : Fin 1) g) = b g)
    (t : Fin cfg0.N) (ht : t.val % 4 = 3) (r j : Fin 1024) (g : Fin 8192)
    (hg : g.val = 1024 * (t.val / 4) + j.val) :
    (tile0 V c t) (ix2 r j) = Cert.Spec.hidden x w b r g := by
  have hN : cfg0.N = 32 := N_0
  obtain ⟨m, hm⟩ : ∃ m, t.val = m + 3 := ⟨t.val - 3, by omega⟩
  have hlt : m + 3 < cfg0.N := hm ▸ t.isLt
  unfold tile0 Cert.Spec.hidden
  rw [k0_pay3_apply, iblk0_bias V c t j g hg, hb, acc0_congr V c t.val (m + 3) hm, acc0_last V c m hlt (by omega),
    sum_features_quarters, Fin.sum_univ_four,
    prod0_eq V c x w hx hw ⟨m, by omega⟩ r j g 0 (by show g.val = 1024 * (m / 4) + j.val; omega) (by show 0 = m % 4; omega),
    prod0_eq V c x w hx hw ⟨m + 1, by omega⟩ r j g 1 (by show g.val = 1024 * ((m + 1) / 4) + j.val; omega) (by show 1 = (m + 1) % 4; omega),
    prod0_eq V c x w hx hw ⟨m + 2, by omega⟩ r j g 2 (by show g.val = 1024 * ((m + 2) / 4) + j.val; omega) (by show 2 = (m + 2) % 4; omega),
    prod0_eq V c x w hx hw ⟨m + 3, hlt⟩ r j g 3 (by show g.val = 1024 * ((m + 3) / 4) + j.val; omega) (by show 3 = (m + 3) % 4; omega)]

/-! ## The second region -/

/-- Row r of the row block against row j of the weight block at point t, summed over the quarter's 2048 features. -/
def prod1 (c : Dev nD) (t : Fin cfg1.N) (r j : Fin 1024) : EReal :=
  let x : Vec Ideal S1024x2048 .bf16 := iblk1 V c 0 t
  let w : Vec Ideal S1024x2048 .bf16 := iblk1 V c 1 t
  ∑ q : Fin 2048, x (ix2 r q) * w (ix2 j q)

theorem acc1_succ (c : Dev nD) (n : ℕ) (hn : n + 1 < cfg1.N) :
    acc1 V c (n + 1) hn = k1_pay2 (if (n + 1) % 4 = 0 then k1_pay1 (F := Ideal) else acc1 V c n (Nat.lt_of_succ_lt hn))
      (iblk1 V c 0 ⟨n + 1, hn⟩) (iblk1 V c 1 ⟨n + 1, hn⟩) := by
  rw [acc1]

/-- At the first quarter of a column tile the accumulator holds that quarter's product alone. -/
theorem acc1_quarter_first (c : Dev nD) (n : ℕ) (hn : n < cfg1.N) (h4 : n % 4 = 0) (r j : Fin 1024) :
    acc1 V c n hn (ix2 r j) = prod1 V c ⟨n, hn⟩ r j := by
  match n, hn, h4 with
  | 0, hn, _ =>
    rw [acc1, k1_pay2_apply, k1_pay1_apply, zero_add]
    rfl
  | n + 1, hn, h4 =>
    rw [acc1_succ, if_pos h4, k1_pay2_apply, k1_pay1_apply, zero_add]
    rfl

/-- At a later quarter it adds that quarter's product to what it held. -/
theorem acc1_quarter_next (c : Dev nD) (n : ℕ) (hn : n + 1 < cfg1.N) (h4 : (n + 1) % 4 ≠ 0) (r j : Fin 1024) :
    acc1 V c (n + 1) hn (ix2 r j) = acc1 V c n (Nat.lt_of_succ_lt hn) (ix2 r j) + prod1 V c ⟨n + 1, hn⟩ r j := by
  rw [acc1_succ, if_neg h4, k1_pay2_apply]
  rfl

/-- After the last quarter of a column tile: the four quarters' products, added in the grid's order. -/
theorem acc1_last (c : Dev nD) (m : ℕ) (hm : m + 3 < cfg1.N) (h4 : m % 4 = 0) (r j : Fin 1024) :
    acc1 V c (m + 3) hm (ix2 r j)
      = prod1 V c ⟨m, by omega⟩ r j + prod1 V c ⟨m + 1, by omega⟩ r j + prod1 V c ⟨m + 2, by omega⟩ r j
        + prod1 V c ⟨m + 3, hm⟩ r j := by
  rw [acc1_quarter_next V c (m + 2) hm (by omega), acc1_quarter_next V c (m + 1) (by omega) (by omega),
    acc1_quarter_next V c m (by omega) (by omega), acc1_quarter_first V c m (by omega) h4]

/-- Re-indexing the accumulator's point along an equation of naturals. -/
theorem acc1_congr (c : Dev nD) (n n' : ℕ) (h : n = n') (hn : n < cfg1.N) :
    acc1 V c n hn = acc1 V c n' (h ▸ hn) := by
  subst h; rfl

/-- A quarter's product through the arrays x (hidden array) and w (weights) the blocks are blocks of: at point t, row r of
    the hidden array against output g = 1024·(t / 4) + j, over the features of quarter k = t % 4. -/
theorem prod1_eq (c : Dev nD) (x : Fin 1024 → Fin 8192 → EReal) (w : Fin 4096 → Fin 8192 → EReal)
    (hx : ∀ r f, (V c main_v35 : Vec Ideal S1024x8192 .bf16) (ix2 r f) = x r f)
    (hw : ∀ g f, (V c main_v32 : Vec Ideal S4096x8192 .bf16) (ix2 g f) = w g f)
    (t : Fin cfg1.N) (r j : Fin 1024) (g : Fin 4096) (k : Fin 4)
    (hg : g.val = 1024 * (t.val / 4) + j.val) (hk : k.val = t.val % 4) :
    prod1 V c t r j
      = ∑ q : Fin 2048, x r ⟨2048 * k.val + q.val, by have := k.isLt; have := q.isLt; omega⟩
          * w g ⟨2048 * k.val + q.val, by have := k.isLt; have := q.isLt; omega⟩ := by
  unfold prod1
  refine Finset.sum_congr rfl fun q _ => ?_
  rw [iblk1_rows V c t r q ⟨2048 * k.val + q.val, by have := k.isLt; have := q.isLt; omega⟩
      (by show 2048 * k.val + q.val = 2048 * (t.val % 4) + q.val; omega),
    iblk1_weights V c t j q g ⟨2048 * k.val + q.val, by have := k.isLt; have := q.isLt; omega⟩ hg
      (by show 2048 * k.val + q.val = 2048 * (t.val % 4) + q.val; omega), hx, hw]

/-- THE OUTPUT TILE AT AN INDEX. At the last quarter of column tile t / 4, entry (r, j) of the tile is the output
    layer at row r, output 1024·(t / 4) + j: the four quarter sums are the sum over all 8192 features. -/
theorem tile1_apply (c : Dev nD) (x : Fin 1024 → Fin 8192 → EReal) (w : Fin 4096 → Fin 8192 → EReal) (b : Fin 4096 → EReal)
    (hx : ∀ r f, (V c main_v35 : Vec Ideal S1024x8192 .bf16) (ix2 r f) = x r f)
    (hw : ∀ g f, (V c main_v32 : Vec Ideal S4096x8192 .bf16) (ix2 g f) = w g f)
    (hb : ∀ g, (V c main_v34 : Vec Ideal S1x4096 .f32) (ix2 (0 : Fin 1) g) = b g)
    (t : Fin cfg1.N) (ht : t.val % 4 = 3) (r j : Fin 1024) (g : Fin 4096)
    (hg : g.val = 1024 * (t.val / 4) + j.val) :
    (tile1 V c t) (ix2 r j) = Cert.Spec.logits x w b r g := by
  have hN : cfg1.N = 16 := N_1
  obtain ⟨m, hm⟩ : ∃ m, t.val = m + 3 := ⟨t.val - 3, by omega⟩
  have hlt : m + 3 < cfg1.N := hm ▸ t.isLt
  unfold tile1 Cert.Spec.logits
  rw [k1_pay3_apply, iblk1_bias V c t j g hg, hb, acc1_congr V c t.val (m + 3) hm, acc1_last V c m hlt (by omega),
    sum_features_quarters, Fin.sum_univ_four,
    prod1_eq V c x w hx hw ⟨m, by omega⟩ r j g 0 (by show g.val = 1024 * (m / 4) + j.val; omega) (by show 0 = m % 4; omega),
    prod1_eq V c x w hx hw ⟨m + 1, by omega⟩ r j g 1 (by show g.val = 1024 * ((m + 1) / 4) + j.val; omega) (by show 1 = (m + 1) % 4; omega),
    prod1_eq V c x w hx hw ⟨m + 2, by omega⟩ r j g 2 (by show g.val = 1024 * ((m + 2) / 4) + j.val; omega) (by show 2 = (m + 2) % 4; omega),
    prod1_eq V c x w hx hw ⟨m + 3, hlt⟩ r j g 3 (by show g.val = 1024 * ((m + 3) / 4) + j.val; omega) (by show 3 = (m + 3) % 4; omega)]

end Cert.KernelIdeal.Hand

end
-- ==== Proof.KernelIdealValue.lean ====
/- What each region's output array holds when the region ends, at the exact-arithmetic reading: the hidden layer's
   array is the GELU of the full row-by-row product plus bias, the output layer's array is the full product plus bias.
   Each last-quarter point writes back its block of ONE array (the layer, index by index); those blocks cover the
   array; so the array ends holding the layer. -/
import proofs.«141452_j42734924595240_1_alg».proof.Proof.KernelIdealBlocks
import proofs.«141452_j42734924595240_1_alg».proof.Proof.Spec
import proofs.«141452_j42734924595240_1_alg».proof.Proof.KernelIdealValueAcc
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

variable (V : (c : Dev nD) → (b : Ref sig .tc) → Buf (Elt Ideal) ((c : Thread nD τ).loc b))

/-! ## The first region -/

/-- The first region's three input arrays as it finds them, by coordinates: the flattened context (rows × features),
    the first layer's weights (hidden units × features) and its bias. -/
def X0 (c : Dev nD) (r : Fin 1024) (f : Fin 8192) : EReal := (V c main_v30 : Vec Ideal S1024x8192 .bf16) (ix2 r f)
def Wt0 (c : Dev nD) (g : Fin 8192) (f : Fin 8192) : EReal := (V c main_v31 : Vec Ideal S8192x8192 .bf16) (ix2 g f)
def B0 (c : Dev nD) (g : Fin 8192) : EReal := (V c main_v33 : Vec Ideal S1x8192 .f32) (ix2 (0 : Fin 1) g)

/-- The hidden layer as one array over (row, hidden unit). -/
def hiddenArr (c : Dev nD) : Vec Ideal S1024x8192 .bf16 :=
  fun i => Cert.Spec.hidden (X0 V c) (Wt0 V c) (B0 V c) (i 0) (i 1)

/-- At a last-quarter point the output tile is its block of the hidden array: columns 1024·(t / 4) … of all rows. -/
theorem tile0_eq_block (c : Dev nD) (t : Fin cfg0.N) (ht : t.val % 4 = 3) :
    (tile0 V c t : Vec Ideal S1024x1024 .bf16)
      = fun y : S1024x1024.Idx => hiddenArr V c (((cfg0.win 3).blk t).view.emb y) := by
  obtain ⟨-, -, -, -, -, -, e0, e1⟩ := index_facts0 t
  have hN : cfg0.N = 32 := N_0
  funext y
  obtain ⟨p, q, rfl⟩ : ∃ (p : Fin 1024) (q : Fin 1024), y = ix2 p q := ⟨y 0, y 1, eq_ix2 y⟩
  have hq : 1024 * (t.val / 4) + q.val < 8192 := by have := t.isLt; have := q.isLt; omega
  rw [tile0_apply V c (X0 V c) (Wt0 V c) (B0 V c) (fun _ _ => rfl) (fun _ _ => rfl) (fun _ => rfl) t ht p q ⟨_, hq⟩ rfl]
  unfold hiddenArr
  congr 1 <;> apply Fin.ext
  · show p.val = win0_3.index t (0 : Fin 2) * 1024 + 1 * p.val
    rw [e0]; omega
  · show 1024 * (t.val / 4) + q.val = win0_3.index t (1 : Fin 2) * 1024 + 1 * q.val
    rw [e1]; omega

/-- So what such a point writes back is that block, read off the hidden array. -/
theorem flushed0_eq (c : Dev nD) (dat : Dat τ (Elt Ideal) Unit ℕ (UR sig nD τ) ℕ cfg0 c)
    (h3 : ∀ t, dat.after 3 t = tile0 V c t) (t : Fin cfg0.N) (ht : t.val % 4 = 3) :
    dat.flushed 3 t = ((cfg0.win 3).blk t).view.read (Elt Ideal) (hiddenArr V c) := by
  show (cfg0.win 3).cut (grid0.coords t) (dat.after 3 t) = _
  rw [h3 t]
  exact tile0_eq_block V c t ht

/-- An index of the hidden array is in point t's block iff each coordinate is in the block's range on its axis. -/
theorem mem_blk0 (t : Fin cfg0.N) (i : S1024x8192.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v35).slice (win0_3.rect t)).set ↔ _
  rw [View.set_slice_whole, Rect.mem_set_unit]
  exact Iff.rfl

/-- Every index of the hidden array is written back by some point: column g by the last quarter of tile g / 1024. -/
theorem cover0 (i : S1024x8192.Idx) :
    ∃ t : Fin cfg0.N, (cfg0.win 3).flush t = true ∧ i ∈ ((cfg0.win 3).blk t).view.set := by
  have hN : cfg0.N = 32 := N_0
  have h0 : (i 0).val < 1024 := (i 0).isLt
  have h1 : (i 1).val < 8192 := (i 1).isLt
  obtain ⟨t, ht⟩ : ∃ t : Fin cfg0.N, t.val = 4 * ((i 1).val / 1024) + 3 := ⟨⟨4 * ((i 1).val / 1024) + 3, by omega⟩, rfl⟩
  obtain ⟨-, -, -, -, -, -, e0, e1⟩ := index_facts0 t
  refine ⟨t, (flush0_3 t).mpr (by omega), ?_⟩
  rw [mem_blk0]
  intro a
  match a with
  | ⟨0, _⟩ =>
    show win0_3.index t (0 : Fin 2) * 1024 ≤ (i 0).val ∧ (i 0).val < win0_3.index t (0 : Fin 2) * 1024 + 1024
    rw [e0]; omega
  | ⟨1, _⟩ =>
    show win0_3.index t (1 : Fin 2) * 1024 ≤ (i 1).val ∧ (i 1).val < win0_3.index t (1 : Fin 2) * 1024 + 1024
    rw [e1]; omega

/-- For ANY proof data of the first region whose arrays are the entry contents and whose output tile after point t is
    tile0, the output array after the last point is the hidden layer. -/
theorem arr0_final (c : Dev nD) (dat : Dat τ (Elt Ideal) Unit ℕ (UR sig nD τ) ℕ cfg0 c)
    (hA : ∀ w, dat.A w = V c (Pipeline.arrRef spec0 w)) (h3 : ∀ t, dat.after 3 t = tile0 V c t)
    (r : Fin 1024) (g : Fin 8192) :
    (dat.arrAt 3 cfg0.N : Vec Ideal S1024x8192 .bf16) (ix2 r g) = Cert.Spec.hidden (X0 V c) (Wt0 V c) (B0 V c) r g := by
  have h := dat.arrAt_eq_of_cover 3 (hiddenArr V c)
    (fun t hf => flushed0_eq V c dat h3 t ((flush0_3 t).mp hf)) cover0
  exact congrFun h (ix2 r g)

/-! ## The second region -/

def X1 (c : Dev nD) (r : Fin 1024) (g : Fin 8192) : EReal := (V c main_v35 : Vec Ideal S1024x8192 .bf16) (ix2 r g)
def Wt1 (c : Dev nD) (v : Fin 4096) (g : Fin 8192) : EReal := (V c main_v32 : Vec Ideal S4096x8192 .bf16) (ix2 v g)
def B1 (c : Dev nD) (v : Fin 4096) : EReal := (V c main_v34 : Vec Ideal S1x4096 .f32) (ix2 (0 : Fin 1) v)

/-- The output layer as one array over (row, output). -/
def logitsArr (c : Dev nD) : Vec Ideal S1024x4096 .f32 :=
  fun i => Cert.Spec.logits (X1 V c) (Wt1 V c) (B1 V c) (i 0) (i 1)

/-- At a last-quarter point the output tile is its block of the output array: columns 1024·(t / 4) … of all rows. -/
theorem tile1_eq_block (c : Dev nD) (t : Fin cfg1.N) (ht : t.val % 4 = 3) :
    (tile1 V c t : Vec Ideal S1024x1024 .f32)
      = fun y : S1024x1024.Idx => logitsArr V c (((cfg1.win 3).blk t).view.emb y) := by
  obtain ⟨-, -, -, -, -, -, e0, e1⟩ := index_facts1 t
  have hN : cfg1.N = 16 := N_1
  funext y
  obtain ⟨p, q, rfl⟩ : ∃ (p : Fin 1024) (q : Fin 1024), y = ix2 p q := ⟨y 0, y 1, eq_ix2 y⟩
  have hq : 1024 * (t.val / 4) + q.val < 4096 := by have := t.isLt; have := q.isLt; omega
  rw [tile1_apply V c (X1 V c) (Wt1 V c) (B1 V c) (fun _ _ => rfl) (fun _ _ => rfl) (fun _ => rfl) t ht p q ⟨_, hq⟩ rfl]
  unfold logitsArr
  congr 1 <;> apply Fin.ext
  · show p.val = win1_3.index t (0 : Fin 2) * 1024 + 1 * p.val
    rw [e0]; omega
  · show 1024 * (t.val / 4) + q.val = win1_3.index t (1 : Fin 2) * 1024 + 1 * q.val
    rw [e1]; omega

/-- So what such a point writes back is that block, read off the output array. -/
theorem flushed1_eq (c : Dev nD) (dat : Dat τ (Elt Ideal) Unit ℕ (UR sig nD τ) ℕ cfg1 c)
    (h3 : ∀ t, dat.after 3 t = tile1 V c t) (t : Fin cfg1.N) (ht : t.val % 4 = 3) :
    dat.flushed 3 t = ((cfg1.win 3).blk t).view.read (Elt Ideal) (logitsArr V c) := by
  show (cfg1.win 3).cut (grid1.coords t) (dat.after 3 t) = _
  rw [h3 t]
  exact tile1_eq_block V c t ht

/-- An index of the output array is in point t's block iff each coordinate is in the block's range on its axis. -/
theorem mem_blk1 (t : Fin cfg1.N) (i : S1024x4096.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v36).slice (win1_3.rect t)).set ↔ _
  rw [View.set_slice_whole, Rect.mem_set_unit]
  exact Iff.rfl

/-- Every index of the output array is written back by some point: column v by the last quarter of tile v / 1024. -/
theorem cover1 (i : S1024x4096.Idx) :
    ∃ t : Fin cfg1.N, (cfg1.win 3).flush t = true ∧ i ∈ ((cfg1.win 3).blk t).view.set := by
  have hN : cfg1.N = 16 := N_1
  have h0 : (i 0).val < 1024 := (i 0).isLt
  have h1 : (i 1).val < 4096 := (i 1).isLt
  obtain ⟨t, ht⟩ : ∃ t : Fin cfg1.N, t.val = 4 * ((i 1).val / 1024) + 3 := ⟨⟨4 * ((i 1).val / 1024) + 3, by omega⟩, rfl⟩
  obtain ⟨-, -, -, -, -, -, e0, e1⟩ := index_facts1 t
  refine ⟨t, (flush1_3 t).mpr (by omega), ?_⟩
  rw [mem_blk1]
  intro a
  match a with
  | ⟨0, _⟩ =>
    show win1_3.index t (0 : Fin 2) * 1024 ≤ (i 0).val ∧ (i 0).val < win1_3.index t (0 : Fin 2) * 1024 + 1024
    rw [e0]; omega
  | ⟨1, _⟩ =>
    show win1_3.index t (1 : Fin 2) * 1024 ≤ (i 1).val ∧ (i 1).val < win1_3.index t (1 : Fin 2) * 1024 + 1024
    rw [e1]; omega

theorem arr1_final (c : Dev nD) (dat : Dat τ (Elt Ideal) Unit ℕ (UR sig nD τ) ℕ cfg1 c)
    (hA : ∀ w, dat.A w = V c (Pipeline.arrRef spec1 w)) (h3 : ∀ t, dat.after 3 t = tile1 V c t)
    (r : Fin 1024) (v : Fin 4096) :
    (dat.arrAt 3 cfg1.N : Vec Ideal S1024x4096 .f32) (ix2 r v) = Cert.Spec.logits (X1 V c) (Wt1 V c) (B1 V c) r v := by
  have h := dat.arrAt_eq_of_cover 3 (logitsArr V c)
    (fun t hf => flushed1_eq V c dat h3 t ((flush1_3 t).mp hf)) cover1
  exact congrFun h (ix2 r v)

end Cert.KernelIdeal.Hand

end
-- ==== Proof.RefValue.lean ====
/- The reference program's result, read index by index at the exact-arithmetic reading: entry (b, t, v) of its
   result is the output layer applied to the hidden layer of row 128·b + t of the flattened context.
   The reading goes one operation at a time from the result back to the flattened context: the last sum over
   the hidden units and its bias, under it the tanh-form GELU of the first sum over the features and its bias.
   The only algebra is the grouping of the cube, (v·v)·v against v·(v·v): commutativity of the product on the
   extended reals. -/
import proofs.«141452_j42734924595240_1_alg».proof.Proof.RefImports
import proofs.«141452_j42734924595240_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.StableHlo
open Idealize.ShloMosaic.ValueIdx

/-- Row 128·b + t of the flattened context. -/
def row (b : Fin 8) (t : Fin 128) : Fin 1024 := ⟨128 * b.val + t.val, by have := b.isLt; have := t.isLt; omega⟩

/-- The flattened context as the reference builds it from the token ids and the embedding table (the host chain up to
    the reshape to 8 × 128 × 8192, kept folded), by row and feature. -/
def ctxR (ids : Vec Ideal S8x128 .i32) (wte : Vec Ideal S4096x64 .f32) (r : Fin 1024) (f : Fin 8192) : EReal :=
  (Read.val_main_v28 (F := Ideal) ids wte : Vec Ideal S8x128x8192 .f32)
    (ix3 (⟨r.val / 128, by have := r.isLt; omega⟩ : Fin 8) (⟨r.val % 128, Nat.mod_lt _ (by decide)⟩ : Fin 128) f)

/-! ## The composed index maps at an index given by its coordinates -/

/-- The first contraction reads the context at (b, t, k): the batch and position of the result index, the
    contracted feature k. -/
theorem lidx29 (b : Fin 8) (t : Fin 128) (g k : Fin 8192) :
    Read.lidx_main_v29 (ix3 b t g) k = ix3 b t k :=
  funext fun a => Fin.ext (by match a with | ⟨0, _⟩ => rfl | ⟨1, _⟩ => rfl | ⟨2, _⟩ => rfl)

/-- The first contraction reads the first weight at (g, k): the hidden unit of the result index, the
    contracted feature k. -/
theorem ridx29 (b : Fin 8) (t : Fin 128) (g k : Fin 8192) :
    Read.ridx_main_v29 (ix3 b t g) k = ix2 g k :=
  funext fun a => Fin.ext (by match a with | ⟨0, _⟩ => rfl | ⟨1, _⟩ => rfl)

/-- The first bias, broadcast along batch and position, is read at the hidden unit g. -/
theorem bidx31 (b : Fin 8) (t : Fin 128) (g : Fin 8192) :
    Read.idx_main_v30 (Read.idx_main_v31 (ix3 b t g)) = ix1 g :=
  funext fun a => Fin.ext (by match a with | ⟨0, _⟩ => rfl)

/-- The second contraction reads the hidden layer at (b, t, k), k the contracted hidden unit. -/
theorem lidx46 (b : Fin 8) (t : Fin 128) (v : Fin 4096) (k : Fin 8192) :
    Read.lidx_main_v46 (ix3 b t v) k = ix3 b t k :=
  funext fun a => Fin.ext (by match a with | ⟨0, _⟩ => rfl | ⟨1, _⟩ => rfl | ⟨2, _⟩ => rfl)

/-- The second contraction reads the second weight at (v, k), k the contracted hidden unit. -/
theorem ridx46 (b : Fin 8) (t : Fin 128) (v : Fin 4096) (k : Fin 8192) :
    Read.ridx_main_v46 (ix3 b t v) k = ix2 v k :=
  funext fun a => Fin.ext (by match a with | ⟨0, _⟩ => rfl | ⟨1, _⟩ => rfl)

/-- The second bias, broadcast along batch and position, is read at the output v. -/
theorem bidx48 (b : Fin 8) (t : Fin 128) (v : Fin 4096) :
    Read.idx_main_v47 (Read.idx_main_v48 (ix3 b t v)) = ix1 v :=
  funext fun a => Fin.ext (by match a with | ⟨0, _⟩ => rfl)

/-! ## The flattened context at row 128·b + t -/

/-- Row 128·b + t of the flattened context is position (b, t) of the 8 × 128 × 8192 context:
    (128·b + t) / 128 = b and (128·b + t) % 128 = t because t < 128. -/
theorem ctxR_row (ids : Vec Ideal S8x128 .i32) (wte : Vec Ideal S4096x64 .f32) (b : Fin 8) (t : Fin 128) (f : Fin 8192) :
    ctxR ids wte (row b t) f = (Read.val_main_v28 (F := Ideal) ids wte : Vec Ideal S8x128x8192 .f32) (ix3 b t f) := by
  have hb : (⟨(row b t).val / 128, by have := (row b t).isLt; omega⟩ : Fin 8) = b :=
    Fin.ext (by show (128 * b.val + t.val) / 128 = b.val; have := t.isLt; omega)
  have ht : (⟨(row b t).val % 128, Nat.mod_lt _ (by decide)⟩ : Fin 128) = t :=
    Fin.ext (by show (128 * b.val + t.val) % 128 = t.val; have := t.isLt; omega)
  unfold ctxR
  rw [hb, ht]

/-! ## The hidden layer -/

/-- The first contraction at (b, t, g), term by term: the sum over the features of row 128·b + t of the context
    against row g of the first weight. -/
theorem sum29 (ids : Vec Ideal S8x128 .i32) (wte : Vec Ideal S4096x64 .f32) (w1 : Vec Ideal S8192x8192 .f32)
    (b : Fin 8) (t : Fin 128) (g : Fin 8192) :
    (∑ k : Fin 8192, (Read.val_main_v28 (F := Ideal) ids wte) (Read.lidx_main_v29 (ix3 b t g) k)
        * w1 (Read.ridx_main_v29 (ix3 b t g) k))
      = ∑ f : Fin 8192, ctxR ids wte (row b t) f * w1 (ix2 g f) :=
  Finset.sum_congr rfl fun k _ => by rw [lidx29, ridx29, ctxR_row]

/-- The reference's elementwise chain on a pre-activation V,
    (0.5·V)·(1 + tanh(c·(V + a·((V·V)·V)))), is the tanh-form GELU of V: the two differ only in the grouping of
    the cube, and (V·V)·V = V·(V·V) by commutativity of the product. -/
theorem gelu_ref (V : EReal) :
    FloatOps.mulf (F := Ideal) (φ := .f32) (FloatOps.mulf (FloatOps.ofBits .f32 0x3F000000#32) V)
        (FloatOps.addf (FloatOps.ofBits .f32 0x3F800000#32)
          (FloatOps.hostUnary .tanh
            (FloatOps.mulf (FloatOps.ofBits .f32 0x3F4C422A#32)
              (FloatOps.addf V
                (FloatOps.mulf (FloatOps.ofBits .f32 0x3D372713#32) (FloatOps.mulf (FloatOps.mulf V V) V))))))
      = Cert.Spec.gelu V := by
  show (Ideal.ofBits .f32 0x3F000000#32 * V) *
      (Ideal.ofBits .f32 0x3F800000#32 +
        Ideal.tanh (Ideal.ofBits .f32 0x3F4C422A#32 * (V + Ideal.ofBits .f32 0x3D372713#32 * ((V * V) * V)))) = _
  unfold Cert.Spec.gelu
  rw [mul_comm (V * V) V]

/-- Entry (b, t, g) of the reference's hidden activations is the hidden layer of row 128·b + t at unit g: the
    elementwise chain is read back to the pre-activation (first contraction plus broadcast bias), which occurs in
    it four times, and the chain on it is the GELU. -/
theorem hidden_value (ids : Vec Ideal S8x128 .i32) (wte : Vec Ideal S4096x64 .f32)
    (w1 : Vec Ideal S8192x8192 .f32) (b1 : Vec Ideal S8192 .f32) (b : Fin 8) (t : Fin 128) (g : Fin 8192) :
    (Read.val_main_v45 (F := Ideal) ids wte w1 b1 : Vec Ideal S8x128x8192 .f32) (ix3 b t g)
      = Cert.Spec.hidden (ctxR ids wte) (fun g f => w1 (ix2 g f)) (fun g => b1 (ix1 g)) (row b t) g := by
  rw [Read.val_main_v45_apply, Read.val_main_v44_apply, Read.val_main_v43_apply, Read.val_main_cst_10_apply,
    Read.val_main_v42_apply, Read.val_main_v41_apply, Read.val_main_v40_apply, Read.val_main_cst_9_apply,
    Read.val_main_v39_apply, Read.val_main_v38_apply, Read.val_main_v37_apply, Read.val_main_cst_8_apply,
    Read.val_main_v36_apply, Read.val_main_v35_apply, Read.val_main_v34_apply, Read.val_main_v33_apply,
    Read.val_main_cst_7_apply, Read.val_main_v32_apply, Read.val_main_v31_apply, Read.val_main_v30_apply,
    Read.val_main_v29_apply, sum29, bidx31]
  exact gelu_ref _

/-! ## The output layer -/

/-- The second contraction at (b, t, v), term by term: the sum over the hidden units of the hidden layer of row
    128·b + t against row v of the second weight. -/
theorem sum46 (ids : Vec Ideal S8x128 .i32) (wte : Vec Ideal S4096x64 .f32)
    (w1 : Vec Ideal S8192x8192 .f32) (b1 : Vec Ideal S8192 .f32) (w2 : Vec Ideal S4096x8192 .f32)
    (b : Fin 8) (t : Fin 128) (v : Fin 4096) :
    (∑ k : Fin 8192, (Read.val_main_v45 (F := Ideal) ids wte w1 b1) (Read.lidx_main_v46 (ix3 b t v) k)
        * w2 (Read.ridx_main_v46 (ix3 b t v) k))
      = ∑ g : Fin 8192,
          Cert.Spec.hidden (ctxR ids wte) (fun g f => w1 (ix2 g f)) (fun g => b1 (ix1 g)) (row b t) g * w2 (ix2 v g) :=
  Finset.sum_congr rfl fun k _ => by rw [lidx46, ridx46, hidden_value]

/-- Entry (b, t, v) of the reference's result: the second contraction over the hidden layer plus the broadcast
    second bias, which is the output layer of row 128·b + t at v. -/
theorem ref_value (m' : (ℓ : Loc nD τ sig) → Buf (Elt Ideal) ℓ) (c : Dev nD) (b : Fin 8) (t : Fin 128) (v : Fin 4096) :
    (Cert.ReferenceIdeal.Value.res_main_v49 (F := Ideal) m' c : Vec Ideal S8x128x4096 .f32) (ix3 b t v)
      = Cert.Spec.logits
          (Cert.Spec.hidden
            (ctxR (m' ((c.tc : Thread nD τ).loc main_arg0)) (m' ((c.tc : Thread nD τ).loc main_arg1)))
            (fun g f => (m' ((c.tc : Thread nD τ).loc main_arg2) : Vec Ideal S8192x8192 .f32) (ix2 g f))
            (fun g => (m' ((c.tc : Thread nD τ).loc main_arg3) : Vec Ideal S8192 .f32) (ix1 g)))
          (fun v g => (m' ((c.tc : Thread nD τ).loc main_arg4) : Vec Ideal S4096x8192 .f32) (ix2 v g))
          (fun v => (m' ((c.tc : Thread nD τ).loc main_arg5) : Vec Ideal S4096 .f32) (ix1 v))
          (row b t) v := by
  rw [Read.val_main_v49_eq, Read.val_main_v49_apply, Read.val_main_v48_apply, Read.val_main_v47_apply,
    Read.val_main_v46_apply, sum46, bidx48]
  rfl

end Cert.ReferenceIdeal.Hand

end
-- ==== Proof.BridgeHost.lean ====
/- The host values the two matmul regions find, at the exact-arithmetic reading, and the shared host chain.
   Before the first region the kernel program builds the flattened context from the token ids and the embedding
   table by the same operations, in the same order, as the reference does; it then converts the context and the two
   weight arrays (conversions are the identity on extended reals) and gives each bias a leading unit axis.
   The shared chain is carried as ONE array: stretch by stretch, each buffer of the kernel program is shown to hold
   the array the reference's chain of definitions names, every equation between whole arrays; only the last
   reshapes are read at coordinates. -/
import proofs.«141452_j42734924595240_1_alg».proof.Proof.Gen.KernelIdeal.Regions
import proofs.«141452_j42734924595240_1_alg».proof.Proof.Gen.ReferenceIdeal.Read
import Idealize.ShloMosaic.Lib.ValueIdx
import Idealize.ShloMosaic.Lib.Pipeline.Value
import Idealize.ShloMosaic.PureOps.Ideal.Laws

set_option maxRecDepth 16384

noncomputable section

namespace Cert.Proof.BridgeHost

open Cert.KernelIdeal Cert.KernelIdeal.Gen
open Idealize.ShloMosaic Idealize.ShloMosaic.TcCoe Idealize.ShloMosaic.Tactic
open Idealize.SL.Sem
open Idealize.ShloMosaic.ValueIdx

variable (m : (ℓ : Loc nD τ sig) → Buf (Elt Ideal) ℓ)

/-! ## The shared host chain, stretch by stretch

Both programs build the flattened context from the token ids and the embedding table by the same operations in the
same order. Each lemma below says that one buffer of the kernel program, after one stretch of host operations, holds
the array the reference's chain of definitions names; every equation is between whole arrays. -/

/-- After the first stretch: the gathered embeddings. -/
theorem s1_v6 (c : Dev nD) :
    (V1 m c (Proc.devRef .tc main_v6) : Vec Ideal S8x128x64 .f32) = Cert.ReferenceIdeal.Read.val_main_v6 (F := Ideal) (m ((c : Thread nD τ).loc main_arg0)) (m ((c : Thread nD τ).loc main_arg1)) := by
  show StableHlo.after hostOps0 _ (Proc.devRef .tc main_v6) = _
  after_results
  rfl

/-- After the first stretch: the table of position differences. -/
theorem s1_v15 (c : Dev nD) :
    (V1 m c (Proc.devRef .tc main_v15) : Vec Ideal S128x128 .i32) = Cert.ReferenceIdeal.Read.val_main_v15 (F := Ideal) := by
  show StableHlo.after hostOps0 _ (Proc.devRef .tc main_v15) = _
  after_results
  rfl

/-- After the first stretch: the mask of nonnegative differences. -/
theorem s1_v17 (c : Dev nD) :
    (V1 m c (Proc.devRef .tc main_v17) : Vec Ideal S128x128 .i1) = Cert.ReferenceIdeal.Read.val_main_v17 (F := Ideal) := by
  show StableHlo.after hostOps0 _ (Proc.devRef .tc main_v17) = _
  after_results
  rfl

/-- After the first stretch: the two clipping bounds. -/
theorem s1_c3 (c : Dev nD) :
    (V1 m c (Proc.devRef .tc main_c_3) : Vec Ideal S_ .i32) = Cert.ReferenceIdeal.Read.val_main_c_3 (F := Ideal) := by
  show StableHlo.after hostOps0 _ (Proc.devRef .tc main_c_3) = _
  after_results
  rfl
theorem s1_c4 (c : Dev nD) :
    (V1 m c (Proc.devRef .tc main_c_4) : Vec Ideal S_ .i32) = Cert.ReferenceIdeal.Read.val_main_c_4 (F := Ideal) := by
  show StableHlo.after hostOps0 _ (Proc.devRef .tc main_c_4) = _
  after_results
  rfl

/-- After the second stretch (the clip): the clipped differences. -/
theorem s2_v18 (c : Dev nD) :
    (V2 m c (Proc.devRef .tc main_v18) : Vec Ideal S128x128 .i32) = Cert.ReferenceIdeal.Read.val_main_v18 (F := Ideal) := by
  have e15 := s1_v15 m c
  have e3 := s1_c3 m c
  have e4 := s1_c4 m c
  show StableHlo.after hostOps0_1 (V1 m c) (Proc.devRef .tc main_v18) = _
  generalize V1 m c = V at e15 e3 e4 ⊢
  after_results
  dsimp only
  rw [e15, e3, e4]
  rfl

/-- The gathered embeddings and the mask are untouched by the clip. -/
theorem s2_v6 (c : Dev nD) :
    (V2 m c (Proc.devRef .tc main_v6) : Vec Ideal S8x128x64 .f32) = Cert.ReferenceIdeal.Read.val_main_v6 (F := Ideal) (m ((c : Thread nD τ).loc main_arg0)) (m ((c : Thread nD τ).loc main_arg1)) :=
  (V2_of m c main_v6 (by decide)).trans (s1_v6 m c)
theorem s2_v17 (c : Dev nD) :
    (V2 m c (Proc.devRef .tc main_v17) : Vec Ideal S128x128 .i1) = Cert.ReferenceIdeal.Read.val_main_v17 (F := Ideal) :=
  (V2_of m c main_v17 (by decide)).trans (s1_v17 m c)

/-- After the third stretch: the window of earlier positions gathered for every position. -/
theorem s3_v25 (c : Dev nD) :
    (V3 m c (Proc.devRef .tc main_v25) : Vec Ideal S8x128x128x64 .f32) = Cert.ReferenceIdeal.Read.val_main_v25 (F := Ideal) (m ((c : Thread nD τ).loc main_arg0)) (m ((c : Thread nD τ).loc main_arg1)) := by
  have e6 := s2_v6 m c
  have e18 := s2_v18 m c
  show StableHlo.after hostOps0_2 (V2 m c) (Proc.devRef .tc main_v25) = _
  generalize V2 m c = V at e6 e18 ⊢
  after_results
  rw [e6, e18]
  rfl

/-- After the third stretch: the mask with its unit axes, and the zero the masked entries take. -/
theorem s3_v26 (c : Dev nD) :
    (V3 m c (Proc.devRef .tc main_v26) : Vec Ideal S1x128x128x1 .i1) = Cert.ReferenceIdeal.Read.val_main_v26 (F := Ideal) := by
  have e17 := s2_v17 m c
  show StableHlo.after hostOps0_2 (V2 m c) (Proc.devRef .tc main_v26) = _
  generalize V2 m c = V at e17 ⊢
  after_results
  rw [e17]
  rfl
theorem s3_cst (c : Dev nD) :
    (V3 m c (Proc.devRef .tc main_cst) : Vec Ideal S_ .f32) = Cert.ReferenceIdeal.Read.val_main_cst (F := Ideal) := by
  show StableHlo.after hostOps0_2 (V2 m c) (Proc.devRef .tc main_cst) = _
  generalize V2 m c = V
  after_results
  rfl

/-- After the fourth stretch (the masked choice): the context before flattening. -/
theorem s4_v27 (c : Dev nD) :
    (V4 m c (Proc.devRef .tc main_v27) : Vec Ideal S8x128x128x64 .f32) = Cert.ReferenceIdeal.Read.val_main_v27 (F := Ideal) (m ((c : Thread nD τ).loc main_arg0)) (m ((c : Thread nD τ).loc main_arg1)) := by
  have e25 := s3_v25 m c
  have e26 := s3_v26 m c
  have ec := s3_cst m c
  show StableHlo.after hostOps0_3 (V3 m c) (Proc.devRef .tc main_v27) = _
  generalize V3 m c = V at e25 e26 ec ⊢
  after_results
  dsimp only
  rw [e25, e26, ec]
  rfl

/-- After the fifth stretch: the flattened context, 8 × 128 × 8192, is the reference's. -/
theorem s5_v28 (c : Dev nD) :
    (V5 m c (Proc.devRef .tc main_v28) : Vec Ideal S8x128x8192 .f32) = Cert.ReferenceIdeal.Read.val_main_v28 (F := Ideal) (m ((c : Thread nD τ).loc main_arg0)) (m ((c : Thread nD τ).loc main_arg1)) := by
  have e27 := s4_v27 m c
  show StableHlo.after hostOps0_4 (V4 m c) (Proc.devRef .tc main_v28) = _
  generalize V4 m c = V at e27 ⊢
  after_results
  rw [e27]
  rfl

/-- The flattened context as the first region finds it: the same array, rows merged, converted. -/
theorem s5_v30 (c : Dev nD) :
    (V5 m c (Proc.devRef .tc main_v30) : Vec Ideal S1024x8192 .bf16)
      = truncf (F := Ideal) (s := S1024x8192) (φ := .f32) .bf16
          (shapeCast S1024x8192 (Cert.ReferenceIdeal.Read.val_main_v28 (F := Ideal) (m ((c : Thread nD τ).loc main_arg0)) (m ((c : Thread nD τ).loc main_arg1)) : Vec Ideal S8x128x8192 .f32)
            shapeCasts_S8x128x8192_S1024x8192) bitsLt_bf16_f32 := by
  have e27 := s4_v27 m c
  show StableHlo.after hostOps0_4 (V4 m c) (Proc.devRef .tc main_v30) = _
  generalize V4 m c = V at e27 ⊢
  after_results
  rw [e27]
  rfl

/-! ## The other host values the regions find -/

/-- No host stretch before the fifth writes an argument array. -/
theorem V4_arg (c : Dev nD) (r : Ref sig .tc) (h0 : r ∉ hostOps0_W) (h1 : r ∉ hostOps0_1_W) (h2 : r ∉ hostOps0_2_W)
    (h3 : r ∉ hostOps0_3_W) : V4 m c r = m ((c : Thread nD τ).loc r) :=
  (V4_of m c r h3).trans <| (V3_of m c r h2).trans <| (V2_of m c r h1).trans <| (V1_of m c r h0)

/-- The first layer's weights as the first region finds them: the argument, converted. -/
theorem s5_v31 (c : Dev nD) :
    (V5 m c (Proc.devRef .tc main_v31) : Vec Ideal S8192x8192 .bf16)
      = truncf (F := Ideal) (s := S8192x8192) (φ := .f32) .bf16 (m ((c : Thread nD τ).loc main_arg2)) bitsLt_bf16_f32 := by
  have ea := V4_arg m c main_arg2 (by decide) (by decide) (by decide) (by decide)
  show StableHlo.after hostOps0_4 (V4 m c) (Proc.devRef .tc main_v31) = _
  generalize V4 m c = V at ea ⊢
  after_results
  rw [ea]

/-- The second layer's weights likewise. -/
theorem s5_v32 (c : Dev nD) :
    (V5 m c (Proc.devRef .tc main_v32) : Vec Ideal S4096x8192 .bf16)
      = truncf (F := Ideal) (s := S4096x8192) (φ := .f32) .bf16 (m ((c : Thread nD τ).loc main_arg4)) bitsLt_bf16_f32 := by
  have ea := V4_arg m c main_arg4 (by decide) (by decide) (by decide) (by decide)
  show StableHlo.after hostOps0_4 (V4 m c) (Proc.devRef .tc main_v32) = _
  generalize V4 m c = V at ea ⊢
  after_results
  rw [ea]

/-- The two biases, each given a leading unit axis. -/
theorem s5_v33 (c : Dev nD) :
    (V5 m c (Proc.devRef .tc main_v33) : Vec Ideal S1x8192 .f32)
      = shapeCast S1x8192 ((m ((c : Thread nD τ).loc main_arg3)) : Vec Ideal S8192 .f32) shapeCasts_S8192_S1x8192 := by
  have ea := V4_arg m c main_arg3 (by decide) (by decide) (by decide) (by decide)
  show StableHlo.after hostOps0_4 (V4 m c) (Proc.devRef .tc main_v33) = _
  generalize V4 m c = V at ea ⊢
  after_results
  rw [ea]
  rfl
theorem s5_v34 (c : Dev nD) :
    (V5 m c (Proc.devRef .tc main_v34) : Vec Ideal S1x4096 .f32)
      = shapeCast S1x4096 ((m ((c : Thread nD τ).loc main_arg5)) : Vec Ideal S4096 .f32) shapeCasts_S4096_S1x4096 := by
  have ea := V4_arg m c main_arg5 (by decide) (by decide) (by decide) (by decide)
  show StableHlo.after hostOps0_4 (V4 m c) (Proc.devRef .tc main_v34) = _
  generalize V4 m c = V at ea ⊢
  after_results
  rw [ea]
  rfl

/-! ## Reading the reshaped arrays at coordinates -/

/-- Rows merged: entry (r, f) of the 1024 × 8192 reading is entry (r / 128, r % 128, f) of the 8 × 128 × 8192 array. -/
theorem merge_rows (x : Vec Ideal S8x128x8192 .f32) (r : Fin 1024) (f : Fin 8192) :
    (shapeCast S1024x8192 x shapeCasts_S8x128x8192_S1024x8192 : Vec Ideal S1024x8192 .f32) (ix2 r f)
      = x (ix3 (⟨r.val / 128, by have := r.isLt; omega⟩ : Fin 8) (⟨r.val % 128, Nat.mod_lt _ (by decide)⟩ : Fin 128) f) := by
  refine shapeCast_apply x _ _ _ ?_
  rw [Shape.rowMajor_val_three, Shape.rowMajor_val_two]
  show ((r.val / 128) * 128 + r.val % 128) * 8192 + f.val = r.val * 8192 + f.val
  omega

/-- Rows split: entry (b, t, v) of the 8 × 128 × 4096 reading is entry (128·b + t, v) of the 1024 × 4096 array. -/
theorem split_rows (x : Vec Ideal S1024x4096 .f32) (b : Fin 8) (t : Fin 128) (v : Fin 4096) :
    (shapeCast S8x128x4096 x shapeCasts_S1024x4096_S8x128x4096 : Vec Ideal S8x128x4096 .f32) (ix3 b t v)
      = x (ix2 (⟨128 * b.val + t.val, by have := b.isLt; have := t.isLt; omega⟩ : Fin 1024) v) := by
  refine shapeCast_apply x _ _ _ ?_
  rw [Shape.rowMajor_val_three, Shape.rowMajor_val_two]
  show (128 * b.val + t.val) * 4096 + v.val = (b.val * 128 + t.val) * 4096 + v.val
  omega

/-- A leading unit axis: entry (0, g) of the 1 × n reading is entry g. -/
theorem unit_axis_8192 (x : Vec Ideal S8192 .f32) (g : Fin 8192) :
    (shapeCast S1x8192 x shapeCasts_S8192_S1x8192 : Vec Ideal S1x8192 .f32) (ix2 (0 : Fin 1) g) = x (ix1 g) := by
  refine shapeCast_apply x _ _ _ ?_
  rw [Shape.rowMajor_val_one, Shape.rowMajor_val_two]
  show g.val = 0 * 8192 + g.val
  omega
theorem unit_axis_4096 (x : Vec Ideal S4096 .f32) (g : Fin 4096) :
    (shapeCast S1x4096 x shapeCasts_S4096_S1x4096 : Vec Ideal S1x4096 .f32) (ix2 (0 : Fin 1) g) = x (ix1 g) := by
  refine shapeCast_apply x _ _ _ ?_
  rw [Shape.rowMajor_val_one, Shape.rowMajor_val_two]
  show g.val = 0 * 4096 + g.val
  omega

/-! ## The host values at coordinates -/

theorem v30_at (c : Dev nD) (r : Fin 1024) (f : Fin 8192) :
    (V5 m c (Proc.devRef .tc main_v30) : Vec Ideal S1024x8192 .bf16) (ix2 r f)
      = (Cert.ReferenceIdeal.Read.val_main_v28 (F := Ideal) (m ((c : Thread nD τ).loc main_arg0)) (m ((c : Thread nD τ).loc main_arg1)) : Vec Ideal S8x128x8192 .f32)
          (ix3 (⟨r.val / 128, by have := r.isLt; omega⟩ : Fin 8) (⟨r.val % 128, Nat.mod_lt _ (by decide)⟩ : Fin 128) f) := by
  rw [s5_v30 m c]
  exact (truncf_apply (φ := .f32) (ψ := .bf16) _ bitsLt_bf16_f32 _).trans (merge_rows _ r f)

theorem v31_at (c : Dev nD) (g f : Fin 8192) :
    (V5 m c (Proc.devRef .tc main_v31) : Vec Ideal S8192x8192 .bf16) (ix2 g f) = ((m ((c : Thread nD τ).loc main_arg2)) : Vec Ideal S8192x8192 .f32) (ix2 g f) := by
  rw [s5_v31 m c]
  rfl

theorem v32_at (c : Dev nD) (v : Fin 4096) (g : Fin 8192) :
    (V5 m c (Proc.devRef .tc main_v32) : Vec Ideal S4096x8192 .bf16) (ix2 v g) = ((m ((c : Thread nD τ).loc main_arg4)) : Vec Ideal S4096x8192 .f32) (ix2 v g) := by
  rw [s5_v32 m c]
  rfl

theorem v33_at (c : Dev nD) (g : Fin 8192) :
    (V5 m c (Proc.devRef .tc main_v33) : Vec Ideal S1x8192 .f32) (ix2 (0 : Fin 1) g) = ((m ((c : Thread nD τ).loc main_arg3)) : Vec Ideal S8192 .f32) (ix1 g) := by
  rw [s5_v33 m c]
  exact unit_axis_8192 _ g

theorem v34_at (c : Dev nD) (v : Fin 4096) :
    (V5 m c (Proc.devRef .tc main_v34) : Vec Ideal S1x4096 .f32) (ix2 (0 : Fin 1) v) = ((m ((c : Thread nD τ).loc main_arg5)) : Vec Ideal S4096 .f32) (ix1 v) := by
  rw [s5_v34 m c]
  exact unit_axis_4096 _ v

end Cert.Proof.BridgeHost

end
-- ==== Proof.Bridge.lean ====
/- The two programs end with the same result: the kernel program's result buffer (the second region's output
   array, reshaped) and the reference's result term are one function of the argument arrays — both are the output layer
   of the hidden layer of the shared flattened context. -/
import proofs.«141452_j42734924595240_1_alg».proof.Proof.KernelIdealRun
import proofs.«141452_j42734924595240_1_alg».proof.Proof.KernelIdealValue
import proofs.«141452_j42734924595240_1_alg».proof.Proof.RefValue
import proofs.«141452_j42734924595240_1_alg».proof.Proof.BridgeHost

set_option maxRecDepth 16384

noncomputable section

namespace Cert.Proof.Bridge

open Idealize.ShloMosaic Idealize.ShloMosaic.TcCoe Idealize.SL.Sem
open Idealize.ShloMosaic.ValueIdx

open Cert.Proof.BridgeHost

section Found

open Cert.KernelIdeal Cert.KernelIdeal.Gen Cert.KernelIdeal.Hand

variable (m : (ℓ : Loc nD τ sig) → Buf (Elt Ideal) ℓ) (c : Dev nD)

/-! ## What the first region finds -/

/-- Its row operand is the reference's flattened context. -/
theorem X0_eq : X0 (Ve0 m) c = Cert.ReferenceIdeal.Hand.ctxR (m ((c.tc : Thread nD τ).loc main_arg0)) (m ((c.tc : Thread nD τ).loc main_arg1)) := by
  funext r f
  exact v30_at m c r f

/-- Its weights and bias are the arguments'. -/
theorem Wt0_eq : Wt0 (Ve0 m) c = fun g f => ((m ((c.tc : Thread nD τ).loc main_arg2)) : Vec Ideal S8192x8192 .f32) (ix2 g f) := by
  funext g f
  exact v31_at m c g f
theorem B0_eq : B0 (Ve0 m) c = fun g => ((m ((c.tc : Thread nD τ).loc main_arg3)) : Vec Ideal S8192 .f32) (ix1 g) := by
  funext g
  exact v33_at m c g

/-! ## What the second region finds -/

/-- Its row operand is the hidden layer the first region left. -/
theorem X1_eq : X1 (Ve1 m) c = Cert.Spec.hidden (X0 (Ve0 m) c) (Wt0 (Ve0 m) c) (B0 (Ve0 m) c) := by
  funext r g
  unfold X1
  rw [Ve1_main_v35 m c]
  exact arr0_final (Ve0 m) c (dat0 (Ve0 m) c) (A_eq0 (Ve0 m) c) (after0_3 (Ve0 m) c) r g

/-- Its weights and bias are the arguments'. -/
theorem Wt1_eq : Wt1 (Ve1 m) c = fun v g => ((m ((c.tc : Thread nD τ).loc main_arg4)) : Vec Ideal S4096x8192 .f32) (ix2 v g) := by
  funext v g
  unfold Wt1
  rw [Ve1_main_v32 m c]
  exact v32_at m c v g
theorem B1_eq : B1 (Ve1 m) c = fun v => ((m ((c.tc : Thread nD τ).loc main_arg5)) : Vec Ideal S4096 .f32) (ix1 v) := by
  funext v
  unfold B1
  rw [Ve1_main_v34 m c]
  exact v34_at m c v

/-- The result buffer at (b, t, v): the output layer of the hidden layer of row 128·b + t of the flattened context. -/
theorem W8_value (b : Fin 8) (t : Fin 128) (v : Fin 4096) :
    (W8 (F := Ideal) m c (Proc.devRef .tc main_v37) : Vec Ideal S8x128x4096 .f32) (ix3 b t v)
      = Cert.Spec.logits
          (Cert.Spec.hidden
            (Cert.ReferenceIdeal.Hand.ctxR (m ((c.tc : Thread nD τ).loc main_arg0)) (m ((c.tc : Thread nD τ).loc main_arg1)))
            (fun g f => ((m ((c.tc : Thread nD τ).loc main_arg2)) : Vec Ideal S8192x8192 .f32) (ix2 g f))
            (fun g => ((m ((c.tc : Thread nD τ).loc main_arg3)) : Vec Ideal S8192 .f32) (ix1 g)))
          (fun v g => ((m ((c.tc : Thread nD τ).loc main_arg4)) : Vec Ideal S4096x8192 .f32) (ix2 v g))
          (fun v => ((m ((c.tc : Thread nD τ).loc main_arg5)) : Vec Ideal S4096 .f32) (ix1 v))
          (Cert.ReferenceIdeal.Hand.row b t) v := by
  rw [W8_main_v37 m c]
  refine (split_rows _ b t v).trans ?_
  refine (arr1_final (Ve1 m) c (dat1 (Ve1 m) c) (A_eq1 (Ve1 m) c) (after1_3 (Ve1 m) c)
    (Cert.ReferenceIdeal.Hand.row b t) v).trans ?_
  rw [X1_eq m c, X0_eq m c, Wt0_eq m c, B0_eq m c, Wt1_eq m c, B1_eq m c]

end Found

/-- From memories that agree on the six arguments, the reference's result term is what the kernel program's run
    leaves in its result buffer. -/
theorem result_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_main_v49 (F := Ideal) m' c
      = Cert.KernelIdeal.Hand.W8 (F := Ideal) m c (Proc.devRef .tc Cert.KernelIdeal.main_v37) := by
  show (Cert.ReferenceIdeal.Value.res_main_v49 (F := Ideal) m' c : Vec Ideal Cert.ReferenceIdeal.S8x128x4096 .f32)
      = (Cert.KernelIdeal.Hand.W8 (F := Ideal) m c (Proc.devRef .tc Cert.KernelIdeal.main_v37) : Vec Ideal Cert.ReferenceIdeal.S8x128x4096 .f32)
  funext i
  obtain ⟨b, t, v, rfl⟩ : ∃ (b : Fin 8) (t : Fin 128) (v : Fin 4096), i = ix3 b t v := ⟨i 0, i 1, i 2, eq_ix3 i⟩
  rw [Cert.ReferenceIdeal.Hand.ref_value m' c b t v, h0, h1, h2, h3, h4, h5]
  exact (W8_value m c b t v).symm

end Cert.Proof.Bridge

end
-- ==== Proof.lean ====
/- The certificate's five claims.
   The kernel program is two matmul regions over a shared flattened context: a hidden layer with tanh-form GELU and an
   output layer, each accumulating its product in four quarters of the feature axis; the reference is the same two
   layers as whole einsums. Over the extended reals a sum taken in consecutive quarters is the same sum, a change of
   float format is the identity, and the two programs apply the same host operations to build the context, so the two
   results are one function of the arguments. The frames: each region's body runs at every grid point from the
   accumulator the point before left; the reference is a straight-line host program. -/
import proofs.«141452_j42734924595240_1_alg».proof.Defs
import proofs.«141452_j42734924595240_1_alg».proof.Proof.Gen.Kernel
import proofs.«141452_j42734924595240_1_alg».proof.Proof.Gen.KernelIdeal
import proofs.«141452_j42734924595240_1_alg».proof.Proof.Gen.ReferenceIdeal
import proofs.«141452_j42734924595240_1_alg».proof.Proof.Gen.Pre_finite_inputs
import proofs.«141452_j42734924595240_1_alg».proof.Proof.KernelRun
import proofs.«141452_j42734924595240_1_alg».proof.Proof.KernelIdealRun
import proofs.«141452_j42734924595240_1_alg».proof.Proof.RefImports
import proofs.«141452_j42734924595240_1_alg».proof.Proof.Bridge

noncomputable section

namespace Cert.Proof

open Idealize.ShloMosaic Idealize.SL.Sem

section Claims

variable [Cert.Kernel.Facts] [Cert.KernelIdeal.Facts] [Cert.ReferenceIdeal.Facts] [Cert.Pre_finite_inputs.Facts]

/-- The word-level kernel program runs to the end and leaves its arguments as launched. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference is a host program: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the same result: the kernel program's result buffer at the end of its run, which
    the reference's result term equals when the memories agree on the arguments. -/
theorem algebraic : Cert.algebraic_KernelIdeal_ReferenceIdeal := by
  intro m ρ m' ρ' _ hagree
  refine ⟨fun c => Cert.KernelIdeal.Hand.W8 (F := Ideal) m c (Proc.devRef .tc Cert.KernelIdeal.main_v37), ?_, ?_⟩
  · refine (θ_run Cert.KernelIdeal.defs _ _).mono (fun r h c => ?_) (Cert.KernelIdeal.Hand.run_all (F := Ideal) m ρ)
    exact ⟨h c _ (Cert.KernelIdeal.Hand.mem_uc Cert.KernelIdeal.main_v37 (by decide)),
      (h c _ (Cert.KernelIdeal.Hand.mem_uc Cert.KernelIdeal.main_arg0 (by decide))).trans (Cert.KernelIdeal.Hand.W8_main_arg0 m c),
      (h c _ (Cert.KernelIdeal.Hand.mem_uc Cert.KernelIdeal.main_arg1 (by decide))).trans (Cert.KernelIdeal.Hand.W8_main_arg1 m c),
      (h c _ (Cert.KernelIdeal.Hand.mem_uc Cert.KernelIdeal.main_arg2 (by decide))).trans (Cert.KernelIdeal.Hand.W8_main_arg2 m c),
      (h c _ (Cert.KernelIdeal.Hand.mem_uc Cert.KernelIdeal.main_arg3 (by decide))).trans (Cert.KernelIdeal.Hand.W8_main_arg3 m c),
      (h c _ (Cert.KernelIdeal.Hand.mem_uc Cert.KernelIdeal.main_arg4 (by decide))).trans (Cert.KernelIdeal.Hand.W8_main_arg4 m c),
      (h c _ (Cert.KernelIdeal.Hand.mem_uc Cert.KernelIdeal.main_arg5 (by decide))).trans (Cert.KernelIdeal.Hand.W8_main_arg5 m c)⟩
  · refine (θ_run Cert.ReferenceIdeal.defs _ _).mono (fun r h c => ⟨(h c).1.trans ?_, (h c).2⟩)
      (Cert.ReferenceIdeal.Value.run (F := Ideal) m' ρ')
    exact Cert.Proof.Bridge.result_eq m m' c (hagree c).1 (hagree c).2.1 (hagree c).2.2.1 (hagree c).2.2.2.1
      (hagree c).2.2.2.2.1 (hagree c).2.2.2.2.2

end Claims

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
